-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v105)) (v2 : (c : Dev Cert.KernelIdeal.nD) → Buf (Elt Ideal) ((c.tc : Thread Cert.KernelIdeal.nD Cert.KernelIdeal.τ).loc Cert.KernelIdeal.main_v107)) (v3 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_v107) = v2 c
          ∧ r.2.mem ((c.tc : Thread Cert.KernelIdeal.nD Cert.KernelIdeal.τ).loc Cert.KernelIdeal.main_v63) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x3 : Shape := ⟨3, ![64, 256, 3]⟩
abbrev S64x256x2 : Shape := ⟨3, ![64, 256, 2]⟩
abbrev S512x64x3 : Shape := ⟨3, ![512, 64, 3]⟩
abbrev S513x512 : Shape := ⟨2, ![513, 512]⟩
abbrev S_ : Shape := ⟨0, ![]⟩
abbrev S512x64x2 : Shape := ⟨3, ![512, 64, 2]⟩

class Facts : Prop where
  bcast_S_S64x256x2 : S_.BroadcastsInDim S64x256x2 (![] : Fin 0 → Fin S64x256x2.rank)
  reducesTo_S64x256x2_S_d0_1_2 : S64x256x2.ReducesTo [0, 1, 2] S_
  h_S_ : 0 < S_.numel
  bcast_S_S513x512 : S_.BroadcastsInDim S513x512 (![] : Fin 0 → Fin S513x512.rank)
  reducesTo_S513x512_S_d0_1 : S513x512.ReducesTo [0, 1] S_
  slices_S64x256x3_S64x256x2_0_0_0 : S64x256x3.Slices ![0, 0, 0] S64x256x2
  slices_S512x64x3_S512x64x2_0_0_0 : S512x64x3.Slices ![0, 0, 0] S512x64x2
  bcast_S_S512x64x2 : S_.BroadcastsInDim S512x64x2 (![] : Fin 0 → Fin S512x64x2.rank)
  reducesTo_S512x64x2_S_d0_1_2 : S512x64x2.ReducesTo [0, 1, 2] S_

variable [Facts]

def fn_part2 {F : FTy → Type} [FloatOps F] (main_v31 : IVec S_ 1) (main_v32 : IVec S512x64x2 32) (main_c_12 : IVec S_ 32) : IVec S_ 1 :=
  let main_v33 : IVec S512x64x2 32 := broadcastInDim S512x64x2 ![] bcast_S_S512x64x2 main_c_12
  let main_v34 : IVec S512x64x2 1 := cmpi .sge main_v32 main_v33
  let main_c_13 : IVec S_ 1 := constantI S_ 1 1#1
  let main_v35 : IVec S_ 1 := (fun x v => Host.reduce IntOp.andi x v reducesTo_S512x64x2_S_d0_1_2 h_S_) main_v34 main_c_13
  let main_c_14 : IVec S_ 32 := constantI S_ 32 512#32
  let main_v36 : IVec S512x64x2 32 := broadcastInDim S512x64x2 ![] bcast_S_S512x64x2 main_c_14
  let main_v37 : IVec S512x64x2 1 := cmpi .sle main_v32 main_v36
  let main_c_15 : IVec S_ 1 := constantI S_ 1 1#1
  let main_v38 : IVec S_ 1 := (fun x v => Host.reduce IntOp.andi x v reducesTo_S512x64x2_S_d0_1_2 h_S_) main_v37 main_c_15
  let main_v39 : IVec S_ 1 := andi main_v35 main_v38
  let main_v40 : IVec S_ 1 := andi main_v31 main_v39
  main_v40

def fn_part1 {F : FTy → Type} [FloatOps F] (main_arg2 : IVec S512x64x3 32) (main_arg3 : IVec S512x64x3 32) (main_v13 : IVec S_ 1) (main_v14 : IVec S64x256x2 32) (main_v16 : IVec S64x256x2 1) : IVec S_ 1 :=
  let main_c_5 : IVec S_ 1 := constantI S_ 1 1#1
  let main_v17 : IVec S_ 1 := (fun x v => Host.reduce IntOp.andi x v reducesTo_S64x256x2_S_d0_1_2 h_S_) main_v16 main_c_5
  let main_c_6 : IVec S_ 32 := constantI S_ 32 512#32
  let main_v18 : IVec S64x256x2 32 := broadcastInDim S64x256x2 ![] bcast_S_S64x256x2 main_c_6
  let main_v19 : IVec S64x256x2 1 := cmpi .sle main_v14 main_v18
  let main_c_7 : IVec S_ 1 := constantI S_ 1 1#1
  let main_v20 : IVec S_ 1 := (fun x v => Host.reduce IntOp.andi x v reducesTo_S64x256x2_S_d0_1_2 h_S_) main_v19 main_c_7
  let main_v21 : IVec S_ 1 := andi main_v17 main_v20
  let main_v22 : IVec S_ 1 := andi main_v13 main_v21
  let main_v23 : IVec S512x64x2 32 := (extractStridedSlice S512x64x2 ![0, 0, 0] · slices_S512x64x3_S512x64x2_0_0_0) main_arg2
  let main_c_8 : IVec S_ 32 := constantI S_ 32 0#32
  let main_v24 : IVec S512x64x2 32 := broadcastInDim S512x64x2 ![] bcast_S_S512x64x2 main_c_8
  let main_v25 : IVec S512x64x2 1 := cmpi .sge main_v23 main_v24
  let main_c_9 : IVec S_ 1 := constantI S_ 1 1#1
  let main_v26 : IVec S_ 1 := (fun x v => Host.reduce IntOp.andi x v reducesTo_S512x64x2_S_d0_1_2 h_S_) main_v25 main_c_9
  let main_c_10 : IVec S_ 32 := constantI S_ 32 512#32
  let main_v27 : IVec S512x64x2 32 := broadcastInDim S512x64x2 ![] bcast_S_S512x64x2 main_c_10
  let main_v28 : IVec S512x64x2 1 := cmpi .sle main_v23 main_v27
  let main_c_11 : IVec S_ 1 := constantI S_ 1 1#1
  let main_v29 : IVec S_ 1 := (fun x v => Host.reduce IntOp.andi x v reducesTo_S512x64x2_S_d0_1_2 h_S_) main_v28 main_c_11
  let main_v30 : IVec S_ 1 := andi main_v26 main_v29
  let main_v31 : IVec S_ 1 := andi main_v22 main_v30
  let main_v32 : IVec S512x64x2 32 := (extractStridedSlice S512x64x2 ![0, 0, 0] · slices_S512x64x3_S512x64x2_0_0_0) main_arg3
  let main_c_12 : IVec S_ 32 := constantI S_ 32 0#32
  fn_part2 (F := F) main_v31 main_v32 main_c_12

def fn {F : FTy → Type} [FloatOps F] (main_arg0 : IVec S64x256x3 32) (main_arg1 : FVec F S64x256x2 .f32) (main_arg2 : IVec S512x64x3 32) (main_arg3 : IVec S512x64x3 32) (main_arg4 : FVec F S513x512 .f32) (main_arg5 : FVec F S513x512 .f32) : IVec S_ 1 :=
  let main_v0 : FVec F S64x256x2 .f32 := Host.absf main_arg1
  let main_cst : FVec F S_ .f32 := constant S_ .f32 0x7F800000#32
  let main_v1 : FVec F S64x256x2 .f32 := broadcastInDim S64x256x2 ![] bcast_S_S64x256x2 main_cst
  let main_v2 : IVec S64x256x2 1 := cmpf .olt main_v0 main_v1
  let main_c : IVec S_ 1 := constantI S_ 1 1#1
  let main_v3 : IVec S_ 1 := (fun x v => Host.reduce IntOp.andi x v reducesTo_S64x256x2_S_d0_1_2 h_S_) main_v2 main_c
  let main_v4 : FVec F S513x512 .f32 := Host.absf main_arg4
  let main_cst_0 : FVec F S_ .f32 := constant S_ .f32 0x7F800000#32
  let main_v5 : FVec F S513x512 .f32 := broadcastInDim S513x512 ![] bcast_S_S513x512 main_cst_0
  let main_v6 : IVec S513x512 1 := cmpf .olt main_v4 main_v5
  let main_c_1 : IVec S_ 1 := constantI S_ 1 1#1
  let main_v7 : IVec S_ 1 := (fun x v => Host.reduce IntOp.andi x v reducesTo_S513x512_S_d0_1 h_S_) main_v6 main_c_1
  let main_v8 : IVec S_ 1 := andi main_v3 main_v7
  let main_v9 : FVec F S513x512 .f32 := Host.absf main_arg5
  let main_cst_2 : FVec F S_ .f32 := constant S_ .f32 0x7F800000#32
  let main_v10 : FVec F S513x512 .f32 := broadcastInDim S513x512 ![] bcast_S_S513x512 main_cst_2
  let main_v11 : IVec S513x512 1 := cmpf .olt main_v9 main_v10
  let main_c_3 : IVec S_ 1 := constantI S_ 1 1#1
  let main_v12 : IVec S_ 1 := (fun x v => Host.reduce IntOp.andi x v reducesTo_S513x512_S_d0_1 h_S_) main_v11 main_c_3
  let main_v13 : IVec S_ 1 := andi main_v8 main_v12
  let main_v14 : IVec S64x256x2 32 := (extractStridedSlice S64x256x2 ![0, 0, 0] · slices_S64x256x3_S64x256x2_0_0_0) main_arg0
  let main_c_4 : IVec S_ 32 := constantI S_ 32 0#32
  let main_v15 : IVec S64x256x2 32 := broadcastInDim S64x256x2 ![] bcast_S_S64x256x2 main_c_4
  let main_v16 : IVec S64x256x2 1 := cmpi .sge main_v14 main_v15
  fn_part1 (F := F) main_arg2 main_arg3 main_v13 main_v14 main_v16
-- ==== Kernel.lean ====
abbrev S64x256x3 : Shape := ⟨3, ![64, 256, 3]⟩
abbrev S64x256x2 : Shape := ⟨3, ![64, 256, 2]⟩
abbrev S512x64x3 : Shape := ⟨3, ![512, 64, 3]⟩
abbrev S513x512 : Shape := ⟨2, ![513, 512]⟩
abbrev S64x256x1 : Shape := ⟨3, ![64, 256, 1]⟩
abbrev S64x256 : Shape := ⟨2, ![64, 256]⟩
abbrev S_ : Shape := ⟨0, ![]⟩
abbrev S64 : Shape := ⟨1, ![64]⟩
abbrev S64x1 : Shape := ⟨2, ![64, 1]⟩
abbrev S256 : Shape := ⟨1, ![256]⟩
abbrev S1x256 : Shape := ⟨2, ![1, 256]⟩
abbrev S16384 : Shape := ⟨1, ![16384]⟩
abbrev S32769 : Shape := ⟨1, ![32769]⟩
abbrev S16384x1 : Shape := ⟨2, ![16384, 1]⟩
abbrev S32768 : Shape := ⟨1, ![32768]⟩
abbrev S16384x3 : Shape := ⟨2, ![16384, 3]⟩
abbrev S16384x2 : Shape := ⟨2, ![16384, 2]⟩
abbrev S32768x1 : Shape := ⟨2, ![32768, 1]⟩
abbrev S32768x3 : Shape := ⟨2, ![32768, 3]⟩
abbrev S64x512x3 : Shape := ⟨3, ![64, 512, 3]⟩
abbrev S32768x2 : Shape := ⟨2, ![32768, 2]⟩
abbrev S64x512x1 : Shape := ⟨3, ![64, 512, 1]⟩
abbrev S64x512 : Shape := ⟨2, ![64, 512]⟩
abbrev S64x512x2 : Shape := ⟨3, ![64, 512, 2]⟩
abbrev S512x64x1 : Shape := ⟨3, ![512, 64, 1]⟩
abbrev S512x64 : Shape := ⟨2, ![512, 64]⟩
abbrev S512x64x2 : Shape := ⟨3, ![512, 64, 2]⟩
abbrev S640x512 : Shape := ⟨2, ![640, 512]⟩
abbrev S32768x1024 : Shape := ⟨2, ![32768, 1024]⟩
abbrev S1024x2 : Shape := ⟨2, ![1024, 2]⟩
abbrev S1024x1024 : Shape := ⟨2, ![1024, 1024]⟩
abbrev S1024x1 : Shape := ⟨2, ![1024, 1]⟩
abbrev S1024 : Shape := ⟨1, ![1024]⟩
abbrev S1024x640 : Shape := ⟨2, ![1024, 640]⟩
abbrev S1024x512 : Shape := ⟨2, ![1024, 512]⟩
abbrev S64x512x1024 : Shape := ⟨3, ![64, 512, 1024]⟩
abbrev S512x64x1024 : Shape := ⟨3, ![512, 64, 1024]⟩

abbrev nBuf : Space → Nat
  | .hbm => 183
  | .vmem => 24
  | .smem => 0
  | _ => 0

abbrev hbmTy0_0 (i : Nat) : BufTy := match i % 128 with
  | 0 => ⟨S64x256x3, .i32⟩
  | 1 => ⟨S64x256x2, .f32⟩
  | 2 => ⟨S512x64x3, .i32⟩
  | 3 => ⟨S512x64x3, .i32⟩
  | 4 => ⟨S513x512, .f32⟩
  | 5 => ⟨S513x512, .f32⟩
  | 6 => ⟨S64x256x1, .i32⟩
  | 7 => ⟨S64x256, .i32⟩
  | 8 => ⟨S_, .i32⟩
  | 9 => ⟨S64x256, .i32⟩
  | 10 => ⟨S64x256, .i1⟩
  | 11 => ⟨S_, .i32⟩
  | 12 => ⟨S64x256, .i32⟩
  | 13 => ⟨S64x256, .i1⟩
  | 14 => ⟨S64x256, .i1⟩
  | 15 => ⟨S64, .i32⟩
  | 16 => ⟨S64x1, .i32⟩
  | 17 => ⟨S_, .i32⟩
  | 18 => ⟨S64x1, .i32⟩
  | 19 => ⟨S64x1, .i32⟩
  | 20 => ⟨S64x256, .i32⟩
  | 21 => ⟨S64x256, .i32⟩
  | 22 => ⟨S_, .i32⟩
  | 23 => ⟨S_, .i32⟩
  | 24 => ⟨S64x256, .i32⟩
  | 25 => ⟨S64x256, .i32⟩
  | 26 => ⟨S256, .i32⟩
  | 27 => ⟨S1x256, .i32⟩
  | 28 => ⟨S64x256, .i32⟩
  | 29 => ⟨S16384, .i32⟩
  | 30 => ⟨S16384, .i32⟩
  | 31 => ⟨S_, .i32⟩
  | 32 => ⟨S32769, .i32⟩
  | 33 => ⟨S16384x1, .i32⟩
  | 34 => ⟨S32769, .i32⟩
  | 35 => ⟨S32768, .i32⟩
  | 36 => ⟨S_, .i32⟩
  | 37 => ⟨S32768, .i32⟩
  | 38 => ⟨S32768, .i1⟩
  | 39 => ⟨S32768, .i32⟩
  | 40 => ⟨S_, .i32⟩
  | 41 => ⟨S_, .i32⟩
  | 42 => ⟨S32768, .i32⟩
  | 43 => ⟨S32768, .i32⟩
  | 44 => ⟨S32768, .i32⟩
  | 45 => ⟨S_, .i32⟩
  | 46 => ⟨S32768, .i32⟩
  | 47 => ⟨S32768, .i1⟩
  | 48 => ⟨S32768, .i32⟩
  | 49 => ⟨S32768, .i32⟩
  | 50 => ⟨S_, .i32⟩
  | 51 => ⟨S32768, .i32⟩
  | 52 => ⟨S32768, .i1⟩
  | 53 => ⟨S32768, .i1⟩
  | 54 => ⟨S_, .i32⟩
  | 55 => ⟨S32768, .i32⟩
  | 56 => ⟨S32768, .i32⟩
  | 57 => ⟨S32768, .i32⟩
  | 58 => ⟨S_, .i32⟩
  | 59 => ⟨S32768, .i32⟩
  | 60 => ⟨S32768, .i32⟩
  | 61 => ⟨S_, .i32⟩
  | 62 => ⟨S_, .i32⟩
  | 63 => ⟨S32768, .i32⟩
  | 64 => ⟨S32768, .i32⟩
  | 65 => ⟨S32768, .i32⟩
  | 66 => ⟨S16384x3, .i32⟩
  | 67 => ⟨S16384x3, .f32⟩
  | 68 => ⟨S16384x2, .f32⟩
  | 69 => ⟨S32768x1, .i1⟩
  | 70 => ⟨S_, .i32⟩
  | 71 => ⟨S32768, .i32⟩
  | 72 => ⟨S32768, .i1⟩
  | 73 => ⟨S_, .i32⟩
  | 74 => ⟨S32768, .i32⟩
  | 75 => ⟨S32768, .i32⟩
  | 76 => ⟨S32768, .i32⟩
  | 77 => ⟨S32768x1, .i32⟩
  | 78 => ⟨S32768x3, .f32⟩
  | 79 => ⟨S_, .f32⟩
  | 80 => ⟨S_, .f32⟩
  | 81 => ⟨S32768x3, .i1⟩
  | 82 => ⟨S32768x3, .f32⟩
  | 83 => ⟨S32768x3, .f32⟩
  | 84 => ⟨S64x512x3, .f32⟩
  | 85 => ⟨S_, .i32⟩
  | 86 => ⟨S32768, .i32⟩
  | 87 => ⟨S32768, .i1⟩
  | 88 => ⟨S_, .i32⟩
  | 89 => ⟨S32768, .i32⟩
  | 90 => ⟨S32768, .i32⟩
  | 91 => ⟨S32768, .i32⟩
  | 92 => ⟨S32768x1, .i32⟩
  | 93 => ⟨S32768x2, .f32⟩
  | 94 => ⟨S_, .i32⟩
  | 95 => ⟨S32768, .i32⟩
  | 96 => ⟨S32768, .i1⟩
  | 97 => ⟨S_, .i32⟩
  | 98 => ⟨S32768, .i32⟩
  | 99 => ⟨S32768, .i32⟩
  | 100 => ⟨S32768, .i32⟩
  | 101 => ⟨S32768x1, .i32⟩
  | 102 => ⟨S_, .i32⟩
  | 103 => ⟨S32768x1, .i32⟩
  | 104 => ⟨S32768x2, .i32⟩
  | 105 => ⟨S32768x1, .f32⟩
  | 106 => ⟨S32768x3, .f32⟩
  | 107 => ⟨S32768x1, .i1⟩
  | 108 => ⟨S_, .f32⟩
  | 109 => ⟨S_, .f32⟩
  | 110 => ⟨S32768x3, .i1⟩
  | 111 => ⟨S32768x3, .f32⟩
  | 112 => ⟨S32768x3, .f32⟩
  | 113 => ⟨S64x512x3, .f32⟩
  | 114 => ⟨S64x512x1, .f32⟩
  | 115 => ⟨S64x512, .f32⟩
  | 116 => ⟨S64x512x1, .f32⟩
  | 117 => ⟨S64x512, .f32⟩
  | 118 => ⟨S64x512x1, .f32⟩
  | 119 => ⟨S64x512x1, .f32⟩
  | 120 => ⟨S64x512x2, .f32⟩
  | 121 => ⟨S64x512x2, .i32⟩
  | 122 => ⟨S512x64x1, .i32⟩
  | 123 => ⟨S512x64, .i32⟩
  | 124 => ⟨S512x64x1, .i32⟩
  | 125 => ⟨S512x64, .i32⟩
  | 126 => ⟨S512x64x1, .i32⟩
  | 127 => ⟨S512x64x1, .i32⟩
  | _ => ⟨S64x256x3, .i32⟩

abbrev hbmTy0_1 (i : Nat) : BufTy := match i % 128 with
  | 0 => ⟨S512x64x2, .i32⟩
  | 1 => ⟨S512x64x1, .i32⟩
  | 2 => ⟨S512x64, .i32⟩
  | 3 => ⟨S512x64x1, .i32⟩
  | 4 => ⟨S512x64, .i32⟩
  | 5 => ⟨S512x64x1, .i32⟩
  | 6 => ⟨S512x64x1, .i32⟩
  | 7 => ⟨S512x64x2, .i32⟩
  | 8 => ⟨S32768x2, .i32⟩
  | 9 => ⟨S_, .i32⟩
  | 10 => ⟨S_, .i32⟩
  | 11 => ⟨S_, .i32⟩
  | 12 => ⟨S32768x2, .i32⟩
  | 13 => ⟨S32768x2, .i32⟩
  | 14 => ⟨S_, .i32⟩
  | 15 => ⟨S32768x2, .i32⟩
  | 16 => ⟨S32768x2, .i32⟩
  | 17 => ⟨S32768x2, .i32⟩
  | 18 => ⟨S_, .i32⟩
  | 19 => ⟨S_, .i32⟩
  | 20 => ⟨S_, .i32⟩
  | 21 => ⟨S32768x2, .i32⟩
  | 22 => ⟨S32768x2, .i32⟩
  | 23 => ⟨S_, .i32⟩
  | 24 => ⟨S32768x2, .i32⟩
  | 25 => ⟨S32768x2, .i32⟩
  | 26 => ⟨S32768x2, .i32⟩
  | 27 => ⟨S_, .i32⟩
  | 28 => ⟨S_, .i32⟩
  | 29 => ⟨S_, .i32⟩
  | 30 => ⟨S32768x2, .i32⟩
  | 31 => ⟨S32768x2, .i32⟩
  | 32 => ⟨S_, .i32⟩
  | 33 => ⟨S32768x2, .i32⟩
  | 34 => ⟨S32768x2, .i32⟩
  | 35 => ⟨S_, .i32⟩
  | 36 => ⟨S_, .f32⟩
  | 37 => ⟨S640x512, .f32⟩
  | 38 => ⟨S_, .i32⟩
  | 39 => ⟨S_, .f32⟩
  | 40 => ⟨S640x512, .f32⟩
  | 41 => ⟨S640x512, .bf16⟩
  | 42 => ⟨S640x512, .f32⟩
  | 43 => ⟨S640x512, .f32⟩
  | 44 => ⟨S640x512, .bf16⟩
  | 45 => ⟨S640x512, .bf16⟩
  | 46 => ⟨S640x512, .f32⟩
  | 47 => ⟨S640x512, .f32⟩
  | 48 => ⟨S640x512, .bf16⟩
  | 49 => ⟨S32768x1024, .f32⟩
  | 50 => ⟨S64x512x1024, .f32⟩
  | 51 => ⟨S32768x1024, .f32⟩
  | 52 => ⟨S512x64x1024, .f32⟩
  | 53 => ⟨S32768x1024, .f32⟩
  | 54 => ⟨S512x64x1024, .f32⟩
  | _ => ⟨S64x256x3, .i32⟩

abbrev hbmTy (i : Nat) : BufTy := match i / 128 with
  | 0 => hbmTy0_0 i
  | 1 => hbmTy0_1 i
  | _ => ⟨S64x256x3, .i32⟩

abbrev bufTy : (tb : Table) → Fin (tcTables nBuf tb) → BufTy
  | .hbm, ⟨i, _⟩ => hbmTy i
  | .local _ .vmem, ⟨0, _⟩ => ⟨S640x512, .bf16⟩
  | .local _ .vmem, ⟨1, _⟩ => ⟨S640x512, .bf16⟩
  | .local _ .vmem, ⟨2, _⟩ => ⟨S640x512, .bf16⟩
  | .local _ .vmem, ⟨3, _⟩ => ⟨S640x512, .bf16⟩
  | .local _ .vmem, ⟨4, _⟩ => ⟨S1024x2, .i32⟩
  | .local _ .vmem, ⟨5, _⟩ => ⟨S1024x2, .i32⟩
  | .local _ .vmem, ⟨6, _⟩ => ⟨S1024x1024, .f32⟩
  | .local _ .vmem, ⟨7, _⟩ => ⟨S1024x1024, .f32⟩
  | .local _ .vmem, ⟨8, _⟩ => ⟨S640x512, .bf16⟩
  | .local _ .vmem, ⟨9, _⟩ => ⟨S640x512, .bf16⟩
  | .local _ .vmem, ⟨10, _⟩ => ⟨S640x512, .bf16⟩
  | .local _ .vmem, ⟨11, _⟩ => ⟨S640x512, .bf16⟩
  | .local _ .vmem, ⟨12, _⟩ => ⟨S1024x2, .i32⟩
  | .local _ .vmem, ⟨13, _⟩ => ⟨S1024x2, .i32⟩
  | .local _ .vmem, ⟨14, _⟩ => ⟨S1024x1024, .f32⟩
  | .local _ .vmem, ⟨15, _⟩ => ⟨S1024x1024, .f32⟩
  | .local _ .vmem, ⟨16, _⟩ => ⟨S640x512, .bf16⟩
  | .local _ .vmem, ⟨17, _⟩ => ⟨S640x512, .bf16⟩
  | .local _ .vmem, ⟨18, _⟩ => ⟨S640x512, .bf16⟩
  | .local _ .vmem, ⟨19, _⟩ => ⟨S640x512, .bf16⟩
  | .local _ .vmem, ⟨20, _⟩ => ⟨S1024x2, .i32⟩
  | .local _ .vmem, ⟨21, _⟩ => ⟨S1024x2, .i32⟩
  | .local _ .vmem, ⟨22, _⟩ => ⟨S1024x1024, .f32⟩
  | .local _ .vmem, ⟨23, _⟩ => ⟨S1024x1024, .f32⟩
  | _, _ => ⟨S64x256x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_c_7 : Ref sig .tc := ⟨.hbm, 61, rfl⟩
abbrev main_call2_v0 : Ref sig .tc := ⟨.hbm, 62, rfl⟩
abbrev main_call2_v1 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_8 : Ref sig .tc := ⟨.hbm, 70, rfl⟩
abbrev main_v35 : Ref sig .tc := ⟨.hbm, 71, rfl⟩
abbrev main_v36 : Ref sig .tc := ⟨.hbm, 72, rfl⟩
abbrev main_c_9 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v42 : Ref sig .tc := ⟨.hbm, 83, rfl⟩
abbrev main_v43 : Ref sig .tc := ⟨.hbm, 84, rfl⟩
abbrev main_c_10 : Ref sig .tc := ⟨.hbm, 85, rfl⟩
abbrev main_v44 : Ref sig .tc := ⟨.hbm, 86, rfl⟩
abbrev main_v45 : Ref sig .tc := ⟨.hbm, 87, rfl⟩
abbrev main_c_11 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_c_12 : Ref sig .tc := ⟨.hbm, 94, rfl⟩
abbrev main_v51 : Ref sig .tc := ⟨.hbm, 95, rfl⟩
abbrev main_v52 : Ref sig .tc := ⟨.hbm, 96, rfl⟩
abbrev main_c_13 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_14 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_15 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_c_16 : Ref sig .tc := ⟨.hbm, 137, rfl⟩
abbrev main_c_17 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_v87 : Ref sig .tc := ⟨.hbm, 144, rfl⟩
abbrev main_v88 : Ref sig .tc := ⟨.hbm, 145, rfl⟩
abbrev main_c_18 : Ref sig .tc := ⟨.hbm, 146, rfl⟩
abbrev main_c_19 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_v89 : Ref sig .tc := ⟨.hbm, 153, rfl⟩
abbrev main_v90 : Ref sig .tc := ⟨.hbm, 154, rfl⟩
abbrev main_c_20 : Ref sig .tc := ⟨.hbm, 155, rfl⟩
abbrev main_c_21 : Ref sig .tc := ⟨.hbm, 156, rfl⟩
abbrev main_call7_v0 : Ref sig .tc := ⟨.hbm, 157, rfl⟩
abbrev main_call7_v1 : Ref sig .tc := ⟨.hbm, 158, rfl⟩
abbrev main_call7_v2 : Ref sig .tc := ⟨.hbm, 159, rfl⟩
abbrev main_call7_v3 : Ref sig .tc := ⟨.hbm, 160, rfl⟩
abbrev main_call7_v4 : Ref sig .tc := ⟨.hbm, 161, rfl⟩
abbrev main_v91 : Ref sig .tc := ⟨.hbm, 162, rfl⟩
abbrev main_c_22 : Ref sig .tc := ⟨.hbm, 163, rfl⟩
abbrev main_call8_v0 : Ref sig .tc := ⟨.hbm, 164, rfl⟩
abbrev main_v92 : Ref sig .tc := ⟨.hbm, 165, rfl⟩
abbrev main_c_23 : Ref sig .tc := ⟨.hbm, 166, rfl⟩
abbrev main_call9_v0 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S640x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S640x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S640x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S640x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S640x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S640x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x2 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S640x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S640x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S640x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S640x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x2 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S64x256x3_S64x256x1_0_0_2 : S64x256x3.Slices ![0, 0, 2] S64x256x1
  shapeCasts_S64x256x1_S64x256 : S64x256x1.ShapeCasts S64x256
  bcast_S_S64x256 : S_.BroadcastsInDim S64x256 (![] : Fin 0 → Fin S64x256.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  shapeCasts_S64x256_S16384 : S64x256.ShapeCasts S16384
  bcast_S_S32769 : S_.BroadcastsInDim S32769 (![] : Fin 0 → Fin S32769.rank)
  bcast_S16384_S16384x1_0 : S16384.BroadcastsInDim S16384x1 (![0] : Fin 1 → Fin S16384x1.rank)
  slices_S32769_S32768_0 : S32769.Slices ![0] S32768
  bcast_S_S32768 : S_.BroadcastsInDim S32768 (![] : Fin 0 → Fin S32768.rank)
  shapeCasts_S64x256x3_S16384x3 : S64x256x3.ShapeCasts S16384x3
  shapeCasts_S64x256x2_S16384x2 : S64x256x2.ShapeCasts S16384x2
  bcast_S32768_S32768x1_0 : S32768.BroadcastsInDim S32768x1 (![0] : Fin 1 → Fin S32768x1.rank)
  bcast_S32768x1_S32768x3_0_1 : S32768x1.BroadcastsInDim S32768x3 (![0, 1] : Fin 2 → Fin S32768x3.rank)
  bcast_S_S32768x3 : S_.BroadcastsInDim S32768x3 (![] : Fin 0 → Fin S32768x3.rank)
  shapeCasts_S32768x3_S64x512x3 : S32768x3.ShapeCasts S64x512x3
  bcast_S_S32768x1 : S_.BroadcastsInDim S32768x1 (![] : Fin 0 → Fin S32768x1.rank)
  concatenates_S32768x1_S32768x1_S32768x2_d1 : Shape.Concatenates [S32768x1, S32768x1] S32768x2 1
  concatenates_S32768x2_S32768x1_S32768x3_d1 : Shape.Concatenates [S32768x2, S32768x1] S32768x3 1
  slices_S64x512x3_S64x512x1_0_0_0 : S64x512x3.Slices ![0, 0, 0] S64x512x1
  shapeCasts_S64x512x1_S64x512 : S64x512x1.ShapeCasts S64x512
  slices_S64x512x3_S64x512x1_0_0_1 : S64x512x3.Slices ![0, 0, 1] S64x512x1
  bcast_S64x512_S64x512x1_0_1 : S64x512.BroadcastsInDim S64x512x1 (![0, 1] : Fin 2 → Fin S64x512x1.rank)
  concatenates_S64x512x1_S64x512x1_S64x512x2_d2 : Shape.Concatenates [S64x512x1, S64x512x1] S64x512x2 2
  slices_S512x64x3_S512x64x1_0_0_0 : S512x64x3.Slices ![0, 0, 0] S512x64x1
  shapeCasts_S512x64x1_S512x64 : S512x64x1.ShapeCasts S512x64
  slices_S512x64x3_S512x64x1_0_0_1 : S512x64x3.Slices ![0, 0, 1] S512x64x1
  bcast_S512x64_S512x64x1_0_1 : S512x64.BroadcastsInDim S512x64x1 (![0, 1] : Fin 2 → Fin S512x64x1.rank)
  concatenates_S512x64x1_S512x64x1_S512x64x2_d2 : Shape.Concatenates [S512x64x1, S512x64x1] S512x64x2 2
  shapeCasts_S64x512x2_S32768x2 : S64x512x2.ShapeCasts S32768x2
  bcast_S_S32768x2 : S_.BroadcastsInDim S32768x2 (![] : Fin 0 → Fin S32768x2.rank)
  shapeCasts_S512x64x2_S32768x2 : S512x64x2.ShapeCasts S32768x2
  pads_S513x512_S640x512_01270_000 : S513x512.Pads (![0, 0] : Fin 2 → Nat) ![127, 0] ![0, 0] S640x512
  h_S_ : 0 < S_.numel
  bitsLt_bf16_f32 : FTy.bits .bf16 < FTy.bits .f32
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  slices_S1024x2_o0_0_S1024x1 : S1024x2.Slices ![0, 0] S1024x1
  shapeCasts_S1024x1_S1024 : S1024x1.ShapeCasts S1024
  slices_S1024x2_o0_1_S1024x1 : S1024x2.Slices ![0, 1] S1024x1
  iota_S1024x640_d1_w32 : S1024x640.Iotas .tc 32 [1]
  shapeCasts_S1024_S1024x1 : S1024.ShapeCasts S1024x1
  broadcasts_S1024x1_S1024x640 : S1024x1.Broadcasts S1024x640
  natLt_1_32 : 1 < 32
  inb_S640x512_S640x512_0_0 : ∀ a, (![0, 0] : Fin 2 → Nat) a + S640x512.size a ≤ S640x512.size a
  h_S640x512 : 0 < S640x512.numel
  shapeCasts_S640x512_S640x512 : S640x512.ShapeCasts S640x512
  inb_S1024x1024_S1024x512_0_0 : ∀ a, (![0, 0] : Fin 2 → Nat) a + S1024x512.size a ≤ S1024x1024.size a
  h_S1024x512 : 0 < S1024x512.numel
  inb_S1024x1024_S1024x512_0_512 : ∀ a, (![0, 512] : Fin 2 → Nat) a + S1024x512.size a ≤ S1024x1024.size a
  shapeCasts_S32768x1024_S64x512x1024 : S32768x1024.ShapeCasts S64x512x1024
  shapeCasts_S32768x1024_S512x64x1024 : S32768x1024.ShapeCasts S512x64x1024
  scatter_S32769_S16384x1_S16384_n_0_0_1_wf : ScatterDims.WF S32769 S16384x1 S16384 [] [0] [0] 1
  gather_S16384x3_S32768x1_S32768x3_1_0_n_n_0_1_13_wf : GatherDims.WF S16384x3 S32768x1 S32768x3 [1] [0] [] [0] [] 1 ![1, 3]
  gather_S16384x2_S32768x1_S32768x2_1_0_n_n_0_1_12_wf : GatherDims.WF S16384x2 S32768x1 S32768x2 [1] [0] [] [0] [] 1 ![1, 2]
  gather_S16384x3_S32768x2_S32768x1_1_0_n_n_01_1_11_wf : GatherDims.WF S16384x3 S32768x2 S32768x1 [1] [0] [] [0, 1] [] 1 ![1, 1]
  dot_S1024x640_S640x512_S1024x512_1_0_0_1_n_n_wf : DotDims.WF S1024x640 S640x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S640x512.size a ≤ S640x512.size a
  hwx0_0 : ∀ i : grid0.Coords, EltTy.bits .bf16 = 32 ∨ (Rect.block (s := S640x512) S640x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x512.size a ≤ S640x512.size a
  hwx0_1 : ∀ i : grid0.Coords, EltTy.bits .bf16 = 32 ∨ (Rect.block (s := S640x512) S640x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x512.size a ≤ S640x512.size a
  hwx0_2 : ∀ i : grid0.Coords, EltTy.bits .bf16 = 32 ∨ (Rect.block (s := S640x512) S640x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x512.size a ≤ S640x512.size a
  hwx0_3 : ∀ i : grid0.Coords, EltTy.bits .bf16 = 32 ∨ (Rect.block (s := S640x512) S640x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2.size a ≤ S32768x2.size a
  hwx0_4 : ∀ i : grid0.Coords, EltTy.bits .i32 = 32 ∨ (Rect.block (s := S32768x2) S1024x2.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S640x512.size a ≤ S640x512.size a
  hwx1_0 : ∀ i : grid1.Coords, EltTy.bits .bf16 = 32 ∨ (Rect.block (s := S640x512) S640x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S640x512.size a ≤ S640x512.size a
  hwx1_1 : ∀ i : grid1.Coords, EltTy.bits .bf16 = 32 ∨ (Rect.block (s := S640x512) S640x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S640x512.size a ≤ S640x512.size a
  hwx1_2 : ∀ i : grid1.Coords, EltTy.bits .bf16 = 32 ∨ (Rect.block (s := S640x512) S640x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S640x512.size a ≤ S640x512.size a
  hwx1_3 : ∀ i : grid1.Coords, EltTy.bits .bf16 = 32 ∨ (Rect.block (s := S640x512) S640x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2.size a ≤ S32768x2.size a
  hwx1_4 : ∀ i : grid1.Coords, EltTy.bits .i32 = 32 ∨ (Rect.block (s := S32768x2) S1024x2.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S32768x1024.size a
  hwx1_5 : ∀ i : grid1.Coords, EltTy.bits .f32 = 32 ∨ (Rect.block (s := S32768x1024) S1024x1024.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S640x512.size a ≤ S640x512.size a
  hwx2_0 : ∀ i : grid2.Coords, EltTy.bits .bf16 = 32 ∨ (Rect.block (s := S640x512) S640x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S640x512.size a ≤ S640x512.size a
  hwx2_1 : ∀ i : grid2.Coords, EltTy.bits .bf16 = 32 ∨ (Rect.block (s := S640x512) S640x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S640x512.size a ≤ S640x512.size a
  hwx2_2 : ∀ i : grid2.Coords, EltTy.bits .bf16 = 32 ∨ (Rect.block (s := S640x512) S640x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S640x512.size a ≤ S640x512.size a
  hwx2_3 : ∀ i : grid2.Coords, EltTy.bits .bf16 = 32 ∨ (Rect.block (s := S640x512) S640x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x2.size a ≤ S32768x2.size a
  hwx2_4 : ∀ i : grid2.Coords, EltTy.bits .i32 = 32 ∨ (Rect.block (s := S32768x2) S1024x2.size (cc2_transform_4 i) (hinb2_4 i)).WholeWords (EltTy.packing .i32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S32768x1024.size a
  hwx2_5 : ∀ i : grid2.Coords, EltTy.bits .f32 = 32 ∨ (Rect.block (s := S32768x1024) S1024x1024.size (cc2_transform_5 i) (hinb2_5 i)).WholeWords (EltTy.packing .f32)

variable [Facts₀]

def scatter_S32769_S16384x1_S16384_n_0_0_1 : ScatterDims S32769 S16384x1 S16384 where
  updateWindowDims := []
  insertedWindowDims := [0]
  scatterDimsToOperandDims := [0]
  indexVectorDim := 1
  wf := scatter_S32769_S16384x1_S16384_n_0_0_1_wf
def gather_S16384x3_S32768x1_S32768x3_1_0_n_n_0_1_13 : GatherDims S16384x3 S32768x1 S32768x3 where
  offsetDims := [1]
  collapsedSliceDims := [0]
  operandBatchingDims := []
  startIndicesBatchingDims := []
  startIndexMap := [0]
  indexVectorDim := 1
  sliceSizes := ![1, 3]
  wf := gather_S16384x3_S32768x1_S32768x3_1_0_n_n_0_1_13_wf
def gather_S16384x2_S32768x1_S32768x2_1_0_n_n_0_1_12 : GatherDims S16384x2 S32768x1 S32768x2 where
  offsetDims := [1]
  collapsedSliceDims := [0]
  operandBatchingDims := []
  startIndicesBatchingDims := []
  startIndexMap := [0]
  indexVectorDim := 1
  sliceSizes := ![1, 2]
  wf := gather_S16384x2_S32768x1_S32768x2_1_0_n_n_0_1_12_wf
def gather_S16384x3_S32768x2_S32768x1_1_0_n_n_01_1_11 : GatherDims S16384x3 S32768x2 S32768x1 where
  offsetDims := [1]
  collapsedSliceDims := [0]
  operandBatchingDims := []
  startIndicesBatchingDims := []
  startIndexMap := [0, 1]
  indexVectorDim := 1
  sliceSizes := ![1, 1]
  wf := gather_S16384x3_S32768x2_S32768x1_1_0_n_n_01_1_11_wf
def dot_S1024x640_S640x512_S1024x512_1_0_0_1_n_n : DotDims S1024x640 S640x512 S1024x512 where
  lhsContracting := [1]
  rhsContracting := [0]
  lhsNonContracting := [0]
  rhsNonContracting := [1]
  lhsBatch := []
  rhsBatch := []
  wf := dot_S1024x640_S640x512_S1024x512_1_0_0_1_n_n_wf

abbrev win0_0 : Pipeline.Window sig grid0 :=
  Pipeline.Window.ofSpec (Memref.whole main_v94) S640x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v97) S640x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v98) S640x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v101) S640x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v87) S1024x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v102) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v94) S640x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v97) S640x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v98) S640x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v101) S640x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v89) S1024x2.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v104) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v94) S640x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v97) S640x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v98) S640x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v101) S640x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v91) S1024x2.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v106) S1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S64x256x3 : Shape := ⟨3, ![64, 256, 3]⟩
abbrev S64x256x2 : Shape := ⟨3, ![64, 256, 2]⟩
abbrev S512x64x3 : Shape := ⟨3, ![512, 64, 3]⟩
abbrev S513x512 : Shape := ⟨2, ![513, 512]⟩
abbrev S64x256x1 : Shape := ⟨3, ![64, 256, 1]⟩
abbrev S64x256 : Shape := ⟨2, ![64, 256]⟩
abbrev S_ : Shape := ⟨0, ![]⟩
abbrev S64 : Shape := ⟨1, ![64]⟩
abbrev S64x1 : Shape := ⟨2, ![64, 1]⟩
abbrev S256 : Shape := ⟨1, ![256]⟩
abbrev S1x256 : Shape := ⟨2, ![1, 256]⟩
abbrev S16384 : Shape := ⟨1, ![16384]⟩
abbrev S32769 : Shape := ⟨1, ![32769]⟩
abbrev S16384x1 : Shape := ⟨2, ![16384, 1]⟩
abbrev S32768 : Shape := ⟨1, ![32768]⟩
abbrev S16384x3 : Shape := ⟨2, ![16384, 3]⟩
abbrev S16384x2 : Shape := ⟨2, ![16384, 2]⟩
abbrev S32768x1 : Shape := ⟨2, ![32768, 1]⟩
abbrev S32768x3 : Shape := ⟨2, ![32768, 3]⟩
abbrev S64x512x3 : Shape := ⟨3, ![64, 512, 3]⟩
abbrev S32768x2 : Shape := ⟨2, ![32768, 2]⟩
abbrev S64x512x1 : Shape := ⟨3, ![64, 512, 1]⟩
abbrev S64x512 : Shape := ⟨2, ![64, 512]⟩
abbrev S64x512x512 : Shape := ⟨3, ![64, 512, 512]⟩
abbrev S64x512x1024 : Shape := ⟨3, ![64, 512, 1024]⟩
abbrev S512x64x1024 : Shape := ⟨3, ![512, 64, 1024]⟩

abbrev nBuf : Space → Nat
  | .hbm => 189
  | .vmem => 0
  | .smem => 0
  | _ => 0

abbrev hbmTy0_0 (i : Nat) : BufTy := match i % 128 with
  | 0 => ⟨S64x256x3, .i32⟩
  | 1 => ⟨S64x256x2, .f32⟩
  | 2 => ⟨S512x64x3, .i32⟩
  | 3 => ⟨S512x64x3, .i32⟩
  | 4 => ⟨S513x512, .f32⟩
  | 5 => ⟨S513x512, .f32⟩
  | 6 => ⟨S64x256x1, .i32⟩
  | 7 => ⟨S64x256, .i32⟩
  | 8 => ⟨S_, .i32⟩
  | 9 => ⟨S64x256, .i32⟩
  | 10 => ⟨S64x256, .i1⟩
  | 11 => ⟨S_, .i32⟩
  | 12 => ⟨S64x256, .i32⟩
  | 13 => ⟨S64x256, .i1⟩
  | 14 => ⟨S64x256, .i1⟩
  | 15 => ⟨S64, .i32⟩
  | 16 => ⟨S64x1, .i32⟩
  | 17 => ⟨S_, .i32⟩
  | 18 => ⟨S64x1, .i32⟩
  | 19 => ⟨S64x1, .i32⟩
  | 20 => ⟨S64x256, .i32⟩
  | 21 => ⟨S64x256, .i32⟩
  | 22 => ⟨S_, .i32⟩
  | 23 => ⟨S_, .i32⟩
  | 24 => ⟨S64x256, .i32⟩
  | 25 => ⟨S64x256, .i32⟩
  | 26 => ⟨S256, .i32⟩
  | 27 => ⟨S1x256, .i32⟩
  | 28 => ⟨S64x256, .i32⟩
  | 29 => ⟨S16384, .i32⟩
  | 30 => ⟨S16384, .i32⟩
  | 31 => ⟨S_, .i32⟩
  | 32 => ⟨S32769, .i32⟩
  | 33 => ⟨S16384x1, .i32⟩
  | 34 => ⟨S32769, .i32⟩
  | 35 => ⟨S32768, .i32⟩
  | 36 => ⟨S_, .i32⟩
  | 37 => ⟨S32768, .i32⟩
  | 38 => ⟨S32768, .i1⟩
  | 39 => ⟨S32768, .i32⟩
  | 40 => ⟨S_, .i32⟩
  | 41 => ⟨S_, .i32⟩
  | 42 => ⟨S32768, .i32⟩
  | 43 => ⟨S32768, .i32⟩
  | 44 => ⟨S32768, .i32⟩
  | 45 => ⟨S_, .i32⟩
  | 46 => ⟨S32768, .i32⟩
  | 47 => ⟨S32768, .i1⟩
  | 48 => ⟨S32768, .i32⟩
  | 49 => ⟨S32768, .i32⟩
  | 50 => ⟨S_, .i32⟩
  | 51 => ⟨S32768, .i32⟩
  | 52 => ⟨S32768, .i1⟩
  | 53 => ⟨S32768, .i1⟩
  | 54 => ⟨S_, .i32⟩
  | 55 => ⟨S32768, .i32⟩
  | 56 => ⟨S32768, .i32⟩
  | 57 => ⟨S32768, .i32⟩
  | 58 => ⟨S_, .i32⟩
  | 59 => ⟨S32768, .i32⟩
  | 60 => ⟨S32768, .i32⟩
  | 61 => ⟨S_, .i32⟩
  | 62 => ⟨S_, .i32⟩
  | 63 => ⟨S32768, .i32⟩
  | 64 => ⟨S32768, .i32⟩
  | 65 => ⟨S32768, .i32⟩
  | 66 => ⟨S16384x3, .i32⟩
  | 67 => ⟨S16384x3, .f32⟩
  | 68 => ⟨S16384x2, .f32⟩
  | 69 => ⟨S32768x1, .i1⟩
  | 70 => ⟨S_, .i32⟩
  | 71 => ⟨S32768, .i32⟩
  | 72 => ⟨S32768, .i1⟩
  | 73 => ⟨S_, .i32⟩
  | 74 => ⟨S32768, .i32⟩
  | 75 => ⟨S32768, .i32⟩
  | 76 => ⟨S32768, .i32⟩
  | 77 => ⟨S32768x1, .i32⟩
  | 78 => ⟨S32768x3, .f32⟩
  | 79 => ⟨S_, .f32⟩
  | 80 => ⟨S_, .f32⟩
  | 81 => ⟨S32768x3, .i1⟩
  | 82 => ⟨S32768x3, .f32⟩
  | 83 => ⟨S32768x3, .f32⟩
  | 84 => ⟨S64x512x3, .f32⟩
  | 85 => ⟨S_, .i32⟩
  | 86 => ⟨S32768, .i32⟩
  | 87 => ⟨S32768, .i1⟩
  | 88 => ⟨S_, .i32⟩
  | 89 => ⟨S32768, .i32⟩
  | 90 => ⟨S32768, .i32⟩
  | 91 => ⟨S32768, .i32⟩
  | 92 => ⟨S32768x1, .i32⟩
  | 93 => ⟨S32768x2, .f32⟩
  | 94 => ⟨S_, .i32⟩
  | 95 => ⟨S32768, .i32⟩
  | 96 => ⟨S32768, .i1⟩
  | 97 => ⟨S_, .i32⟩
  | 98 => ⟨S32768, .i32⟩
  | 99 => ⟨S32768, .i32⟩
  | 100 => ⟨S32768, .i32⟩
  | 101 => ⟨S32768x1, .i32⟩
  | 102 => ⟨S_, .i32⟩
  | 103 => ⟨S32768x1, .i32⟩
  | 104 => ⟨S32768x2, .i32⟩
  | 105 => ⟨S32768x1, .f32⟩
  | 106 => ⟨S32768x3, .f32⟩
  | 107 => ⟨S32768x1, .i1⟩
  | 108 => ⟨S_, .f32⟩
  | 109 => ⟨S_, .f32⟩
  | 110 => ⟨S32768x3, .i1⟩
  | 111 => ⟨S32768x3, .f32⟩
  | 112 => ⟨S32768x3, .f32⟩
  | 113 => ⟨S64x512x3, .f32⟩
  | 114 => ⟨S64x512x1, .f32⟩
  | 115 => ⟨S64x512, .f32⟩
  | 116 => ⟨S64x512, .i32⟩
  | 117 => ⟨S_, .i32⟩
  | 118 => ⟨S64x512, .i32⟩
  | 119 => ⟨S64x512, .i1⟩
  | 120 => ⟨S_, .i32⟩
  | 121 => ⟨S64x512, .i32⟩
  | 122 => ⟨S64x512, .i32⟩
  | 123 => ⟨S64x512, .i32⟩
  | 124 => ⟨S64x512x1, .i32⟩
  | 125 => ⟨S64x512x512, .f32⟩
  | 126 => ⟨S64x512x1, .f32⟩
  | 127 => ⟨S64x512, .f32⟩
  | _ => ⟨S64x256x3, .i32⟩

abbrev hbmTy0_1 (i : Nat) : BufTy := match i % 128 with
  | 0 => ⟨S64x512, .i32⟩
  | 1 => ⟨S_, .i32⟩
  | 2 => ⟨S64x512, .i32⟩
  | 3 => ⟨S64x512, .i1⟩
  | 4 => ⟨S_, .i32⟩
  | 5 => ⟨S64x512, .i32⟩
  | 6 => ⟨S64x512, .i32⟩
  | 7 => ⟨S64x512, .i32⟩
  | 8 => ⟨S64x512x1, .i32⟩
  | 9 => ⟨S64x512x512, .f32⟩
  | 10 => ⟨S64x512x1024, .f32⟩
  | 11 => ⟨S64x512x3, .i32⟩
  | 12 => ⟨S64x512x1, .i32⟩
  | 13 => ⟨S64x512, .i32⟩
  | 14 => ⟨S_, .i32⟩
  | 15 => ⟨S64x512, .i32⟩
  | 16 => ⟨S64x512, .i1⟩
  | 17 => ⟨S_, .i32⟩
  | 18 => ⟨S64x512, .i32⟩
  | 19 => ⟨S64x512, .i32⟩
  | 20 => ⟨S64x512, .i32⟩
  | 21 => ⟨S64x512x1, .i32⟩
  | 22 => ⟨S64x512x512, .f32⟩
  | 23 => ⟨S64x512x1, .i32⟩
  | 24 => ⟨S64x512, .i32⟩
  | 25 => ⟨S_, .i32⟩
  | 26 => ⟨S64x512, .i32⟩
  | 27 => ⟨S64x512, .i1⟩
  | 28 => ⟨S_, .i32⟩
  | 29 => ⟨S64x512, .i32⟩
  | 30 => ⟨S64x512, .i32⟩
  | 31 => ⟨S64x512, .i32⟩
  | 32 => ⟨S64x512x1, .i32⟩
  | 33 => ⟨S64x512x512, .f32⟩
  | 34 => ⟨S64x512x1024, .f32⟩
  | 35 => ⟨S512x64x1024, .f32⟩
  | 36 => ⟨S64x512x3, .i32⟩
  | 37 => ⟨S64x512x1, .i32⟩
  | 38 => ⟨S64x512, .i32⟩
  | 39 => ⟨S_, .i32⟩
  | 40 => ⟨S64x512, .i32⟩
  | 41 => ⟨S64x512, .i1⟩
  | 42 => ⟨S_, .i32⟩
  | 43 => ⟨S64x512, .i32⟩
  | 44 => ⟨S64x512, .i32⟩
  | 45 => ⟨S64x512, .i32⟩
  | 46 => ⟨S64x512x1, .i32⟩
  | 47 => ⟨S64x512x512, .f32⟩
  | 48 => ⟨S64x512x1, .i32⟩
  | 49 => ⟨S64x512, .i32⟩
  | 50 => ⟨S_, .i32⟩
  | 51 => ⟨S64x512, .i32⟩
  | 52 => ⟨S64x512, .i1⟩
  | 53 => ⟨S_, .i32⟩
  | 54 => ⟨S64x512, .i32⟩
  | 55 => ⟨S64x512, .i32⟩
  | 56 => ⟨S64x512, .i32⟩
  | 57 => ⟨S64x512x1, .i32⟩
  | 58 => ⟨S64x512x512, .f32⟩
  | 59 => ⟨S64x512x1024, .f32⟩
  | 60 => ⟨S512x64x1024, .f32⟩
  | _ => ⟨S64x256x3, .i32⟩

abbrev hbmTy (i : Nat) : BufTy := match i / 128 with
  | 0 => hbmTy0_0 i
  | 1 => hbmTy0_1 i
  | _ => ⟨S64x256x3, .i32⟩

abbrev bufTy : (tb : Table) → Fin (tcTables nBuf tb) → BufTy
  | .hbm, ⟨i, _⟩ => hbmTy i
  | _, _ => ⟨S64x256x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_c_7 : Ref sig .tc := ⟨.hbm, 61, rfl⟩
abbrev main_call2_v0 : Ref sig .tc := ⟨.hbm, 62, rfl⟩
abbrev main_call2_v1 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_8 : Ref sig .tc := ⟨.hbm, 70, rfl⟩
abbrev main_v35 : Ref sig .tc := ⟨.hbm, 71, rfl⟩
abbrev main_v36 : Ref sig .tc := ⟨.hbm, 72, rfl⟩
abbrev main_c_9 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v42 : Ref sig .tc := ⟨.hbm, 83, rfl⟩
abbrev main_v43 : Ref sig .tc := ⟨.hbm, 84, rfl⟩
abbrev main_c_10 : Ref sig .tc := ⟨.hbm, 85, rfl⟩
abbrev main_v44 : Ref sig .tc := ⟨.hbm, 86, rfl⟩
abbrev main_v45 : Ref sig .tc := ⟨.hbm, 87, rfl⟩
abbrev main_c_11 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_c_12 : Ref sig .tc := ⟨.hbm, 94, rfl⟩
abbrev main_v51 : Ref sig .tc := ⟨.hbm, 95, rfl⟩
abbrev main_v52 : Ref sig .tc := ⟨.hbm, 96, rfl⟩
abbrev main_c_13 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_14 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_15 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_16 : Ref sig .tc := ⟨.hbm, 117, rfl⟩
abbrev main_v67 : Ref sig .tc := ⟨.hbm, 118, rfl⟩
abbrev main_v68 : Ref sig .tc := ⟨.hbm, 119, rfl⟩
abbrev main_c_17 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_18 : Ref sig .tc := ⟨.hbm, 129, rfl⟩
abbrev main_v77 : Ref sig .tc := ⟨.hbm, 130, rfl⟩
abbrev main_v78 : Ref sig .tc := ⟨.hbm, 131, rfl⟩
abbrev main_c_19 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_20 : Ref sig .tc := ⟨.hbm, 142, rfl⟩
abbrev main_v88 : Ref sig .tc := ⟨.hbm, 143, rfl⟩
abbrev main_v89 : Ref sig .tc := ⟨.hbm, 144, rfl⟩
abbrev main_c_21 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_c_22 : Ref sig .tc := ⟨.hbm, 153, rfl⟩
abbrev main_v97 : Ref sig .tc := ⟨.hbm, 154, rfl⟩
abbrev main_v98 : Ref sig .tc := ⟨.hbm, 155, rfl⟩
abbrev main_c_23 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_c_24 : Ref sig .tc := ⟨.hbm, 167, rfl⟩
abbrev main_v109 : Ref sig .tc := ⟨.hbm, 168, rfl⟩
abbrev main_v110 : Ref sig .tc := ⟨.hbm, 169, rfl⟩
abbrev main_c_25 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_c_26 : Ref sig .tc := ⟨.hbm, 178, rfl⟩
abbrev main_v118 : Ref sig .tc := ⟨.hbm, 179, rfl⟩
abbrev main_v119 : Ref sig .tc := ⟨.hbm, 180, rfl⟩
abbrev main_c_27 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩

abbrev nD : Nat := 1
abbrev τ : Topo := Topo.v7x

variable {F : FTy → Type} [FloatOps F]

class Facts₀ : Prop where
  slices_S64x256x3_S64x256x1_0_0_2 : S64x256x3.Slices ![0, 0, 2] S64x256x1
  shapeCasts_S64x256x1_S64x256 : S64x256x1.ShapeCasts S64x256
  bcast_S_S64x256 : S_.BroadcastsInDim S64x256 (![] : Fin 0 → Fin S64x256.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  shapeCasts_S64x256_S16384 : S64x256.ShapeCasts S16384
  bcast_S_S32769 : S_.BroadcastsInDim S32769 (![] : Fin 0 → Fin S32769.rank)
  bcast_S16384_S16384x1_0 : S16384.BroadcastsInDim S16384x1 (![0] : Fin 1 → Fin S16384x1.rank)
  slices_S32769_S32768_0 : S32769.Slices ![0] S32768
  bcast_S_S32768 : S_.BroadcastsInDim S32768 (![] : Fin 0 → Fin S32768.rank)
  shapeCasts_S64x256x3_S16384x3 : S64x256x3.ShapeCasts S16384x3
  shapeCasts_S64x256x2_S16384x2 : S64x256x2.ShapeCasts S16384x2
  bcast_S32768_S32768x1_0 : S32768.BroadcastsInDim S32768x1 (![0] : Fin 1 → Fin S32768x1.rank)
  bcast_S32768x1_S32768x3_0_1 : S32768x1.BroadcastsInDim S32768x3 (![0, 1] : Fin 2 → Fin S32768x3.rank)
  bcast_S_S32768x3 : S_.BroadcastsInDim S32768x3 (![] : Fin 0 → Fin S32768x3.rank)
  shapeCasts_S32768x3_S64x512x3 : S32768x3.ShapeCasts S64x512x3
  bcast_S_S32768x1 : S_.BroadcastsInDim S32768x1 (![] : Fin 0 → Fin S32768x1.rank)
  concatenates_S32768x1_S32768x1_S32768x2_d1 : Shape.Concatenates [S32768x1, S32768x1] S32768x2 1
  concatenates_S32768x2_S32768x1_S32768x3_d1 : Shape.Concatenates [S32768x2, S32768x1] S32768x3 1
  slices_S64x512x3_S64x512x1_0_0_0 : S64x512x3.Slices ![0, 0, 0] S64x512x1
  shapeCasts_S64x512x1_S64x512 : S64x512x1.ShapeCasts S64x512
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  slices_S64x512x3_S64x512x1_0_0_1 : S64x512x3.Slices ![0, 0, 1] S64x512x1
  concatenates_S64x512x512_S64x512x512_S64x512x1024_d2 : Shape.Concatenates [S64x512x512, S64x512x512] S64x512x1024 2
  transposes_S512x64x3_S64x512x3_1_0_2 : S512x64x3.Transposes [1, 0, 2] S64x512x3
  transposes_S64x512x1024_S512x64x1024_1_0_2 : S64x512x1024.Transposes [1, 0, 2] S512x64x1024
  scatter_S32769_S16384x1_S16384_n_0_0_1_wf : ScatterDims.WF S32769 S16384x1 S16384 [] [0] [0] 1
  gather_S16384x3_S32768x1_S32768x3_1_0_n_n_0_1_13_wf : GatherDims.WF S16384x3 S32768x1 S32768x3 [1] [0] [] [0] [] 1 ![1, 3]
  gather_S16384x2_S32768x1_S32768x2_1_0_n_n_0_1_12_wf : GatherDims.WF S16384x2 S32768x1 S32768x2 [1] [0] [] [0] [] 1 ![1, 2]
  gather_S16384x3_S32768x2_S32768x1_1_0_n_n_01_1_11_wf : GatherDims.WF S16384x3 S32768x2 S32768x1 [1] [0] [] [0, 1] [] 1 ![1, 1]
  gather_S513x512_S64x512x1_S64x512x512_2_0_n_n_0_2_1512_wf : GatherDims.WF S513x512 S64x512x1 S64x512x512 [2] [0] [] [0] [] 2 ![1, 512]

variable [Facts₀]

def scatter_S32769_S16384x1_S16384_n_0_0_1 : ScatterDims S32769 S16384x1 S16384 where
  updateWindowDims := []
  insertedWindowDims := [0]
  scatterDimsToOperandDims := [0]
  indexVectorDim := 1
  wf := scatter_S32769_S16384x1_S16384_n_0_0_1_wf
def gather_S16384x3_S32768x1_S32768x3_1_0_n_n_0_1_13 : GatherDims S16384x3 S32768x1 S32768x3 where
  offsetDims := [1]
  collapsedSliceDims := [0]
  operandBatchingDims := []
  startIndicesBatchingDims := []
  startIndexMap := [0]
  indexVectorDim := 1
  sliceSizes := ![1, 3]
  wf := gather_S16384x3_S32768x1_S32768x3_1_0_n_n_0_1_13_wf
def gather_S16384x2_S32768x1_S32768x2_1_0_n_n_0_1_12 : GatherDims S16384x2 S32768x1 S32768x2 where
  offsetDims := [1]
  collapsedSliceDims := [0]
  operandBatchingDims := []
  startIndicesBatchingDims := []
  startIndexMap := [0]
  indexVectorDim := 1
  sliceSizes := ![1, 2]
  wf := gather_S16384x2_S32768x1_S32768x2_1_0_n_n_0_1_12_wf
def gather_S16384x3_S32768x2_S32768x1_1_0_n_n_01_1_11 : GatherDims S16384x3 S32768x2 S32768x1 where
  offsetDims := [1]
  collapsedSliceDims := [0]
  operandBatchingDims := []
  startIndicesBatchingDims := []
  startIndexMap := [0, 1]
  indexVectorDim := 1
  sliceSizes := ![1, 1]
  wf := gather_S16384x3_S32768x2_S32768x1_1_0_n_n_01_1_11_wf
def gather_S513x512_S64x512x1_S64x512x512_2_0_n_n_0_2_1512 : GatherDims S513x512 S64x512x1 S64x512x512 where
  offsetDims := [2]
  collapsedSliceDims := [0]
  operandBatchingDims := []
  startIndicesBatchingDims := []
  startIndexMap := [0]
  indexVectorDim := 2
  sliceSizes := ![1, 512]
  wf := gather_S513x512_S64x512x1_S64x512x512_2_0_n_n_0_2_1512_wf

class Facts : Prop extends Facts₀ where

variable [Facts]
-- ==== Proof.HostK.lean ====
/-
  The host side of the kernel's program between the shared first part and the three lookup calls, as named terms.

  After the shared first part (which leaves the scattered grid triples, statement %43, and the scattered positions,
  %62) the program builds, for each of the three lookups, the flattened array of (x, y) index pairs clipped to the
  tables' row range, and from each 513-row table its zero-padded 640-row copy split into a leading part (the copy
  narrowed to the short format) and a residual part (the copy minus the widened leading part, narrowed). This module
  names those terms and shows that the fold of the host operations holds exactly them.
-/
import proofs.«401964_j4724464025663_2_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-! ## The terms -/

/-- A 513-row table padded below with 127 rows of the zero the program converts from the integer 0. -/
def padT (E : FVec F S513x512 .f32) : FVec F S640x512 .f32 :=
  pad S640x512 ![0, 0] ![127, 0] ![0, 0] E (sitofp .f32 (constantI S_ 32 0#32)) pads_S513x512_S640x512_01270_000 h_S_

/-- The leading part: the padded table narrowed to the short float format. -/
def hiT (E : FVec F S513x512 .f32) : FVec F S640x512 .bf16 := truncf .bf16 (padT E) bitsLt_bf16_f32

/-- The residual part: the padded table minus its widened leading part, narrowed. -/
def loT (E : FVec F S513x512 .f32) : FVec F S640x512 .bf16 :=
  truncf .bf16 (subf (padT E) (extf .f32 (hiT E) bitsLt_bf16_f32)) bitsLt_bf16_f32

/-- Both clamps of an index pair array: at least 0, then at most 512. -/
def clip512 (v : IVec S32768x2 32) : IVec S32768x2 32 :=
  minsi (broadcastInDim S32768x2 ![] bcast_S_S32768x2 (constantI S_ 32 512#32))
    (maxsi (broadcastInDim S32768x2 ![] bcast_S_S32768x2 (constantI S_ 32 0#32)) v)

/-- Columns 0 and 1 of a [64, 512, 3] array of floats, paired, converted to integers, and flattened to 32768 pairs. -/
def pairsOfGrid (g : FVec F S64x512x3 .f32) : IVec S32768x2 32 :=
  shapeCast S32768x2
    (fptosi 32
      (concatenate S64x512x2 2
        [⟨S64x512x1, broadcastInDim S64x512x1 ![0, 1] bcast_S64x512_S64x512x1_0_1
            (shapeCast S64x512 (extractStridedSlice S64x512x1 ![0, 0, 0] g slices_S64x512x3_S64x512x1_0_0_0) shapeCasts_S64x512x1_S64x512)⟩,
          ⟨S64x512x1, broadcastInDim S64x512x1 ![0, 1] bcast_S64x512_S64x512x1_0_1
            (shapeCast S64x512 (extractStridedSlice S64x512x1 ![0, 0, 1] g slices_S64x512x3_S64x512x1_0_0_1) shapeCasts_S64x512x1_S64x512)⟩]
        concatenates_S64x512x1_S64x512x1_S64x512x2_d2))
    shapeCasts_S64x512x2_S32768x2

/-- Columns 0 and 1 of a [512, 64, 3] array of integers, paired and flattened to 32768 pairs. -/
def pairsOfInts (g : IVec S512x64x3 32) : IVec S32768x2 32 :=
  shapeCast S32768x2
    (concatenate S512x64x2 2
      [⟨S512x64x1, broadcastInDim S512x64x1 ![0, 1] bcast_S512x64_S512x64x1_0_1
          (shapeCast S512x64 (extractStridedSlice S512x64x1 ![0, 0, 0] g slices_S512x64x3_S512x64x1_0_0_0) shapeCasts_S512x64x1_S512x64)⟩,
        ⟨S512x64x1, broadcastInDim S512x64x1 ![0, 1] bcast_S512x64_S512x64x1_0_1
          (shapeCast S512x64 (extractStridedSlice S512x64x1 ![0, 0, 1] g slices_S512x64x3_S512x64x1_0_0_1) shapeCasts_S512x64x1_S512x64)⟩]
      concatenates_S512x64x1_S512x64x1_S512x64x2_d2)
    shapeCasts_S512x64x2_S32768x2

/-! ## The fold of the stretches holds them -/

/-- The host stretches from statement %63 to the first lookup call, as one fold over the contents at their head. -/
def tail10 (X : Valuation τ sig (Elt F)) : Valuation τ sig (Elt F) :=
  after hostOps0_20 (after hostOps0_19 (after hostOps0_18 (after hostOps0_17 (after hostOps0_16 (after hostOps0_15
    (after hostOps0_14 (after hostOps0_13 (after hostOps0_12 (after hostOps0_11 (after hostOps0_10 X))))))))))

/-- Each operation's result rewritten at its own buffer and passed over at any other: the rewriting half of the
    library's fold evaluation, for what one simplifier pass leaves inside an operand list. -/
local macro "finish_results" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

set_option maxHeartbeats 4000000 in
theorem tail10_v63 (X : Valuation τ sig (Elt F)) :
    tail10 X (Proc.devRef .tc main_v63) = shapeCast S64x512x3 (X (Proc.devRef .tc main_v62)) shapeCasts_S32768x3_S64x512x3 := by
  unfold tail10
  after_results_simp
  rfl

set_option maxHeartbeats 4000000 in
theorem tail10_v94 (X : Valuation τ sig (Elt F)) :
    tail10 X (Proc.devRef .tc main_v94) = hiT (X (Proc.devRef .tc main_arg4)) := by
  unfold tail10 hiT padT
  after_results_simp
  rfl

set_option maxHeartbeats 4000000 in
theorem tail10_v97 (X : Valuation τ sig (Elt F)) :
    tail10 X (Proc.devRef .tc main_v97) = loT (X (Proc.devRef .tc main_arg4)) := by
  unfold tail10 loT hiT padT
  after_results_simp
  rfl

set_option maxHeartbeats 4000000 in
theorem tail10_v98 (X : Valuation τ sig (Elt F)) :
    tail10 X (Proc.devRef .tc main_v98) = hiT (X (Proc.devRef .tc main_arg5)) := by
  unfold tail10 hiT padT
  after_results_simp
  rfl

set_option maxHeartbeats 4000000 in
theorem tail10_v101 (X : Valuation τ sig (Elt F)) :
    tail10 X (Proc.devRef .tc main_v101) = loT (X (Proc.devRef .tc main_arg5)) := by
  unfold tail10 loT hiT padT
  after_results_simp
  rfl

set_option maxHeartbeats 4000000 in
theorem tail10_v87 (X : Valuation τ sig (Elt F)) :
    tail10 X (Proc.devRef .tc main_v87) = clip512 (pairsOfGrid (X (Proc.devRef .tc main_v43))) := by
  unfold tail10 clip512 pairsOfGrid
  after_results_simp
  finish_results
  rfl

set_option maxHeartbeats 4000000 in
theorem tail10_v89 (X : Valuation τ sig (Elt F)) :
    tail10 X (Proc.devRef .tc main_v89) = clip512 (pairsOfInts (X (Proc.devRef .tc main_arg2))) := by
  unfold tail10 clip512 pairsOfInts
  after_results_simp
  finish_results
  rfl

set_option maxHeartbeats 4000000 in
theorem tail10_v91 (X : Valuation τ sig (Elt F)) :
    tail10 X (Proc.devRef .tc main_v91) = clip512 (pairsOfInts (X (Proc.devRef .tc main_arg3))) := by
  unfold tail10 clip512 pairsOfInts
  after_results_simp
  finish_results
  rfl

/-! ## Through the three lookup calls

Each call rewrites one array, its own output; every other buffer keeps what it held when the call began: a buffer the
call does not stage is untouched, and an array the call only reads is folded over no write-back at all. Between the
calls the program only reshapes each output into its final shape. -/

variable (m : (ℓ : Loc nD τ sig) → Buf (Elt F) ℓ) (ρ : Dev nD → PrngReg)

theorem W21_eq (c : Dev nD) : W21 m ρ c = tail10 (W10 m ρ c) := rfl

/-- The first call leaves every buffer but its output array as it found it. -/
theorem W22_keep (c : Dev nD) (b : Ref sig .tc) (hb : b ≠ main_v102) :
    W22 m ρ c (Proc.devRef .tc b) = W21 m ρ c (Proc.devRef .tc b) := by
  by_cases h : ∃ w, Pipeline.arrRef spec0 w = b
  · obtain ⟨w, rfl⟩ := h
    rw [W22_arr]
    have hin : (cfg0.win w).isOut = false := by
      fin_cases w <;> first | rfl | exact absurd rfl hb
    rw [(dat0 (V21 m ρ) c).arrAt_in w hin cfg0.N, A_eq0]
  · exact W22_of_ne m ρ c b (fun w e => h ⟨w, e⟩)

/-- The second call leaves every buffer but its output array as it found it. -/
theorem W24_keep (c : Dev nD) (b : Ref sig .tc) (hb : b ≠ main_v104) :
    W24 m ρ c (Proc.devRef .tc b) = W23 m ρ c (Proc.devRef .tc b) := by
  by_cases h : ∃ w, Pipeline.arrRef spec1 w = b
  · obtain ⟨w, rfl⟩ := h
    rw [W24_arr]
    have hin : (cfg1.win w).isOut = false := by
      fin_cases w <;> first | rfl | exact absurd rfl hb
    rw [(dat1 (V23 m ρ) c).arrAt_in w hin cfg1.N, A_eq1]
  · exact W24_of_ne m ρ c b (fun w e => h ⟨w, e⟩)

/-- The third call leaves every buffer but its output array as it found it. -/
theorem W26_keep (c : Dev nD) (b : Ref sig .tc) (hb : b ≠ main_v106) :
    W26 m ρ c (Proc.devRef .tc b) = W25 m ρ c (Proc.devRef .tc b) := by
  by_cases h : ∃ w, Pipeline.arrRef spec2 w = b
  · obtain ⟨w, rfl⟩ := h
    rw [W26_arr]
    have hin : (cfg2.win w).isOut = false := by
      fin_cases w <;> first | rfl | exact absurd rfl hb
    rw [(dat2 (V25 m ρ) c).arrAt_in w hin cfg2.N, A_eq2]
  · exact W26_of_ne m ρ c b (fun w e => h ⟨w, e⟩)

/-- A reshape's result buffer aside, the stretch after a call changes nothing. -/
theorem W23_keep (c : Dev nD) (b : Ref sig .tc) (hb : b ≠ main_v103) :
    W23 m ρ c (Proc.devRef .tc b) = W22 m ρ c (Proc.devRef .tc b) := by
  show after hostOps1 (W22 m ρ c) (Proc.devRef .tc b) = _
  simp only [after_cons, after_nil]
  rw [reshape_result_ne]; exact hb

theorem W25_keep (c : Dev nD) (b : Ref sig .tc) (hb : b ≠ main_v105) :
    W25 m ρ c (Proc.devRef .tc b) = W24 m ρ c (Proc.devRef .tc b) := by
  show after hostOps2 (W24 m ρ c) (Proc.devRef .tc b) = _
  simp only [after_cons, after_nil]
  rw [reshape_result_ne]; exact hb

theorem W27_keep (c : Dev nD) (b : Ref sig .tc) (hb : b ≠ main_v107) :
    W27 m ρ c (Proc.devRef .tc b) = W26 m ρ c (Proc.devRef .tc b) := by
  show after hostOps3 (W26 m ρ c) (Proc.devRef .tc b) = _
  simp only [after_cons, after_nil]
  rw [reshape_result_ne]; exact hb

/-- A buffer none of the calls or reshapes writes ends as it stood before the first call. -/
theorem W27_early (c : Dev nD) (b : Ref sig .tc) (h2 : b ≠ main_v102) (h3 : b ≠ main_v103) (h4 : b ≠ main_v104)
    (h5 : b ≠ main_v105) (h6 : b ≠ main_v106) (h7 : b ≠ main_v107) :
    W27 m ρ c (Proc.devRef .tc b) = W21 m ρ c (Proc.devRef .tc b) := by
  rw [W27_keep m ρ c b h7, W26_keep m ρ c b h6, W25_keep m ρ c b h5, W24_keep m ρ c b h4, W23_keep m ρ c b h3,
    W22_keep m ρ c b h2]

/-- The entry contents of the second and third calls at a buffer the earlier calls and reshapes do not write. -/
theorem W23_early (c : Dev nD) (b : Ref sig .tc) (h2 : b ≠ main_v102) (h3 : b ≠ main_v103) :
    W23 m ρ c (Proc.devRef .tc b) = W21 m ρ c (Proc.devRef .tc b) := by
  rw [W23_keep m ρ c b h3, W22_keep m ρ c b h2]

theorem W25_early (c : Dev nD) (b : Ref sig .tc) (h2 : b ≠ main_v102) (h3 : b ≠ main_v103) (h4 : b ≠ main_v104)
    (h5 : b ≠ main_v105) :
    W25 m ρ c (Proc.devRef .tc b) = W21 m ρ c (Proc.devRef .tc b) := by
  rw [W25_keep m ρ c b h5, W24_keep m ρ c b h4, W23_keep m ρ c b h3, W22_keep m ρ c b h2]

/-! ## The four results -/

/-- The first result: the first call's output array, reshaped. -/
theorem W27_v103 (c : Dev nD) :
    W27 m ρ c (Proc.devRef .tc main_v103)
      = shapeCast S64x512x1024 ((dat0 (V21 m ρ) c).arrAt 5 cfg0.N) shapeCasts_S32768x1024_S64x512x1024 := by
  rw [W27_keep m ρ c _ (by decide), W26_keep m ρ c _ (by decide), W25_keep m ρ c _ (by decide),
    W24_keep m ρ c _ (by decide)]
  show after hostOps1 (W22 m ρ c) (Proc.devRef .tc main_v103) = _
  simp only [after_cons, after_nil]
  rw [reshape_result]
  rw [show W22 m ρ c (Proc.devRef .tc main_v102) = (dat0 (V21 m ρ) c).arrAt 5 cfg0.N from W22_arr m ρ c 5]
  rfl

/-- The second result: the second call's output array, reshaped. -/
theorem W27_v105 (c : Dev nD) :
    W27 m ρ c (Proc.devRef .tc main_v105)
      = shapeCast S512x64x1024 ((dat1 (V23 m ρ) c).arrAt 5 cfg1.N) shapeCasts_S32768x1024_S512x64x1024 := by
  rw [W27_keep m ρ c _ (by decide), W26_keep m ρ c _ (by decide)]
  show after hostOps2 (W24 m ρ c) (Proc.devRef .tc main_v105) = _
  simp only [after_cons, after_nil]
  rw [reshape_result]
  rw [show W24 m ρ c (Proc.devRef .tc main_v104) = (dat1 (V23 m ρ) c).arrAt 5 cfg1.N from W24_arr m ρ c 5]
  rfl

/-- The third result: the third call's output array, reshaped. -/
theorem W27_v107 (c : Dev nD) :
    W27 m ρ c (Proc.devRef .tc main_v107)
      = shapeCast S512x64x1024 ((dat2 (V25 m ρ) c).arrAt 5 cfg2.N) shapeCasts_S32768x1024_S512x64x1024 := by
  show after hostOps3 (W26 m ρ c) (Proc.devRef .tc main_v107) = _
  simp only [after_cons, after_nil]
  rw [reshape_result]
  rw [show W26 m ρ c (Proc.devRef .tc main_v106) = (dat2 (V25 m ρ) c).arrAt 5 cfg2.N from W26_arr m ρ c 5]
  rfl

end Cert.KernelIdeal.Host

end
-- ==== Proof.PrefixK.lean ====
/-
  The shared first part of the kernel's program — the scatter of each trajectory's points into time slots, through
  statement %62 — as one fold of its host operations over the launch contents. It writes none of the six arguments.
-/
import proofs.«401964_j4724464025663_2_alg».proof.Proof.HostK

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- The first ten host stretches (statements %0 … %62, the outlined calls' operations in their places) as one fold. -/
def pref10 (X : Valuation τ sig (Elt F)) : Valuation τ sig (Elt F) :=
  after hostOps0_9 (after hostOps0_8 (after hostOps0_7 (after hostOps0_6 (after hostOps0_5 (after hostOps0_4
    (after hostOps0_3 (after hostOps0_2 (after hostOps0_1 (after hostOps0 X)))))))))

variable (m : (ℓ : Loc nD τ sig) → Buf (Elt F) ℓ) (ρ : Dev nD → PrngReg)

theorem W10_eq (c : Dev nD) : W10 m ρ c = pref10 (W0 m ρ c) := rfl

/-- The launch contents at an argument are the launch memory's. -/
theorem W0_arg (c : Dev nD) (b : Ref sig .tc) : W0 m ρ c (Proc.devRef .tc b) = m ((c : Thread nD τ).loc b) := rfl

set_option maxHeartbeats 4000000 in
theorem pref10_arg0 (X : Valuation τ sig (Elt F)) : pref10 X (Proc.devRef .tc main_arg0) = X (Proc.devRef .tc main_arg0) := by
  unfold pref10; after_results_simp
set_option maxHeartbeats 4000000 in
theorem pref10_arg1 (X : Valuation τ sig (Elt F)) : pref10 X (Proc.devRef .tc main_arg1) = X (Proc.devRef .tc main_arg1) := by
  unfold pref10; after_results_simp
set_option maxHeartbeats 4000000 in
theorem pref10_arg2 (X : Valuation τ sig (Elt F)) : pref10 X (Proc.devRef .tc main_arg2) = X (Proc.devRef .tc main_arg2) := by
  unfold pref10; after_results_simp
set_option maxHeartbeats 4000000 in
theorem pref10_arg3 (X : Valuation τ sig (Elt F)) : pref10 X (Proc.devRef .tc main_arg3) = X (Proc.devRef .tc main_arg3) := by
  unfold pref10; after_results_simp
set_option maxHeartbeats 4000000 in
theorem pref10_arg4 (X : Valuation τ sig (Elt F)) : pref10 X (Proc.devRef .tc main_arg4) = X (Proc.devRef .tc main_arg4) := by
  unfold pref10; after_results_simp
set_option maxHeartbeats 4000000 in
theorem pref10_arg5 (X : Valuation τ sig (Elt F)) : pref10 X (Proc.devRef .tc main_arg5) = X (Proc.devRef .tc main_arg5) := by
  unfold pref10; after_results_simp

end Cert.KernelIdeal.Host

end
-- ==== Proof.Spec.lean ====
/-
  The specification both programs are compared against, stated once over literal shapes.

  A table of 640 rows of 512 columns is looked up through a one-hot coefficient: for an index word `x` the
  coefficient of row `k` is 1 when `x` is the word of `k` and 0 otherwise. The kernel does the lookup twice, through a
  leading part `hi` and a residual part `lo` of the same table, and adds the two sums (`rowSel`). One output row of 1024
  columns is the lookup of the row's first index in the first pair of tables (columns 0 .. 511) followed by the lookup
  of its second index in the second pair (columns 512 .. 1023): `lookup2`.
-/
import Idealize.ShloMosaic.PureOps.Ideal
import Idealize.ShloMosaic.Lib.ValueIdx

noncomputable section

open scoped BigOperators

namespace Cert.Embed

open Idealize.ShloMosaic Idealize.ShloMosaic.ValueIdx

/-- A padded table: 640 rows (513 real ones, then 127 rows of padding) of 512 columns. -/
abbrev T640 : Shape := ⟨2, ![640, 512]⟩
/-- An embedding table as the programs receive it: 513 rows of 512 columns. -/
abbrev T513 : Shape := ⟨2, ![513, 512]⟩
/-- The flattened index pairs: 32768 rows of (first index, second index). -/
abbrev I2 : Shape := ⟨2, ![32768, 2]⟩
/-- The flattened result: 32768 rows of 1024 columns. -/
abbrev O2 : Shape := ⟨2, ![32768, 1024]⟩

/-- The one-hot coefficient of table row `k` for the index word `x`: 1 on the row the word names, 0 elsewhere. -/
def coef (x : BitVec 32) (k : Fin 640) : EReal := if x = BitVec.ofNat 32 k.val then 1 else 0

/-- One entry of a two-pass lookup: the one-hot sum over the leading part plus the one-hot sum over the residual part,
    at column `q`. -/
def rowSel (hi lo : FVec Ideal T640 .bf16) (x : BitVec 32) (q : Fin 512) : EReal :=
  (∑ k : Fin 640, coef x k * hi (ix2 k q)) + (∑ k : Fin 640, coef x k * lo (ix2 k q))

/-- The whole result array of one lookup call: row `r`, column `d` is the first index's lookup in the first pair of
    tables when `d < 512`, and the second index's lookup in the second pair, at column `d - 512`, otherwise. -/
def lookup2 (hi1 lo1 hi2 lo2 : FVec Ideal T640 .bf16) (idx : IVec I2 32) : FVec Ideal O2 .f32 :=
  fun i =>
    if h : (i 1).val < 512 then rowSel hi1 lo1 (idx (ix2 (i 0) 0)) ⟨(i 1).val, h⟩
    else rowSel hi2 lo2 (idx (ix2 (i 0) 1)) ⟨(i 1).val - 512, by have := idx2_lt1 i; omega⟩

/-- The table row an index word names, as a row number below 513 (a word past the last row names the last row; the
    programs only ever meet words inside the range). -/
def rowOf (x : BitVec 32) : Fin 513 := ⟨min x.toNat 512, by omega⟩

/-- What both programs compute at one output entry: for the pair of index words (`ix`, `iy`) of the entry's row, column
    `d` holds the first table's row `ix` at column `d` when `d < 512`, and the second table's row `iy` at column
    `d - 512` otherwise. -/
def tgt (E1 E2 : FVec Ideal T513 .f32) (ix iy : BitVec 32) (d : Fin 1024) : EReal :=
  if h : d.val < 512 then E1 (ix2 (rowOf ix) ⟨d.val, h⟩)
  else E2 (ix2 (rowOf iy) ⟨d.val - 512, by have := d.isLt; omega⟩)

end Cert.Embed

end
-- ==== Proof.RegionValue0.lean ====
/-
  The value of a kernel region at the ideal instance: the lemmas the three lookup calls share, and lookup call 0.

  Each of the three lookup calls runs over 32 grid points; point t handles rows 1024 t .. 1024 t + 1023 of the 32768
  flattened index pairs. Its body builds, for each of the two index columns, the 1024 x 640 one-hot matrix of the
  column against the row numbers 0 .. 639, multiplies it into the leading part and into the residual part of a padded
  table, and adds the two products; the first column's result fills columns 0 .. 511 of the 1024 x 1024 output block and
  the second column's result fills columns 512 .. 1023.

  Read at the ideal values this is, entry by entry, the two-pass one-hot sum Cert.Embed.rowSel, and the whole output
  array after the 32 points is Cert.Embed.lookup2 of the four tables and the index array as the region finds them:

    * a matrix product into the zero accumulator, read at (p, q), is the sum over the contracted row number k of the
      products of the entries (p, k) and (k, q);
    * the one-hot entry (p, k) is 1 when the index word of row p is the word of k and 0 otherwise, the format changes
      being the identity on extended reals and the integer words 0 and 1 converting to 0 and 1;
    * the two stores tile the output block, so the block is one function of its index, and the block of point t sits
      at rows 1024 t + (row inside the block) of the array, the tables' blocks being the whole tables;
    * every row r of the array is in the block of point r / 1024.
-/
import proofs.«401964_j4724464025663_2_alg».proof.Proof.Gen.KernelIdeal.Frame
import proofs.«401964_j4724464025663_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## A column vector cast, and broadcast along its rows -/

section Layout
variable {α : Type}

/-- An [a, 1] array cast to [a] reads, at i, the operand at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The one-hot entry -/

/-- The integer words 0 and 1 a comparison leaves, widened to 32 bits and converted, are the extended reals 0 and 1:
    the converted comparison of two words is 1 where they are equal and 0 elsewhere. -/
theorem sitofp_cmpi_eq (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · have e : (IntOp.cmpi .eq x y).setWidth 32 = 1#32 := by subst h; simp [IntOp.cmpi]
    rw [e, if_pos h, show (1#32 : BitVec 32).toInt = 1 from by decide]
    simp
  · have hb : (x == y) = false := by simp [h]
    have e : (IntOp.cmpi .eq x y).setWidth 32 = 0#32 := by
      show BitVec.setWidth 32 (BitVec.ofBool (x == y)) = 0#32
      rw [hb]; decide
    rw [e, if_neg h, show (0#32 : BitVec 32).toInt = 0 from by decide]
    simp

/-! ## A matrix product into the zero accumulator, read at an index -/

theorem lhs_dot_0 (j : S1024x512.Idx) (k : dot_S1024x640_S640x512_S1024x512_1_0_0_1_n_n.contr.Idx) :
    (dot_S1024x640_S640x512_S1024x512_1_0_0_1_n_n.lhsIdx j k 0).val = (j 0).val := by
  simp [DotDims.lhsIdx, dot_S1024x640_S640x512_S1024x512_1_0_0_1_n_n]; rfl

theorem lhs_dot_1 (j : S1024x512.Idx) (k : dot_S1024x640_S640x512_S1024x512_1_0_0_1_n_n.contr.Idx) :
    (dot_S1024x640_S640x512_S1024x512_1_0_0_1_n_n.lhsIdx j k 1).val = (k ⟨0, by decide⟩).val :=
  dot_S1024x640_S640x512_S1024x512_1_0_0_1_n_n.lhsIdx_val_of_single (cl := 1) rfl j k

theorem rhs_dot_0 (j : S1024x512.Idx) (k : dot_S1024x640_S640x512_S1024x512_1_0_0_1_n_n.contr.Idx) :
    (dot_S1024x640_S640x512_S1024x512_1_0_0_1_n_n.rhsIdx j k 0).val = (k ⟨0, by decide⟩).val :=
  dot_S1024x640_S640x512_S1024x512_1_0_0_1_n_n.rhsIdx_val_of_single (cr := 0) rfl j k

theorem rhs_dot_1 (j : S1024x512.Idx) (k : dot_S1024x640_S640x512_S1024x512_1_0_0_1_n_n.contr.Idx) :
    (dot_S1024x640_S640x512_S1024x512_1_0_0_1_n_n.rhsIdx j k 1).val = (j 1).val := by
  simp [DotDims.rhsIdx, dot_S1024x640_S640x512_S1024x512_1_0_0_1_n_n]; rfl

/-- The product of a 1024 x 640 matrix and a 640 x 512 matrix into the zero accumulator, read at (p, q), is the sum over
    the contracted row number k of the products of the entries (p, k) and (k, q). -/
theorem matmul_zero_at (A : FVec Ideal S1024x640 .bf16) (B : FVec Ideal S640x512 .bf16) (p : Fin 1024) (q : Fin 512) :
    matmul dot_S1024x640_S640x512_S1024x512_1_0_0_1_n_n none A B (constant S1024x512 .f32 0x00000000#32) (ix2 p q)
      = ∑ k : Fin 640, A (ix2 p k) * B (ix2 k q) := by
  show FloatOps.matmul _ none A B _ (ix2 p q) = _
  rw [Ideal.matmul_constant_zero_apply,
    ← Equiv.sum_comp (contrEquiv1 dot_S1024x640_S640x512_S1024x512_1_0_0_1_n_n 640 rfl rfl).symm]
  refine Finset.sum_congr rfl fun k _ => ?_
  have hk := contrEquiv1_symm_val dot_S1024x640_S640x512_S1024x512_1_0_0_1_n_n 640 rfl rfl k
  have hl : dot_S1024x640_S640x512_S1024x512_1_0_0_1_n_n.lhsIdx (ix2 p q)
      ((contrEquiv1 dot_S1024x640_S640x512_S1024x512_1_0_0_1_n_n 640 rfl rfl).symm k) = ix2 p k := by
    funext ax; apply Fin.ext
    match ax with
    | ⟨0, _⟩ => exact lhs_dot_0 _ _
    | ⟨1, _⟩ => exact (lhs_dot_1 _ _).trans hk
  have hr : dot_S1024x640_S640x512_S1024x512_1_0_0_1_n_n.rhsIdx (ix2 p q)
      ((contrEquiv1 dot_S1024x640_S640x512_S1024x512_1_0_0_1_n_n 640 rfl rfl).symm k) = ix2 k q := by
    funext ax; apply Fin.ext
    match ax with
    | ⟨0, _⟩ => exact (rhs_dot_0 _ _).trans hk
    | ⟨1, _⟩ => exact rhs_dot_1 _ _
  rw [hl, hr]

/-! ## The payloads at an index -/

/-- The one-hot matrix as the body builds it from an index column: the column, flattened and put back as a column,
    broadcast along 640 columns, compared with the row numbers 0 .. 639 running along the columns, the comparison's bit
    widened, converted and narrowed to the tables' format. -/
abbrev hot (col : IVec S1024x1 32) : FVec Ideal S1024x640 .bf16 :=
  truncf .bf16 (sitofp .f32 (extui 32 (cmpi .eq
    (broadcastTo S1024x640 (shapeCast S1024x1 (shapeCast S1024 col shapeCasts_S1024x1_S1024) shapeCasts_S1024_S1024x1)
      broadcasts_S1024x1_S1024x640)
    (iota .tc S1024x640 32 [1] iota_S1024x640_d1_w32)) natLt_1_32)) bitsLt_bf16_f32

/-- Its entry (p, k) is the one-hot coefficient of row number k for the index word of row p. -/
theorem hot_apply (col : IVec S1024x1 32) (p : Fin 1024) (k : Fin 640) :
    hot col (ix2 p k) = Cert.Embed.coef (col (ix2 p (0 : Fin 1))) k := by
  show (FloatOps.sitofp (F := Ideal) .f32 ((IntOp.cmpi .eq
      (broadcastTo S1024x640 (shapeCast S1024x1 (shapeCast S1024 col shapeCasts_S1024x1_S1024) shapeCasts_S1024_S1024x1)
        broadcasts_S1024x1_S1024x640 (ix2 p k))
      (iota .tc S1024x640 32 [1] iota_S1024x640_d1_w32 (ix2 p k))).setWidth 32) : EReal) = _
  rw [sitofp_cmpi_eq, iota_single_apply,
    (broadcastTo_a1_ab_apply _ _ p k).trans ((shapeCast_a_a1_apply _ _ p 0).trans (shapeCast_a1_a_apply _ _ p))]
  rfl

/-- Column e of the 1024 x 2 index block, as the body slices it, reads at (p, 0) the index (p, e). -/
theorem col0_apply (v0 : Vec Ideal S1024x2 .i32) (p : Fin 1024) :
    extractStridedSlice S1024x1 ![0, 0] (k0_pay1 (F := Ideal) v0) slices_S1024x2_o0_0_S1024x1 (ix2 p (0 : Fin 1))
      = v0 (ix2 p (0 : Fin 2)) :=
  (slice2_axis1_apply 0 _ _ p (0 : Fin 1) (0 : Fin 2) rfl).trans (congrFun (shapeCast_self v0 _) _)

theorem col1_apply (v0 : Vec Ideal S1024x2 .i32) (p : Fin 1024) :
    extractStridedSlice S1024x1 ![0, 1] (k0_pay1 (F := Ideal) v0) slices_S1024x2_o0_1_S1024x1 (ix2 p (0 : Fin 1))
      = v0 (ix2 p (1 : Fin 2)) :=
  (slice2_axis1_apply 1 _ _ p (0 : Fin 1) (1 : Fin 2) rfl).trans (congrFun (shapeCast_self v0 _) _)

/-- The two-pass product of a one-hot matrix with a leading and a residual table, read at (p, q), is the two-pass
    one-hot sum of the index word of row p at column q. -/
theorem twoPass_apply (col : IVec S1024x1 32) (h l : FVec Ideal S640x512 .bf16) (p : Fin 1024) (q : Fin 512) :
    addf
      (matmul dot_S1024x640_S640x512_S1024x512_1_0_0_1_n_n none (hot col)
        (shapeCast S640x512 h shapeCasts_S640x512_S640x512) (constant S1024x512 .f32 0x00000000#32))
      (matmul dot_S1024x640_S640x512_S1024x512_1_0_0_1_n_n none (hot col)
        (shapeCast S640x512 l shapeCasts_S640x512_S640x512) (constant S1024x512 .f32 0x00000000#32)) (ix2 p q)
      = Cert.Embed.rowSel h l (col (ix2 p (0 : Fin 1))) q := by
  rw [addf_apply, shapeCast_self, shapeCast_self, matmul_zero_at, matmul_zero_at]
  unfold Cert.Embed.rowSel
  simp only [hot_apply]

/-- The first payload at (p, q): the two-pass one-hot sum, over the first pair of tables, of row p's first index. -/
theorem pay2_apply (v0 : Vec Ideal S1024x2 .i32) (h l : Vec Ideal S640x512 .bf16) (p : Fin 1024) (q : Fin 512) :
    k0_pay2 (F := Ideal) v0 h l (ix2 p q) = Cert.Embed.rowSel h l (v0 (ix2 p (0 : Fin 2))) q :=
  (twoPass_apply _ h l p q).trans (by rw [col0_apply])

/-- The second payload at (p, q): the two-pass one-hot sum, over the second pair of tables, of row p's second index. -/
theorem pay3_apply (v0 : Vec Ideal S1024x2 .i32) (h l : Vec Ideal S640x512 .bf16) (p : Fin 1024) (q : Fin 512) :
    k0_pay3 (F := Ideal) v0 h l (ix2 p q) = Cert.Embed.rowSel h l (v0 (ix2 p (1 : Fin 2))) q :=
  (twoPass_apply _ h l p q).trans (by rw [col1_apply])

/-! ## One output block as a function of its index -/

/-- What one grid point leaves in its 1024 x 1024 output block, from the four tables and the point's 1024 x 2 index
    block: row p, column d is the first index's lookup in the first pair of tables when d < 512, and the second
    index's lookup in the second pair, at column d - 512, otherwise. -/
def blockSel (hi1 lo1 hi2 lo2 : FVec Ideal S640x512 .bf16) (v0 : IVec S1024x2 32) : FVec Ideal S1024x1024 .f32 :=
  fun y =>
    if h : (y 1).val < 512 then Cert.Embed.rowSel hi1 lo1 (v0 (ix2 (y 0) 0)) ⟨(y 1).val, h⟩
    else Cert.Embed.rowSel hi2 lo2 (v0 (ix2 (y 0) 1)) ⟨(y 1).val - 512, by have := idx2_lt1 y; omega⟩

/-- In the left half it is the first lookup. -/
theorem blockSel_left (hi1 lo1 hi2 lo2 : FVec Ideal S640x512 .bf16) (v0 : IVec S1024x2 32) (y : S1024x1024.Idx)
    (p : Fin 1024) (q : Fin 512) (h0 : (y 0).val = p.val) (h1 : (y 1).val = q.val) :
    blockSel hi1 lo1 hi2 lo2 v0 y = Cert.Embed.rowSel hi1 lo1 (v0 (ix2 p 0)) q := by
  obtain ⟨a, b, rfl⟩ : ∃ (a : Fin 1024) (b : Fin 1024), y = ix2 a b := ⟨y 0, y 1, eq_ix2 y⟩
  obtain rfl : a = p := Fin.ext h0
  have hb : b.val = q.val := h1
  have hq := q.isLt
  unfold blockSel
  rw [dif_pos (show b.val < 512 by omega)]
  show Cert.Embed.rowSel hi1 lo1 (v0 (ix2 a 0)) ⟨b.val, _⟩ = _
  congr 1
  exact Fin.ext hb

/-- In the right half it is the second lookup, 512 columns back. -/
theorem blockSel_right (hi1 lo1 hi2 lo2 : FVec Ideal S640x512 .bf16) (v0 : IVec S1024x2 32) (y : S1024x1024.Idx)
    (p : Fin 1024) (q : Fin 512) (h0 : (y 0).val = p.val) (h1 : (y 1).val = 512 + q.val) :
    blockSel hi1 lo1 hi2 lo2 v0 y = Cert.Embed.rowSel hi2 lo2 (v0 (ix2 p 1)) q := by
  obtain ⟨a, b, rfl⟩ : ∃ (a : Fin 1024) (b : Fin 1024), y = ix2 a b := ⟨y 0, y 1, eq_ix2 y⟩
  obtain rfl : a = p := Fin.ext h0
  have hb : b.val = 512 + q.val := h1
  unfold blockSel
  rw [dif_neg (show ¬ b.val < 512 by omega)]
  show Cert.Embed.rowSel hi2 lo2 (v0 (ix2 a 1)) ⟨b.val - 512, _⟩ = _
  congr 1
  exact Fin.ext (by show b.val - 512 = q.val; omega)

/-- The whole result, read the same way by coordinates: left half. -/
theorem lookup2_left (hi1 lo1 hi2 lo2 : FVec Ideal Cert.Embed.T640 .bf16) (idx : IVec Cert.Embed.I2 32)
    (i : Cert.Embed.O2.Idx) (r : Fin 32768) (q : Fin 512) (h0 : (i 0).val = r.val) (h1 : (i 1).val = q.val) :
    Cert.Embed.lookup2 hi1 lo1 hi2 lo2 idx i = Cert.Embed.rowSel hi1 lo1 (idx (ix2 r 0)) q := by
  obtain ⟨a, b, rfl⟩ : ∃ (a : Fin 32768) (b : Fin 1024), i = ix2 a b := ⟨i 0, i 1, eq_ix2 i⟩
  obtain rfl : a = r := Fin.ext h0
  have hb : b.val = q.val := h1
  have hq := q.isLt
  unfold Cert.Embed.lookup2
  rw [dif_pos (show b.val < 512 by omega)]
  show Cert.Embed.rowSel hi1 lo1 (idx (ix2 a 0)) ⟨b.val, _⟩ = _
  congr 1
  exact Fin.ext hb

/-- The whole result by coordinates: right half. -/
theorem lookup2_right (hi1 lo1 hi2 lo2 : FVec Ideal Cert.Embed.T640 .bf16) (idx : IVec Cert.Embed.I2 32)
    (i : Cert.Embed.O2.Idx) (r : Fin 32768) (q : Fin 512) (h0 : (i 0).val = r.val) (h1 : (i 1).val = 512 + q.val) :
    Cert.Embed.lookup2 hi1 lo1 hi2 lo2 idx i = Cert.Embed.rowSel hi2 lo2 (idx (ix2 r 1)) q := by
  obtain ⟨a, b, rfl⟩ : ∃ (a : Fin 32768) (b : Fin 1024), i = ix2 a b := ⟨i 0, i 1, eq_ix2 i⟩
  obtain rfl : a = r := Fin.ext h0
  have hb : b.val = 512 + q.val := h1
  unfold Cert.Embed.lookup2
  rw [dif_neg (show ¬ b.val < 512 by omega)]
  show Cert.Embed.rowSel hi2 lo2 (idx (ix2 a 1)) ⟨b.val - 512, _⟩ = _
  congr 1
  exact Fin.ext (by show b.val - 512 = q.val; omega)

/-- The zero offsets, however spelt. -/
theorem zero_off : (![0, 0] : Fin 2 → Nat) = fun _ => 0 := funext fun a => by fin_cases a <;> rfl

/-! ## Region 0: the output array of lookup call 0 -/

/-- The body's two stores tile the output block with the two payloads, each over the whole input blocks: the block is
    blockSel of them. -/
theorem out0_eq (x0 x1 x2 x3 : Vec Ideal S640x512 .bf16) (x4 : Vec Ideal S1024x2 .i32) :
    out0_5 (F := Ideal) x0 x1 x2 x3 x4 = blockSel x0 x1 x2 x3 x4 := by
  funext y
  unfold out0_5
  simp only [View.ld_unit_zero (S := S1024x2) zero_off, View.ld_unit_zero (S := S640x512) zero_off]
  refine View.canon_apply_of_pieces (Val := Elt Ideal) (e := .f32) (blockSel x0 x1 x2 x3 x4) _ ?_ y (cover0_5 _ _ y)
  intro pc hpc x
  simp only [List.mem_cons, List.mem_singleton, List.not_mem_nil, or_false] at hpc
  rcases hpc with rfl | rfl
  · obtain ⟨p, q, rfl⟩ : ∃ (p : Fin 1024) (q : Fin 512), x = ix2 p q := ⟨x 0, x 1, eq_ix2 x⟩
    show k0_pay3 (F := Ideal) x4 x2 x3 (ix2 p q) = blockSel x0 x1 x2 x3 x4 (r0_3.emb (ix2 p q))
    rw [pay3_apply]
    exact (blockSel_right x0 x1 x2 x3 x4 _ p q (by show 0 + 1 * p.val = p.val; omega)
      (by show 512 + 1 * q.val = 512 + q.val; omega)).symm
  · obtain ⟨p, q, rfl⟩ : ∃ (p : Fin 1024) (q : Fin 512), x = ix2 p q := ⟨x 0, x 1, eq_ix2 x⟩
    show k0_pay2 (F := Ideal) x4 x0 x1 (ix2 p q) = blockSel x0 x1 x2 x3 x4 (r0_2.emb (ix2 p q))
    rw [pay2_apply]
    exact (blockSel_left x0 x1 x2 x3 x4 _ p q (by show 0 + 1 * p.val = p.val; omega)
      (by show 0 + 1 * q.val = q.val; omega)).symm

section Region0

variable (V : (c : Dev nD) → (b : Ref sig .tc) → Buf (Elt Ideal) ((c : Thread nD τ).loc b))

/-- The printed index maps over the 32 points: every table's block is the whole table, and the index block and the
    output block of point t are block t along the rows. -/
theorem index0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Each table's block at any point is the table as the region finds it. -/
theorem table0_0 (c : Dev nD) (t : Fin cfg0.N) : (iblk0 (F := Ideal) V c 0 t : Vec Ideal S640x512 .bf16) = V c main_v94 := by
  obtain ⟨e0, e1, -⟩ := index0 t
  funext x
  show V c main_v94 (((cfg0.win 0).blk t).view.emb x) = V c main_v94 x
  congr 1
  funext a; apply Fin.ext
  match a with
  | ⟨0, _⟩ => show win0_0.index t (0 : Fin 2) * 640 + 1 * (x 0).val = (x 0).val; omega
  | ⟨1, _⟩ => show win0_0.index t (1 : Fin 2) * 512 + 1 * (x 1).val = (x 1).val; omega

theorem table0_1 (c : Dev nD) (t : Fin cfg0.N) : (iblk0 (F := Ideal) V c 1 t : Vec Ideal S640x512 .bf16) = V c main_v97 := by
  obtain ⟨-, -, e0, e1, -⟩ := index0 t
  funext x
  show V c main_v97 (((cfg0.win 1).blk t).view.emb x) = V c main_v97 x
  congr 1
  funext a; apply Fin.ext
  match a with
  | ⟨0, _⟩ => show win0_1.index t (0 : Fin 2) * 640 + 1 * (x 0).val = (x 0).val; omega
  | ⟨1, _⟩ => show win0_1.index t (1 : Fin 2) * 512 + 1 * (x 1).val = (x 1).val; omega

theorem table0_2 (c : Dev nD) (t : Fin cfg0.N) : (iblk0 (F := Ideal) V c 2 t : Vec Ideal S640x512 .bf16) = V c main_v98 := by
  obtain ⟨-, -, -, -, e0, e1, -⟩ := index0 t
  funext x
  show V c main_v98 (((cfg0.win 2).blk t).view.emb x) = V c main_v98 x
  congr 1
  funext a; apply Fin.ext
  match a with
  | ⟨0, _⟩ => show win0_2.index t (0 : Fin 2) * 640 + 1 * (x 0).val = (x 0).val; omega
  | ⟨1, _⟩ => show win0_2.index t (1 : Fin 2) * 512 + 1 * (x 1).val = (x 1).val; omega

theorem table0_3 (c : Dev nD) (t : Fin cfg0.N) : (iblk0 (F := Ideal) V c 3 t : Vec Ideal S640x512 .bf16) = V c main_v101 := by
  obtain ⟨-, -, -, -, -, -, e0, e1, -⟩ := index0 t
  funext x
  show V c main_v101 (((cfg0.win 3).blk t).view.emb x) = V c main_v101 x
  congr 1
  funext a; apply Fin.ext
  match a with
  | ⟨0, _⟩ => show win0_3.index t (0 : Fin 2) * 640 + 1 * (x 0).val = (x 0).val; omega
  | ⟨1, _⟩ => show win0_3.index t (1 : Fin 2) * 512 + 1 * (x 1).val = (x 1).val; omega

/-- The index block at point t is rows 1024 t .. 1024 t + 1023 of the index array. -/
theorem indexBlock0 (c : Dev nD) (t : Fin cfg0.N) (p : Fin 1024) (e : Fin 2) (r : Fin 32768) (hr : r.val = 1024 * t.val + p.val) :
    (iblk0 (F := Ideal) V c 4 t : Vec Ideal S1024x2 .i32) (ix2 p e) = (V c main_v87 : IVec S32768x2 32) (ix2 r e) := by
  obtain ⟨-, -, -, -, -, -, -, -, e0, e1, -⟩ := index0 t
  show V c main_v87 (((cfg0.win 4).blk t).view.emb (ix2 p e)) = V c main_v87 (ix2 r e)
  congr 1
  funext a; apply Fin.ext
  match a with
  | ⟨0, _⟩ => show win0_4.index t (0 : Fin 2) * 1024 + 1 * p.val = r.val; omega
  | ⟨1, _⟩ => show win0_4.index t (1 : Fin 2) * 2 + 1 * e.val = e.val; omega

/-- What point t writes back is block t of the whole lookup of the arrays as the region finds them. -/
theorem flushed0 (c : Dev nD) (t : Fin cfg0.N) :
    (dat0 (F := Ideal) V c).flushed 5 t = ((cfg0.win 5).blk t).view.read (Elt Ideal)
      (Cert.Embed.lookup2 (V c main_v94) (V c main_v97) (V c main_v98) (V c main_v101) (V c main_v87)) := by
  show (cfg0.win 5).cut (grid0.coords t) ((dat0 V c).after 5 t) = _
  rw [after0_5, out0_eq, table0_0, table0_1, table0_2, table0_3]
  obtain ⟨-, -, -, -, -, -, -, -, -, -, e0, e1⟩ := index0 t
  have hN : cfg0.N = 32 := N_0
  have ht := t.isLt
  funext j
  show blockSel (V c main_v94) (V c main_v97) (V c main_v98) (V c main_v101) (iblk0 V c 4 t) j
    = Cert.Embed.lookup2 (V c main_v94) (V c main_v97) (V c main_v98) (V c main_v101) (V c main_v87)
        (((cfg0.win 5).blk t).view.emb j)
  have hj0 : (j 0).val < 1024 := (j 0).isLt
  have hj1 : (j 1).val < 1024 := (j 1).isLt
  have hi0 : ((((cfg0.win 5).blk t).view.emb j) 0).val = 1024 * t.val + (j 0).val := by
    show win0_5.index t (0 : Fin 2) * 1024 + 1 * (j 0).val = _; omega
  have hi1 : ((((cfg0.win 5).blk t).view.emb j) 1).val = (j 1).val := by
    show win0_5.index t (1 : Fin 2) * 1024 + 1 * (j 1).val = _; omega
  by_cases hlt : (j 1).val < 512
  · rw [blockSel_left _ _ _ _ _ j ⟨(j 0).val, hj0⟩ ⟨(j 1).val, hlt⟩ rfl rfl,
      lookup2_left _ _ _ _ _ _ ⟨1024 * t.val + (j 0).val, by omega⟩ ⟨(j 1).val, hlt⟩ hi0 hi1,
      indexBlock0 V c t ⟨(j 0).val, hj0⟩ 0 ⟨1024 * t.val + (j 0).val, by omega⟩ rfl]
  · rw [blockSel_right _ _ _ _ _ j ⟨(j 0).val, hj0⟩ ⟨(j 1).val - 512, by omega⟩ rfl (by show (j 1).val = 512 + ((j 1).val - 512); omega),
      lookup2_right _ _ _ _ _ _ ⟨1024 * t.val + (j 0).val, by omega⟩ ⟨(j 1).val - 512, by omega⟩ hi0
        (by rw [hi1]; show (j 1).val = 512 + ((j 1).val - 512); omega),
      indexBlock0 V c t ⟨(j 0).val, hj0⟩ 1 ⟨1024 * t.val + (j 0).val, by omega⟩ rfl]

/-- An index of the output array is in point t's block iff each coordinate is in the block's range on its axis. -/
theorem mem_block0 (t : Fin cfg0.N) (i : S32768x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v102).slice (win0_5.rect t)).set ↔ _
  rw [View.set_slice_whole, Rect.mem_set_unit]
  exact Iff.rfl

/-- Row r of the output array is in the block of point r / 1024. -/
theorem cover0 (i : S32768x1024.Idx) :
    ∃ t : Fin cfg0.N, (cfg0.win 5).flush t = true ∧ i ∈ ((cfg0.win 5).blk t).view.set := by
  have hN : cfg0.N = 32 := N_0
  have hi0 : (i 0).val < 32768 := (i 0).isLt
  have hi1 : (i 1).val < 1024 := (i 1).isLt
  have hlt : (i 0).val / 1024 < cfg0.N := by omega
  obtain ⟨-, -, -, -, -, -, -, -, -, -, e0, e1⟩ := index0 ⟨(i 0).val / 1024, hlt⟩
  refine ⟨⟨(i 0).val / 1024, hlt⟩, flush0_5 _, ?_⟩
  rw [mem_block0]
  intro a
  match a with
  | ⟨0, _⟩ =>
    show win0_5.index ⟨(i 0).val / 1024, hlt⟩ (0 : Fin 2) * 1024 ≤ (i 0).val
      ∧ (i 0).val < win0_5.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, hlt⟩ (1 : Fin 2) * 1024 ≤ (i 1).val
      ∧ (i 1).val < win0_5.index ⟨(i 0).val / 1024, hlt⟩ (1 : Fin 2) * 1024 + 1024
    rw [e1]; omega

/-- THE OUTPUT ARRAY OF REGION 0 after its 32 points is the whole lookup of the four tables and the index array as the
    region finds them. -/
theorem arrAt0 (c : Dev nD) : (dat0 (F := Ideal) V c).arrAt 5 cfg0.N
    = Cert.Embed.lookup2 (V c main_v94) (V c main_v97) (V c main_v98) (V c main_v101) (V c main_v87) :=
  (dat0 (F := Ideal) V c).arrAt_eq_of_cover 5 _ (fun t _ => flushed0 V c t) cover0

end Region0

/-! ## Region 0: the output array of lookup call 0, concluded -/

end Cert.KernelIdeal.RegionValue

end
-- ==== Proof.RegionValue1.lean ====
/-
  The value of a kernel region at the ideal instance: lookup call 1.

  The argument is lookup call 0's with call 1's grid, windows, index array and output array in place of call 0's: the
  three calls run the same body over the same four tables, each on its own array of index pairs.
-/
import proofs.«401964_j4724464025663_2_alg».proof.Proof.RegionValue0

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## Region 1: the output array of lookup call 1 -/

/-- The body's two stores tile the output block with the two payloads, each over the whole input blocks: the block is
    blockSel of them. (Lookup call 1's payloads are those of the first of the three calls, operation for
    operation, so they are read at an index by the same two lemmas.) -/
theorem out1_eq (x0 x1 x2 x3 : Vec Ideal S640x512 .bf16) (x4 : Vec Ideal S1024x2 .i32) :
    out1_5 (F := Ideal) x0 x1 x2 x3 x4 = blockSel x0 x1 x2 x3 x4 := by
  funext y
  unfold out1_5
  simp only [View.ld_unit_zero (S := S1024x2) zero_off, View.ld_unit_zero (S := S640x512) zero_off]
  refine View.canon_apply_of_pieces (Val := Elt Ideal) (e := .f32) (blockSel x0 x1 x2 x3 x4) _ ?_ y (cover1_5 _ _ y)
  intro pc hpc x
  simp only [List.mem_cons, List.mem_singleton, List.not_mem_nil, or_false] at hpc
  rcases hpc with rfl | rfl
  · obtain ⟨p, q, rfl⟩ : ∃ (p : Fin 1024) (q : Fin 512), x = ix2 p q := ⟨x 0, x 1, eq_ix2 x⟩
    show k0_pay3 (F := Ideal) x4 x2 x3 (ix2 p q) = blockSel x0 x1 x2 x3 x4 (r1_3.emb (ix2 p q))
    rw [pay3_apply]
    exact (blockSel_right x0 x1 x2 x3 x4 _ p q (by show 0 + 1 * p.val = p.val; omega)
      (by show 512 + 1 * q.val = 512 + q.val; omega)).symm
  · obtain ⟨p, q, rfl⟩ : ∃ (p : Fin 1024) (q : Fin 512), x = ix2 p q := ⟨x 0, x 1, eq_ix2 x⟩
    show k0_pay2 (F := Ideal) x4 x0 x1 (ix2 p q) = blockSel x0 x1 x2 x3 x4 (r1_2.emb (ix2 p q))
    rw [pay2_apply]
    exact (blockSel_left x0 x1 x2 x3 x4 _ p q (by show 0 + 1 * p.val = p.val; omega)
      (by show 0 + 1 * q.val = q.val; omega)).symm

section Region1

variable (V : (c : Dev nD) → (b : Ref sig .tc) → Buf (Elt Ideal) ((c : Thread nD τ).loc b))

/-- The printed index maps over the 32 points: every table's block is the whole table, and the index block and the
    output block of point t are block t along the rows. -/
theorem index1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Each table's block at any point is the table as the region finds it. -/
theorem table1_0 (c : Dev nD) (t : Fin cfg1.N) : (iblk1 (F := Ideal) V c 0 t : Vec Ideal S640x512 .bf16) = V c main_v94 := by
  obtain ⟨e0, e1, -⟩ := index1 t
  funext x
  show V c main_v94 (((cfg1.win 0).blk t).view.emb x) = V c main_v94 x
  congr 1
  funext a; apply Fin.ext
  match a with
  | ⟨0, _⟩ => show win1_0.index t (0 : Fin 2) * 640 + 1 * (x 0).val = (x 0).val; omega
  | ⟨1, _⟩ => show win1_0.index t (1 : Fin 2) * 512 + 1 * (x 1).val = (x 1).val; omega

theorem table1_1 (c : Dev nD) (t : Fin cfg1.N) : (iblk1 (F := Ideal) V c 1 t : Vec Ideal S640x512 .bf16) = V c main_v97 := by
  obtain ⟨-, -, e0, e1, -⟩ := index1 t
  funext x
  show V c main_v97 (((cfg1.win 1).blk t).view.emb x) = V c main_v97 x
  congr 1
  funext a; apply Fin.ext
  match a with
  | ⟨0, _⟩ => show win1_1.index t (0 : Fin 2) * 640 + 1 * (x 0).val = (x 0).val; omega
  | ⟨1, _⟩ => show win1_1.index t (1 : Fin 2) * 512 + 1 * (x 1).val = (x 1).val; omega

theorem table1_2 (c : Dev nD) (t : Fin cfg1.N) : (iblk1 (F := Ideal) V c 2 t : Vec Ideal S640x512 .bf16) = V c main_v98 := by
  obtain ⟨-, -, -, -, e0, e1, -⟩ := index1 t
  funext x
  show V c main_v98 (((cfg1.win 2).blk t).view.emb x) = V c main_v98 x
  congr 1
  funext a; apply Fin.ext
  match a with
  | ⟨0, _⟩ => show win1_2.index t (0 : Fin 2) * 640 + 1 * (x 0).val = (x 0).val; omega
  | ⟨1, _⟩ => show win1_2.index t (1 : Fin 2) * 512 + 1 * (x 1).val = (x 1).val; omega

theorem table1_3 (c : Dev nD) (t : Fin cfg1.N) : (iblk1 (F := Ideal) V c 3 t : Vec Ideal S640x512 .bf16) = V c main_v101 := by
  obtain ⟨-, -, -, -, -, -, e0, e1, -⟩ := index1 t
  funext x
  show V c main_v101 (((cfg1.win 3).blk t).view.emb x) = V c main_v101 x
  congr 1
  funext a; apply Fin.ext
  match a with
  | ⟨0, _⟩ => show win1_3.index t (0 : Fin 2) * 640 + 1 * (x 0).val = (x 0).val; omega
  | ⟨1, _⟩ => show win1_3.index t (1 : Fin 2) * 512 + 1 * (x 1).val = (x 1).val; omega

/-- The index block at point t is rows 1024 t .. 1024 t + 1023 of the index array. -/
theorem indexBlock1 (c : Dev nD) (t : Fin cfg1.N) (p : Fin 1024) (e : Fin 2) (r : Fin 32768) (hr : r.val = 1024 * t.val + p.val) :
    (iblk1 (F := Ideal) V c 4 t : Vec Ideal S1024x2 .i32) (ix2 p e) = (V c main_v89 : IVec S32768x2 32) (ix2 r e) := by
  obtain ⟨-, -, -, -, -, -, -, -, e0, e1, -⟩ := index1 t
  show V c main_v89 (((cfg1.win 4).blk t).view.emb (ix2 p e)) = V c main_v89 (ix2 r e)
  congr 1
  funext a; apply Fin.ext
  match a with
  | ⟨0, _⟩ => show win1_4.index t (0 : Fin 2) * 1024 + 1 * p.val = r.val; omega
  | ⟨1, _⟩ => show win1_4.index t (1 : Fin 2) * 2 + 1 * e.val = e.val; omega

/-- What point t writes back is block t of the whole lookup of the arrays as the region finds them. -/
theorem flushed1 (c : Dev nD) (t : Fin cfg1.N) :
    (dat1 (F := Ideal) V c).flushed 5 t = ((cfg1.win 5).blk t).view.read (Elt Ideal)
      (Cert.Embed.lookup2 (V c main_v94) (V c main_v97) (V c main_v98) (V c main_v101) (V c main_v89)) := by
  show (cfg1.win 5).cut (grid1.coords t) ((dat1 V c).after 5 t) = _
  rw [after1_5, out1_eq, table1_0, table1_1, table1_2, table1_3]
  obtain ⟨-, -, -, -, -, -, -, -, -, -, e0, e1⟩ := index1 t
  have hN : cfg1.N = 32 := N_1
  have ht := t.isLt
  funext j
  show blockSel (V c main_v94) (V c main_v97) (V c main_v98) (V c main_v101) (iblk1 V c 4 t) j
    = Cert.Embed.lookup2 (V c main_v94) (V c main_v97) (V c main_v98) (V c main_v101) (V c main_v89)
        (((cfg1.win 5).blk t).view.emb j)
  have hj0 : (j 0).val < 1024 := (j 0).isLt
  have hj1 : (j 1).val < 1024 := (j 1).isLt
  have hi0 : ((((cfg1.win 5).blk t).view.emb j) 0).val = 1024 * t.val + (j 0).val := by
    show win1_5.index t (0 : Fin 2) * 1024 + 1 * (j 0).val = _; omega
  have hi1 : ((((cfg1.win 5).blk t).view.emb j) 1).val = (j 1).val := by
    show win1_5.index t (1 : Fin 2) * 1024 + 1 * (j 1).val = _; omega
  by_cases hlt : (j 1).val < 512
  · rw [blockSel_left _ _ _ _ _ j ⟨(j 0).val, hj0⟩ ⟨(j 1).val, hlt⟩ rfl rfl,
      lookup2_left _ _ _ _ _ _ ⟨1024 * t.val + (j 0).val, by omega⟩ ⟨(j 1).val, hlt⟩ hi0 hi1,
      indexBlock1 V c t ⟨(j 0).val, hj0⟩ 0 ⟨1024 * t.val + (j 0).val, by omega⟩ rfl]
  · rw [blockSel_right _ _ _ _ _ j ⟨(j 0).val, hj0⟩ ⟨(j 1).val - 512, by omega⟩ rfl (by show (j 1).val = 512 + ((j 1).val - 512); omega),
      lookup2_right _ _ _ _ _ _ ⟨1024 * t.val + (j 0).val, by omega⟩ ⟨(j 1).val - 512, by omega⟩ hi0
        (by rw [hi1]; show (j 1).val = 512 + ((j 1).val - 512); omega),
      indexBlock1 V c t ⟨(j 0).val, hj0⟩ 1 ⟨1024 * t.val + (j 0).val, by omega⟩ rfl]

/-- An index of the output array is in point t's block iff each coordinate is in the block's range on its axis. -/
theorem mem_block1 (t : Fin cfg1.N) (i : S32768x1024.Idx) :
    i ∈ ((cfg1.win 5).blk t).view.set ↔ ∀ a : Fin 2, win1_5.index t a * S1024x1024.size a ≤ (i a).val
      ∧ (i a).val < win1_5.index t a * S1024x1024.size a + S1024x1024.size a := by
  show i ∈ ((View.whole main_v104).slice (win1_5.rect t)).set ↔ _
  rw [View.set_slice_whole, Rect.mem_set_unit]
  exact Iff.rfl

/-- Row r of the output array is in the block of point r / 1024. -/
theorem cover1 (i : S32768x1024.Idx) :
    ∃ t : Fin cfg1.N, (cfg1.win 5).flush t = true ∧ i ∈ ((cfg1.win 5).blk t).view.set := by
  have hN : cfg1.N = 32 := N_1
  have hi0 : (i 0).val < 32768 := (i 0).isLt
  have hi1 : (i 1).val < 1024 := (i 1).isLt
  have hlt : (i 0).val / 1024 < cfg1.N := by omega
  obtain ⟨-, -, -, -, -, -, -, -, -, -, e0, e1⟩ := index1 ⟨(i 0).val / 1024, hlt⟩
  refine ⟨⟨(i 0).val / 1024, hlt⟩, flush1_5 _, ?_⟩
  rw [mem_block1]
  intro a
  match a with
  | ⟨0, _⟩ =>
    show win1_5.index ⟨(i 0).val / 1024, hlt⟩ (0 : Fin 2) * 1024 ≤ (i 0).val
      ∧ (i 0).val < win1_5.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win1_5.index ⟨(i 0).val / 1024, hlt⟩ (1 : Fin 2) * 1024 ≤ (i 1).val
      ∧ (i 1).val < win1_5.index ⟨(i 0).val / 1024, hlt⟩ (1 : Fin 2) * 1024 + 1024
    rw [e1]; omega

/-- THE OUTPUT ARRAY OF REGION 1 after its 32 points is the whole lookup of the four tables and the index array as the
    region finds them. -/
theorem arrAt1 (c : Dev nD) : (dat1 (F := Ideal) V c).arrAt 5 cfg1.N
    = Cert.Embed.lookup2 (V c main_v94) (V c main_v97) (V c main_v98) (V c main_v101) (V c main_v89) :=
  (dat1 (F := Ideal) V c).arrAt_eq_of_cover 5 _ (fun t _ => flushed1 V c t) cover1

end Region1

/-! ## Region 1: the output array of lookup call 1, concluded -/

end Cert.KernelIdeal.RegionValue

end
-- ==== Proof.RegionValue2.lean ====
/-
  The value of a kernel region at the ideal instance: lookup call 2.

  The argument is lookup call 0's with call 2's grid, windows, index array and output array in place of call 0's: the
  three calls run the same body over the same four tables, each on its own array of index pairs.
-/
import proofs.«401964_j4724464025663_2_alg».proof.Proof.RegionValue0

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## Region 2: the output array of lookup call 2 -/

/-- The body's two stores tile the output block with the two payloads, each over the whole input blocks: the block is
    blockSel of them. (Lookup call 2's payloads are those of the first of the three calls, operation for
    operation, so they are read at an index by the same two lemmas.) -/
theorem out2_eq (x0 x1 x2 x3 : Vec Ideal S640x512 .bf16) (x4 : Vec Ideal S1024x2 .i32) :
    out2_5 (F := Ideal) x0 x1 x2 x3 x4 = blockSel x0 x1 x2 x3 x4 := by
  funext y
  unfold out2_5
  simp only [View.ld_unit_zero (S := S1024x2) zero_off, View.ld_unit_zero (S := S640x512) zero_off]
  refine View.canon_apply_of_pieces (Val := Elt Ideal) (e := .f32) (blockSel x0 x1 x2 x3 x4) _ ?_ y (cover2_5 _ _ y)
  intro pc hpc x
  simp only [List.mem_cons, List.mem_singleton, List.not_mem_nil, or_false] at hpc
  rcases hpc with rfl | rfl
  · obtain ⟨p, q, rfl⟩ : ∃ (p : Fin 1024) (q : Fin 512), x = ix2 p q := ⟨x 0, x 1, eq_ix2 x⟩
    show k0_pay3 (F := Ideal) x4 x2 x3 (ix2 p q) = blockSel x0 x1 x2 x3 x4 (r2_3.emb (ix2 p q))
    rw [pay3_apply]
    exact (blockSel_right x0 x1 x2 x3 x4 _ p q (by show 0 + 1 * p.val = p.val; omega)
      (by show 512 + 1 * q.val = 512 + q.val; omega)).symm
  · obtain ⟨p, q, rfl⟩ : ∃ (p : Fin 1024) (q : Fin 512), x = ix2 p q := ⟨x 0, x 1, eq_ix2 x⟩
    show k0_pay2 (F := Ideal) x4 x0 x1 (ix2 p q) = blockSel x0 x1 x2 x3 x4 (r2_2.emb (ix2 p q))
    rw [pay2_apply]
    exact (blockSel_left x0 x1 x2 x3 x4 _ p q (by show 0 + 1 * p.val = p.val; omega)
      (by show 0 + 1 * q.val = q.val; omega)).symm

section Region2

variable (V : (c : Dev nD) → (b : Ref sig .tc) → Buf (Elt Ideal) ((c : Thread nD τ).loc b))

/-- The printed index maps over the 32 points: every table's block is the whole table, and the index block and the
    output block of point t are block t along the rows. -/
theorem index2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Each table's block at any point is the table as the region finds it. -/
theorem table2_0 (c : Dev nD) (t : Fin cfg2.N) : (iblk2 (F := Ideal) V c 0 t : Vec Ideal S640x512 .bf16) = V c main_v94 := by
  obtain ⟨e0, e1, -⟩ := index2 t
  funext x
  show V c main_v94 (((cfg2.win 0).blk t).view.emb x) = V c main_v94 x
  congr 1
  funext a; apply Fin.ext
  match a with
  | ⟨0, _⟩ => show win2_0.index t (0 : Fin 2) * 640 + 1 * (x 0).val = (x 0).val; omega
  | ⟨1, _⟩ => show win2_0.index t (1 : Fin 2) * 512 + 1 * (x 1).val = (x 1).val; omega

theorem table2_1 (c : Dev nD) (t : Fin cfg2.N) : (iblk2 (F := Ideal) V c 1 t : Vec Ideal S640x512 .bf16) = V c main_v97 := by
  obtain ⟨-, -, e0, e1, -⟩ := index2 t
  funext x
  show V c main_v97 (((cfg2.win 1).blk t).view.emb x) = V c main_v97 x
  congr 1
  funext a; apply Fin.ext
  match a with
  | ⟨0, _⟩ => show win2_1.index t (0 : Fin 2) * 640 + 1 * (x 0).val = (x 0).val; omega
  | ⟨1, _⟩ => show win2_1.index t (1 : Fin 2) * 512 + 1 * (x 1).val = (x 1).val; omega

theorem table2_2 (c : Dev nD) (t : Fin cfg2.N) : (iblk2 (F := Ideal) V c 2 t : Vec Ideal S640x512 .bf16) = V c main_v98 := by
  obtain ⟨-, -, -, -, e0, e1, -⟩ := index2 t
  funext x
  show V c main_v98 (((cfg2.win 2).blk t).view.emb x) = V c main_v98 x
  congr 1
  funext a; apply Fin.ext
  match a with
  | ⟨0, _⟩ => show win2_2.index t (0 : Fin 2) * 640 + 1 * (x 0).val = (x 0).val; omega
  | ⟨1, _⟩ => show win2_2.index t (1 : Fin 2) * 512 + 1 * (x 1).val = (x 1).val; omega

theorem table2_3 (c : Dev nD) (t : Fin cfg2.N) : (iblk2 (F := Ideal) V c 3 t : Vec Ideal S640x512 .bf16) = V c main_v101 := by
  obtain ⟨-, -, -, -, -, -, e0, e1, -⟩ := index2 t
  funext x
  show V c main_v101 (((cfg2.win 3).blk t).view.emb x) = V c main_v101 x
  congr 1
  funext a; apply Fin.ext
  match a with
  | ⟨0, _⟩ => show win2_3.index t (0 : Fin 2) * 640 + 1 * (x 0).val = (x 0).val; omega
  | ⟨1, _⟩ => show win2_3.index t (1 : Fin 2) * 512 + 1 * (x 1).val = (x 1).val; omega

/-- The index block at point t is rows 1024 t .. 1024 t + 1023 of the index array. -/
theorem indexBlock2 (c : Dev nD) (t : Fin cfg2.N) (p : Fin 1024) (e : Fin 2) (r : Fin 32768) (hr : r.val = 1024 * t.val + p.val) :
    (iblk2 (F := Ideal) V c 4 t : Vec Ideal S1024x2 .i32) (ix2 p e) = (V c main_v91 : IVec S32768x2 32) (ix2 r e) := by
  obtain ⟨-, -, -, -, -, -, -, -, e0, e1, -⟩ := index2 t
  show V c main_v91 (((cfg2.win 4).blk t).view.emb (ix2 p e)) = V c main_v91 (ix2 r e)
  congr 1
  funext a; apply Fin.ext
  match a with
  | ⟨0, _⟩ => show win2_4.index t (0 : Fin 2) * 1024 + 1 * p.val = r.val; omega
  | ⟨1, _⟩ => show win2_4.index t (1 : Fin 2) * 2 + 1 * e.val = e.val; omega

/-- What point t writes back is block t of the whole lookup of the arrays as the region finds them. -/
theorem flushed2 (c : Dev nD) (t : Fin cfg2.N) :
    (dat2 (F := Ideal) V c).flushed 5 t = ((cfg2.win 5).blk t).view.read (Elt Ideal)
      (Cert.Embed.lookup2 (V c main_v94) (V c main_v97) (V c main_v98) (V c main_v101) (V c main_v91)) := by
  show (cfg2.win 5).cut (grid2.coords t) ((dat2 V c).after 5 t) = _
  rw [after2_5, out2_eq, table2_0, table2_1, table2_2, table2_3]
  obtain ⟨-, -, -, -, -, -, -, -, -, -, e0, e1⟩ := index2 t
  have hN : cfg2.N = 32 := N_2
  have ht := t.isLt
  funext j
  show blockSel (V c main_v94) (V c main_v97) (V c main_v98) (V c main_v101) (iblk2 V c 4 t) j
    = Cert.Embed.lookup2 (V c main_v94) (V c main_v97) (V c main_v98) (V c main_v101) (V c main_v91)
        (((cfg2.win 5).blk t).view.emb j)
  have hj0 : (j 0).val < 1024 := (j 0).isLt
  have hj1 : (j 1).val < 1024 := (j 1).isLt
  have hi0 : ((((cfg2.win 5).blk t).view.emb j) 0).val = 1024 * t.val + (j 0).val := by
    show win2_5.index t (0 : Fin 2) * 1024 + 1 * (j 0).val = _; omega
  have hi1 : ((((cfg2.win 5).blk t).view.emb j) 1).val = (j 1).val := by
    show win2_5.index t (1 : Fin 2) * 1024 + 1 * (j 1).val = _; omega
  by_cases hlt : (j 1).val < 512
  · rw [blockSel_left _ _ _ _ _ j ⟨(j 0).val, hj0⟩ ⟨(j 1).val, hlt⟩ rfl rfl,
      lookup2_left _ _ _ _ _ _ ⟨1024 * t.val + (j 0).val, by omega⟩ ⟨(j 1).val, hlt⟩ hi0 hi1,
      indexBlock2 V c t ⟨(j 0).val, hj0⟩ 0 ⟨1024 * t.val + (j 0).val, by omega⟩ rfl]
  · rw [blockSel_right _ _ _ _ _ j ⟨(j 0).val, hj0⟩ ⟨(j 1).val - 512, by omega⟩ rfl (by show (j 1).val = 512 + ((j 1).val - 512); omega),
      lookup2_right _ _ _ _ _ _ ⟨1024 * t.val + (j 0).val, by omega⟩ ⟨(j 1).val - 512, by omega⟩ hi0
        (by rw [hi1]; show (j 1).val = 512 + ((j 1).val - 512); omega),
      indexBlock2 V c t ⟨(j 0).val, hj0⟩ 1 ⟨1024 * t.val + (j 0).val, by omega⟩ rfl]

/-- An index of the output array is in point t's block iff each coordinate is in the block's range on its axis. -/
theorem mem_block2 (t : Fin cfg2.N) (i : S32768x1024.Idx) :
    i ∈ ((cfg2.win 5).blk t).view.set ↔ ∀ a : Fin 2, win2_5.index t a * S1024x1024.size a ≤ (i a).val
      ∧ (i a).val < win2_5.index t a * S1024x1024.size a + S1024x1024.size a := by
  show i ∈ ((View.whole main_v106).slice (win2_5.rect t)).set ↔ _
  rw [View.set_slice_whole, Rect.mem_set_unit]
  exact Iff.rfl

/-- Row r of the output array is in the block of point r / 1024. -/
theorem cover2 (i : S32768x1024.Idx) :
    ∃ t : Fin cfg2.N, (cfg2.win 5).flush t = true ∧ i ∈ ((cfg2.win 5).blk t).view.set := by
  have hN : cfg2.N = 32 := N_2
  have hi0 : (i 0).val < 32768 := (i 0).isLt
  have hi1 : (i 1).val < 1024 := (i 1).isLt
  have hlt : (i 0).val / 1024 < cfg2.N := by omega
  obtain ⟨-, -, -, -, -, -, -, -, -, -, e0, e1⟩ := index2 ⟨(i 0).val / 1024, hlt⟩
  refine ⟨⟨(i 0).val / 1024, hlt⟩, flush2_5 _, ?_⟩
  rw [mem_block2]
  intro a
  match a with
  | ⟨0, _⟩ =>
    show win2_5.index ⟨(i 0).val / 1024, hlt⟩ (0 : Fin 2) * 1024 ≤ (i 0).val
      ∧ (i 0).val < win2_5.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win2_5.index ⟨(i 0).val / 1024, hlt⟩ (1 : Fin 2) * 1024 ≤ (i 1).val
      ∧ (i 1).val < win2_5.index ⟨(i 0).val / 1024, hlt⟩ (1 : Fin 2) * 1024 + 1024
    rw [e1]; omega

/-- THE OUTPUT ARRAY OF REGION 2 after its 32 points is the whole lookup of the four tables and the index array as the
    region finds them. -/
theorem arrAt2 (c : Dev nD) : (dat2 (F := Ideal) V c).arrAt 5 cfg2.N
    = Cert.Embed.lookup2 (V c main_v94) (V c main_v97) (V c main_v98) (V c main_v101) (V c main_v91) :=
  (dat2 (F := Ideal) V c).arrAt_eq_of_cover 5 _ (fun t _ => flushed2 V c t) cover2

end Region2

/-! ## Region 2: the output array of lookup call 2, concluded -/

end Cert.KernelIdeal.RegionValue

end
-- ==== Proof.RegionValue.lean ====
/-
  The value of each kernel region at the ideal instance: after its 32 grid points, each of the three lookup calls'
  output arrays is the whole lookup (Cert.Embed.lookup2) of the four tables and the call's own array of index pairs, as
  the region finds them. One module per call; the lemmas the three calls share (a matrix product into the zero
  accumulator read at an index, the one-hot entry, the payloads at an index, one output block as a function of its
  index) are in the first call's module.
-/
import proofs.«401964_j4724464025663_2_alg».proof.Proof.RegionValue0
import proofs.«401964_j4724464025663_2_alg».proof.Proof.RegionValue1
import proofs.«401964_j4724464025663_2_alg».proof.Proof.RegionValue2
-- ==== Proof.TableMath.lean ====
/-
  The arithmetic of the table lookup, apart from any program.

  * A one-hot sum over the 640 rows of a padded table picks the row the index word names (`sum_coef_mul`).
  * When the leading part of a finite table is the table itself and the residual part is the table minus itself, the
    two-pass lookup returns the table's entry (`rowSel_hi_lo`): the residual sum is the single term `r - r = 0`.
  * On index words in the table's range `0 .. 512` the lower clamp, the upper clamp and the wrap of negative indices
    are the identity, first on words and then lane by lane on vectors of any shape.
  * A word in that range survives the round trip through the extended reals, and the zero word of the 32-bit float
    format converts back to the zero integer.
  * The zero-padded table reads the table on a real row and the pad value on a padding row.
-/
import proofs.«401964_j4724464025663_2_alg».proof.Proof.Spec
import Idealize.ShloMosaic.PureOps.Ideal
import Idealize.ShloMosaic.Lib.ValueIdx
import Mathlib.Algebra.BigOperators.Group.Finset.Basic
import Mathlib.Data.EReal.Basic
import Mathlib.Algebra.Order.Floor.Ring

noncomputable section

open scoped BigOperators

namespace Cert.Embed

open Idealize.ShloMosaic Idealize.ShloMosaic.ValueIdx

/-! ## The one-hot sum -/

/-- A 32-bit word is the word of its own unsigned value. -/
theorem ofNat_toNat_self (x : BitVec 32) : BitVec.ofNat 32 x.toNat = x :=
  BitVec.eq_of_toNat_eq (by rw [BitVec.toNat_ofNat]; exact Nat.mod_eq_of_lt x.isLt)

/-- The coefficient of the row the word names is 1. -/
theorem coef_self (x : BitVec 32) (hx : x.toNat < 640) : coef x ⟨x.toNat, hx⟩ = 1 := by
  unfold coef
  rw [if_pos (ofNat_toNat_self x).symm]

/-- The coefficient of every other row is 0: two rows below 640 with the same 32-bit word are the same row. -/
theorem coef_ne (x : BitVec 32) (hx : x.toNat < 640) (k : Fin 640) (hk : k ≠ ⟨x.toNat, hx⟩) : coef x k = 0 := by
  unfold coef
  rw [if_neg]
  intro h
  apply hk
  apply Fin.ext
  have h2 := congrArg BitVec.toNat h
  rw [BitVec.toNat_ofNat] at h2
  have hk2 := k.isLt
  show k.val = x.toNat
  omega

/-- the one-hot sum picks the named row -/
theorem sum_coef_mul (x : BitVec 32) (hx : x.toNat < 640) (f : Fin 640 → EReal) :
    (∑ k : Fin 640, coef x k * f k) = f ⟨x.toNat, hx⟩ := by
  rw [Finset.sum_eq_single (⟨x.toNat, hx⟩ : Fin 640)]
  · rw [coef_self x hx, one_mul]
  · intro k _ hk
    rw [coef_ne x hx k hk, zero_mul]
  · intro h
    exact absurd (Finset.mem_univ _) h

/-! ## The two-pass lookup -/

/-- with the leading part the (finite) table itself and the residual part the table minus itself, the two-pass lookup
    is the table's entry -/
theorem rowSel_hi_lo (P : FVec Ideal T640 .f32) (hfin : ∀ i, ∃ r : ℝ, P i = (r : EReal))
    (hb : FTy.bits .bf16 < FTy.bits .f32) (x : BitVec 32) (hx : x.toNat < 640) (q : Fin 512) :
    rowSel (truncf .bf16 P hb) (truncf .bf16 (subf P (extf .f32 (truncf .bf16 P hb) hb)) hb) x q
      = P (ix2 ⟨x.toNat, hx⟩ q) := by
  unfold rowSel
  rw [sum_coef_mul x hx (fun k => (truncf .bf16 P hb : FVec Ideal T640 .bf16) (ix2 k q)),
    sum_coef_mul x hx (fun k =>
      (truncf .bf16 (subf P (extf .f32 (truncf .bf16 P hb) hb)) hb : FVec Ideal T640 .bf16) (ix2 k q))]
  simp only [truncf_apply, extf_apply, subf_apply]
  obtain ⟨r, hr⟩ := hfin (ix2 ⟨x.toNat, hx⟩ q)
  rw [hr, ← EReal.coe_sub, sub_self, EReal.coe_zero, add_zero]

/-! ## Index words in the table's range -/

/-- A word that is not negative is not signed-below zero. -/
theorem slt_zero_eq_false (x : BitVec 32) (h0 : 0 ≤ x.toInt) : x.slt 0#32 = false := by
  rw [Bool.eq_false_iff]
  intro h
  rw [BitVec.slt_iff_toInt_lt] at h
  have hz : (0#32 : BitVec 32).toInt = 0 := by decide
  omega

/-- 512 is not signed-below a word that is at most 512. -/
theorem slt_512_eq_false (x : BitVec 32) (h1 : x.toInt ≤ 512) : (512#32 : BitVec 32).slt x = false := by
  rw [Bool.eq_false_iff]
  intro h
  rw [BitVec.slt_iff_toInt_lt] at h
  have hz : (512#32 : BitVec 32).toInt = 512 := by decide
  omega

/-- words in the table's range: the lower clamp and the upper clamp leave them alone -/
theorem clip_id (x : BitVec 32) (h0 : 0 ≤ x.toInt) (h1 : x.toInt ≤ 512) :
    IntOp.minsi 512#32 (IntOp.maxsi 0#32 x) = x := by
  unfold IntOp.minsi IntOp.maxsi
  rw [slt_zero_eq_false x h0]
  simp only [Bool.false_eq_true, if_false]
  rw [slt_512_eq_false x h1]
  simp only [Bool.false_eq_true, if_false]

/-- words in the table's range: the wrap of negative indices leaves them alone -/
theorem wrap_id (x : BitVec 32) (h0 : 0 ≤ x.toInt) :
    Scalar.select (IntOp.cmpi .slt x 0#32) (IntOp.addi x 513#32) x = x := by
  unfold IntOp.cmpi
  simp only
  rw [slt_zero_eq_false x h0]
  exact select_zero _ _

/-- A word in the table's range has the same value read unsigned, and that value is at most 512. -/
theorem toNat_of_range (x : BitVec 32) (h0 : 0 ≤ x.toInt) (h1 : x.toInt ≤ 512) :
    x.toNat ≤ 512 ∧ (x.toNat : ℤ) = x.toInt := by
  have hlt := x.isLt
  rw [BitVec.toInt_eq_toNat_cond] at h0 h1 ⊢
  split at h0 <;> omega

/-! ### The same, lane by lane on vectors of any shape -/

/-- the two clamps at a lane whose word is in the table's range: the upper clamp of the lower clamp of `x` reads `x` -/
theorem minsi_maxsi_apply {s : Shape} (lo hi x : IVec s 32) (i : s.Idx) (hlo : lo i = 0#32) (hhi : hi i = 512#32)
    (h0 : 0 ≤ (x i).toInt) (h1 : (x i).toInt ≤ 512) : minsi hi (maxsi lo x) i = x i := by
  show IntOp.minsi (hi i) (IntOp.maxsi (lo i) (x i)) = x i
  rw [hlo, hhi]
  exact clip_id (x i) h0 h1

/-- the lower clamp alone at a lane whose word is not negative -/
theorem maxsi_apply_of_nonneg {s : Shape} (lo x : IVec s 32) (i : s.Idx) (hlo : lo i = 0#32)
    (h0 : 0 ≤ (x i).toInt) : maxsi lo x i = x i := by
  show IntOp.maxsi (lo i) (x i) = x i
  rw [hlo]
  unfold IntOp.maxsi
  rw [slt_zero_eq_false (x i) h0]
  simp only [Bool.false_eq_true, if_false]

/-- the wrap of negative indices at a lane whose word is not negative: selecting `x + 513` where `x < 0` and `x`
    elsewhere reads `x` -/
theorem select_wrap_apply {s : Shape} (z n x : IVec s 32) (i : s.Idx) (hz : z i = 0#32) (hn : n i = 513#32)
    (h0 : 0 ≤ (x i).toInt) : select (cmpi .slt x z) (addi x n) x i = x i := by
  show Scalar.select (IntOp.cmpi .slt (x i) (z i)) (IntOp.addi (x i) (n i)) (x i) = x i
  rw [hz, hn]
  exact wrap_id (x i) h0

/-! ## An integer word through the extended reals and back -/

/-- an integer word converted to a float and back is itself -/
theorem fptosi_sitofp (x : BitVec 32) (h0 : 0 ≤ x.toInt) (h1 : x.toInt ≤ 512) :
    FloatOps.fptosi (F := Ideal) 32 (FloatOps.sitofp (F := Ideal) .f32 x) = x := by
  show Ideal.fptosi 32 (((x.toInt : ℝ) : EReal)) = x
  unfold Ideal.fptosi
  rw [Ideal.toIntClamped_coe]
  have hr : (0 : ℝ) ≤ ((x.toInt : ℤ) : ℝ) := by exact_mod_cast h0
  rw [if_pos hr, Int.floor_intCast]
  have e : max (-((2 ^ (32 - 1) : ℕ) : ℤ)) (min (((2 ^ (32 - 1) : ℕ) : ℤ) - 1) x.toInt) = x.toInt := by
    norm_num
    omega
  rw [e]
  exact BitVec.ofInt_toInt

/-- zero converts to zero -/
theorem fptosi_zero :
    FloatOps.fptosi (F := Ideal) (φ := .f32) 32 (Ideal.ofBits .f32 0x00000000#32) = 0#32 := by
  have hz : Ideal.ofBits .f32 0x00000000#32 = ((0 : ℝ) : EReal) := by
    simp [Ideal.ofBits, Ideal.ieee]
  show Ideal.fptosi 32 (Ideal.ofBits .f32 0x00000000#32) = 0#32
  rw [hz]
  unfold Ideal.fptosi
  rw [Ideal.toIntClamped_coe]
  norm_num

/-! ## The zero-padded table -/

/-- the zero-padded table read at an index: a real row is the table's, a padding row is the pad value -/
theorem pad_rows (E : FVec Ideal T513 .f32) (z : FVec Ideal ⟨0, ![]⟩ .f32)
    (hp : T513.Pads ![0, 0] ![127, 0] ![0, 0] T640) (hz : 0 < (⟨0, ![]⟩ : Shape).numel) (k : Fin 640) (q : Fin 512) :
    pad T640 ![0, 0] ![127, 0] ![0, 0] E z hp hz (ix2 k q)
      = if h : k.val < 513 then E (ix2 ⟨k.val, h⟩ q) else z ix0 := by
  unfold pad
  by_cases h : k.val < 513
  · rw [dif_pos h, dif_pos]
    · congr 1
      funext a
      match a with
      | ⟨0, _⟩ => exact Fin.ext (by show (k.val - 0) / (0 + 1) = k.val; simp)
      | ⟨1, _⟩ => exact Fin.ext (by show (q.val - 0) / (0 + 1) = q.val; simp)
    · intro a
      match a with
      | ⟨0, _⟩ => exact ⟨Nat.zero_le _, Nat.mod_one _, by simpa using h⟩
      | ⟨1, _⟩ => exact ⟨Nat.zero_le _, Nat.mod_one _, by simpa using q.isLt⟩
  · rw [dif_neg h, dif_neg]
    · exact congrArg z (eq_ix0 _)
    · intro hall
      have := (hall ⟨0, by decide⟩).2.2
      apply h
      simpa using this

end Cert.Embed

end
-- ==== Proof.BridgeK.lean ====
/-
  The kernel side, entry by entry.

  * The lookup over the program's own host terms returns the target entry. The index pairs are clamped to the tables'
    row range, which leaves a word already inside the range alone. Each table is zero-padded to 640 rows and split into
    a leading part (the padded table itself, at extended reals) and a residual part (the padded table minus itself);
    the padded table is finite, a real row being the table's and a padding row the integer 0 converted, so the
    two-pass one-hot sum is the padded table's entry at the named row, and a row below 513 of the padded table is the
    table's row.
  * The index maps. A reshape reads the operand at the index with the same row-major position, so the flat row
    a·B + b of an [A·B, n] array is the pair (a, b) of the [A, B, n] one. A column of a rank-3 array, taken as a
    unit-width slice whose unit axis is dropped and put back, reads the array at that column; two such columns joined
    along the last axis give the pair (column 0, column 1).
-/
import proofs.«401964_j4724464025663_2_alg».proof.Proof.HostK
import proofs.«401964_j4724464025663_2_alg».proof.Proof.Spec
import proofs.«401964_j4724464025663_2_alg».proof.Proof.TableMath
import Idealize.ShloMosaic.Lib.ValueIdx
import Idealize.ShloMosaic.Lib.Pipeline.Value
import Idealize.ShloMosaic.Lib.ValueLayout

noncomputable section

namespace Cert.KernelIdeal.BridgeK

open Cert.KernelIdeal Cert.KernelIdeal.Gen Cert.KernelIdeal.Host Cert.Embed
open Idealize.ShloMosaic Idealize.ShloMosaic.ValueIdx

/-! ## The final reshapes -/

/-- the final reshapes: entry (a, b, d) of the [A, B, 1024] result is entry (a·B + b, d) of the flat one -/
theorem reshape_src (M : FVec Ideal S32768x1024 .f32) (b : Fin 64) (t : Fin 512) (d : Fin 1024) :
    shapeCast S64x512x1024 M shapeCasts_S32768x1024_S64x512x1024 (ix3 b t d)
      = M (ix2 (⟨b.val * 512 + t.val, by have := b.isLt; have := t.isLt; omega⟩ : Fin 32768) d) := by
  refine shapeCast_apply M _ _ _ ?_
  rw [Shape.rowMajor_val_two, Shape.rowMajor_val_three]
  show (b.val * 512 + t.val) * 1024 + d.val = (b.val * 512 + t.val) * 1024 + d.val
  rfl

/-- the same for the [512, 64, 1024] results: entry (a, b, d) is entry (a·64 + b, d) of the flat one -/
theorem reshape_pre (M : FVec Ideal S32768x1024 .f32) (a : Fin 512) (b : Fin 64) (d : Fin 1024) :
    shapeCast S512x64x1024 M shapeCasts_S32768x1024_S512x64x1024 (ix3 a b d)
      = M (ix2 (⟨a.val * 64 + b.val, by have := a.isLt; have := b.isLt; omega⟩ : Fin 32768) d) := by
  refine shapeCast_apply M _ _ _ ?_
  rw [Shape.rowMajor_val_two, Shape.rowMajor_val_three]
  show (a.val * 64 + b.val) * 1024 + d.val = (a.val * 64 + b.val) * 1024 + d.val
  rfl

/-! ## One column of a rank-3 array -/

section Cols
variable {α : Type}

/-- one column of an [n0, n1, 3] array the way the programs take it — the unit-width slice at column `c`, its unit
    axis dropped and then put back — reads the array at column `c` -/
theorem col_apply {n0 n1 : Nat} (c : Nat) (hc : c < 3) (g : (⟨3, ![n0, n1, 3]⟩ : Shape).Idx → α)
    (hs : (⟨3, ![n0, n1, 3]⟩ : Shape).Slices ![0, 0, c] ⟨3, ![n0, n1, 1]⟩)
    (hc1 : (⟨3, ![n0, n1, 1]⟩ : Shape).ShapeCasts ⟨2, ![n0, n1]⟩)
    (hb : (⟨2, ![n0, n1]⟩ : Shape).BroadcastsInDim ⟨3, ![n0, n1, 1]⟩ (![0, 1] : Fin 2 → Fin 3))
    (a : Fin n0) (b : Fin n1) (z : Fin 1) :
    broadcastInDim ⟨3, ![n0, n1, 1]⟩ ![0, 1] hb
        (shapeCast ⟨2, ![n0, n1]⟩ (extractStridedSlice ⟨3, ![n0, n1, 1]⟩ ![0, 0, c] g hs) hc1) (ix3 a b z)
      = g (ix3 a b ⟨c, hc⟩) := by
  have ha := a.isLt
  have hb' := b.isLt
  have hz := z.isLt
  refine (broadcastInDim_apply _ hb _ (ix3 a b z) (ix2 a b) ?_).trans ?_
  · intro e
    match e with
    | ⟨0, _⟩ =>
      show a.val = if n0 = 1 then 0 else a.val
      split <;> omega
    | ⟨1, _⟩ =>
      show b.val = if n1 = 1 then 0 else b.val
      split <;> omega
  refine (shapeCast_apply _ hc1 (ix2 a b) (ix3 a b z) ?_).trans ?_
  · rw [Shape.rowMajor_val_two, Shape.rowMajor_val_three]
    show (a.val * n1 + b.val) * 1 + z.val = a.val * n1 + b.val
    omega
  refine extractStridedSlice_apply _ g hs (ix3 a b z) (ix3 a b ⟨c, hc⟩) ?_
  intro e
  match e with
  | ⟨0, _⟩ => show a.val = 0 + a.val; omega
  | ⟨1, _⟩ => show b.val = 0 + b.val; omega
  | ⟨2, _⟩ => show c = c + z.val; omega

end Cols

/-! ## The flattened pair arrays -/

/-- the flattened pair array of an integer input reads the input at (r / 64, r % 64, j) -/
theorem pairsOfInts_apply (g : IVec S512x64x3 32) (a : Fin 512) (b : Fin 64) (j : Fin 2) :
    pairsOfInts g (ix2 (⟨a.val * 64 + b.val, by have := a.isLt; have := b.isLt; omega⟩ : Fin 32768) j)
      = g (ix3 a b ⟨j.val, by have := j.isLt; omega⟩) := by
  unfold pairsOfInts
  refine (shapeCast_apply _ shapeCasts_S512x64x2_S32768x2 _ (ix3 a b j) ?_).trans ?_
  · rw [Shape.rowMajor_val_two, Shape.rowMajor_val_three]
    show (a.val * 64 + b.val) * 2 + j.val = (a.val * 64 + b.val) * 2 + j.val
    rfl
  match j with
  | ⟨0, _⟩ =>
    refine (concatenate_pair_apply_left (s₁ := S512x64x1) (s₂ := S512x64x1) _ _ _ _ (ix3 a b (0 : Fin 2)) rfl (ix3 a b (0 : Fin 1)) ?_).trans ?_
    · intro e
      match e with
      | ⟨0, _⟩ => rfl
      | ⟨1, _⟩ => rfl
      | ⟨2, _⟩ => rfl
    exact col_apply 0 (by omega) g _ _ _ a b 0
  | ⟨1, _⟩ =>
    refine (concatenate_pair_apply_right (s₁ := S512x64x1) (s₂ := S512x64x1) _ _ _ _ (ix3 a b (1 : Fin 2)) rfl rfl (ix3 a b (0 : Fin 1)) ?_ ?_).trans ?_
    · intro e he
      match e with
      | ⟨0, _⟩ => rfl
      | ⟨1, _⟩ => rfl
      | ⟨2, _⟩ => exact absurd rfl he
    · rfl
    exact col_apply 1 (by omega) g _ _ _ a b 0

/-- the flattened pair array of the float grid reads the grid at (r / 512, r % 512, j), converted -/
theorem pairsOfGrid_apply (g : FVec Ideal S64x512x3 .f32) (b : Fin 64) (t : Fin 512) (j : Fin 2) :
    pairsOfGrid g (ix2 (⟨b.val * 512 + t.val, by have := b.isLt; have := t.isLt; omega⟩ : Fin 32768) j)
      = FloatOps.fptosi (F := Ideal) 32 (g (ix3 b t ⟨j.val, by have := j.isLt; omega⟩)) := by
  unfold pairsOfGrid
  refine (shapeCast_apply _ shapeCasts_S64x512x2_S32768x2 _ (ix3 b t j) ?_).trans ?_
  · rw [Shape.rowMajor_val_two, Shape.rowMajor_val_three]
    show (b.val * 512 + t.val) * 2 + j.val = (b.val * 512 + t.val) * 2 + j.val
    rfl
  -- the conversion is entry by entry
  refine congrArg (FloatOps.fptosi (F := Ideal) 32) ?_
  match j with
  | ⟨0, _⟩ =>
    refine (concatenate_pair_apply_left (s₁ := S64x512x1) (s₂ := S64x512x1) _ _ _ _ (ix3 b t (0 : Fin 2)) rfl
      (ix3 b t (0 : Fin 1)) ?_).trans ?_
    · intro e
      match e with
      | ⟨0, _⟩ => rfl
      | ⟨1, _⟩ => rfl
      | ⟨2, _⟩ => rfl
    exact col_apply 0 (by omega) g _ _ _ b t 0
  | ⟨1, _⟩ =>
    refine (concatenate_pair_apply_right (s₁ := S64x512x1) (s₂ := S64x512x1) _ _ _ _ (ix3 b t (1 : Fin 2)) rfl rfl
      (ix3 b t (0 : Fin 1)) ?_ ?_).trans ?_
    · intro e he
      match e with
      | ⟨0, _⟩ => rfl
      | ⟨1, _⟩ => rfl
      | ⟨2, _⟩ => exact absurd rfl he
    · rfl
    exact col_apply 1 (by omega) g _ _ _ b t 0

/-! ## The lookup over the program's tables -/

/-- the zero-padded table is finite wherever the table is: a real row is the table's, a padding row is the integer 0
    converted -/
theorem padT_finite (E : FVec Ideal S513x512 .f32) (h : ∀ i, ∃ x : ℝ, E i = (x : EReal)) :
    ∀ i, ∃ x : ℝ, padT E i = (x : EReal) := by
  intro i
  obtain ⟨k, q, rfl⟩ : ∃ (k : Fin 640) (q : Fin 512), i = ix2 k q := ⟨i 0, i 1, eq_ix2 i⟩
  unfold padT
  rw [pad_rows]
  split
  · exact h _
  · exact ⟨(((0#32 : BitVec 32).toInt : ℤ) : ℝ), rfl⟩

/-- the padded table at the row an in-range index word names is the table's row -/
theorem padT_row (E : FVec Ideal S513x512 .f32) (x : BitVec 32) (hx : x.toNat ≤ 512) (q : Fin 512) :
    padT E (ix2 (⟨x.toNat, by omega⟩ : Fin 640) q) = E (ix2 (rowOf x) q) := by
  unfold padT
  rw [pad_rows]
  have h : x.toNat < 513 := by omega
  rw [dif_pos h]
  have e : (⟨x.toNat, h⟩ : Fin 513) = rowOf x := Fin.ext (by show x.toNat = min x.toNat 512; omega)
  rw [e]

/-- one two-pass lookup over the program's leading and residual parts, at an index word in the table's range, is the
    table's entry -/
theorem rowSel_table (E : FVec Ideal S513x512 .f32) (h : ∀ i, ∃ x : ℝ, E i = (x : EReal)) (x : BitVec 32)
    (h0 : 0 ≤ x.toInt) (h1 : x.toInt ≤ 512) (q : Fin 512) :
    rowSel (hiT E) (loT E) x q = E (ix2 (rowOf x) q) := by
  have hx := (toNat_of_range x h0 h1).1
  have hlt : x.toNat < 640 := by omega
  unfold loT hiT
  rw [rowSel_hi_lo (padT E) (padT_finite E h) bitsLt_bf16_f32 x hlt q]
  exact padT_row E x hx q

/-- with both index words of row r inside the table's range and the tables finite, the lookup over the program's
    padded / split tables and clipped indices is the target entry -/
theorem lookup2_table (E1 E2 : FVec Ideal S513x512 .f32) (h1 : ∀ i, ∃ x : ℝ, E1 i = (x : EReal))
    (h2 : ∀ i, ∃ x : ℝ, E2 i = (x : EReal)) (P : IVec S32768x2 32) (r : Fin 32768) (d : Fin 1024)
    (hx : 0 ≤ (P (ix2 r 0)).toInt ∧ (P (ix2 r 0)).toInt ≤ 512)
    (hy : 0 ≤ (P (ix2 r 1)).toInt ∧ (P (ix2 r 1)).toInt ≤ 512) :
    lookup2 (hiT E1) (loT E1) (hiT E2) (loT E2) (clip512 P) (ix2 r d) = tgt E1 E2 (P (ix2 r 0)) (P (ix2 r 1)) d := by
  have c0 : clip512 P (ix2 r 0) = P (ix2 r 0) := minsi_maxsi_apply _ _ P _ rfl rfl hx.1 hx.2
  have c1 : clip512 P (ix2 r 1) = P (ix2 r 1) := minsi_maxsi_apply _ _ P _ rfl rfl hy.1 hy.2
  unfold lookup2 tgt
  show (if h : d.val < 512 then rowSel (hiT E1) (loT E1) (clip512 P (ix2 r 0)) ⟨d.val, h⟩
      else rowSel (hiT E2) (loT E2) (clip512 P (ix2 r 1)) ⟨d.val - 512, by have := d.isLt; omega⟩) = _
  by_cases h : d.val < 512
  · rw [dif_pos h, dif_pos h, c0]
    exact rowSel_table E1 h1 _ hx.1 hx.2 _
  · rw [dif_neg h, dif_neg h, c1]
    exact rowSel_table E2 h2 _ hy.1 hy.2 _

end Cert.KernelIdeal.BridgeK

end
-- ==== Proof.SrcRange.lean ====
/-
  The scattered grid's x and y columns stay inside the tables' row range.

  Statement %43 of the program, a [64, 512, 3] array of floats, is

      reshape ( select ( mask, gather ( float ( reshape arg0 ), start indices ), 0.0 ) )

  where `arg0` is the [64, 256, 3] array of integer source points, flattened to [16384, 3] and converted to floats, the
  gather takes whole rows of it (slice sizes [1, 3], the row axis collapsed, the start index on the row axis only), and
  the select keeps the gathered row where the mask is set and puts the float zero elsewhere.

  A row gather keeps the column: whatever the start index is, the operand index of result entry (r, j) has j on its
  column axis (`gather_col`). Both reshapes keep the column too: [64, 256, 3] → [16384, 3] reads (r, j) at
  (r / 256, r % 256, j), and [32768, 3] → [64, 512, 3] reads (b, t, j) at (b * 512 + t, j). So every entry of %43 in
  column j is either the float of SOME entry of `arg0` in the same column j, or the float zero. Converted back to an
  integer, it is that entry of `arg0` (an integer word in 0 .. 512 survives the round trip through the extended reals), or
  the integer 0. Hence, when the x and y columns (j < 2) of `arg0` are in 0 .. 512, so are the x and y columns of %43.

  Neither the mask nor the start indices are looked into: the statement is proved for the flat grid over an ARBITRARY mask
  and ARBITRARY start indices (`flat_col_range`), and %43 is shown to be the reshape of such a flat grid for some mask
  and some start indices (`v43_form`). Only the last four stretches of the program's first part are evaluated; the six
  before them enter through one fact, that they write no argument, so the gathered source is the launch's `arg0`.
-/
import proofs.«401964_j4724464025663_2_alg».proof.Proof.PrefixK
import proofs.«401964_j4724464025663_2_alg».proof.Proof.TableMath
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.SrcRange

open Cert.KernelIdeal Cert.KernelIdeal.Gen Cert.KernelIdeal.Host
open Idealize.ShloMosaic Idealize.ShloMosaic.TcCoe Idealize.SL.Sem Idealize.ShloMosaic.StableHlo Idealize.ShloMosaic.ValueIdx

/-- A row gather keeps the column: the operand index of result entry `jj` has `jj`'s coordinate on axis 1, whatever
    the start indices are (axis 1 is not in the start index map, is no batching axis, and is the one kept axis). -/
theorem gather_col {w : Nat} (I : IVec S32768x1 w) (jj : S32768x3.Idx) :
    ((gather_S16384x3_S32768x1_S32768x3_1_0_n_n_0_1_13.operandIdx jj I) 1).val = (jj 1).val := by
  show gather_S16384x3_S32768x1_S32768x3_1_0_n_n_0_1_13.start jj I 1
      + gather_S16384x3_S32768x1_S32768x3_1_0_n_n_0_1_13.batchCoord jj 1
      + gather_S16384x3_S32768x1_S32768x3_1_0_n_n_0_1_13.offCoord jj 1 = _
  rw [GatherDims.batchCoord_eq_zero _ _ _ List.not_mem_nil]
  have hs : gather_S16384x3_S32768x1_S32768x3_1_0_n_n_0_1_13.start jj I 1 = 0 := by
    unfold GatherDims.start
    rw [dif_neg (by decide)]
  rw [hs]
  have hk : (1 : Fin S16384x3.rank) ∈ gather_S16384x3_S32768x1_S32768x3_1_0_n_n_0_1_13.sKept := by decide
  unfold GatherDims.offCoord
  rw [dif_pos hk, Nat.zero_add]
  rfl

/-- The flattened source array `[64, 256, 3] → [16384, 3]` read at `k = (r, j)` is the source at
    `(r / 256, r % 256, j)`: the column is kept. -/
theorem src_flat_apply {α : Type} (A : S64x256x3.Idx → α) (k : S16384x3.Idx) :
    shapeCast S16384x3 A shapeCasts_S64x256x3_S16384x3 k
      = A (ix3 ⟨(k 0).val / 256, by have := idx2_lt0 k; omega⟩ ⟨(k 0).val % 256, Nat.mod_lt _ (by decide)⟩ (k 1)) :=
  shapeCast_apply A _ _ _ (by
    rw [Shape.rowMajor_val_three, Shape.rowMajor_val_two]
    show ((k 0).val / 256 * 256 + (k 0).val % 256) * 3 + (k 1).val = (k 0).val * 3 + (k 1).val
    rw [Nat.div_add_mod' (k 0).val 256])

/-- The grid `[32768, 3] → [64, 512, 3]` read at `(b, t, j)` is the flat array at `(b * 512 + t, j)`. -/
theorem grid_apply {α : Type} (G : S32768x3.Idx → α) (b : Fin 64) (t : Fin 512) (j : Fin 3) :
    shapeCast S64x512x3 G shapeCasts_S32768x3_S64x512x3 (ix3 b t j)
      = G (ix2 ⟨b.val * 512 + t.val, by omega⟩ j) :=
  shapeCast_apply G _ _ _ (by
    rw [Shape.rowMajor_val_three, Shape.rowMajor_val_two]
    show (b.val * 512 + t.val) * 3 + j.val = (b.val * 512 + t.val) * 3 + j.val
    rfl)

/-- The flat grid as a term over a mask `M`, start indices `I` and the source points `A`:
    `select M (gather (float (flattened A)) I) 0`. -/
def flatGrid (M : IVec S32768x3 1) (I : IVec S32768x1 32) (A : IVec S64x256x3 32) : FVec Ideal S32768x3 .f32 :=
  select M
    (Host.gather gather_S16384x3_S32768x1_S32768x3_1_0_n_n_0_1_13
      (sitofp .f32 (shapeCast S16384x3 A shapeCasts_S64x256x3_S16384x3)) I)
    (broadcastInDim S32768x3 ![] bcast_S_S32768x3 (constant S_ .f32 0x00000000#32))

/-- THE FLAT GRID'S x AND y COLUMNS: with any mask and any start indices, an entry in column `j < 2` of the flat grid is
    either the float of an entry of `A` in the same column — the gather keeps the column — or the float zero; converted
    back to an integer it is that entry of `A`, or 0: inside `0 .. 512` when `A`'s x and y columns are. -/
theorem flat_col_range (M : IVec S32768x3 1) (I : IVec S32768x1 32) (A : IVec S64x256x3 32)
    (hA : ∀ (a : Fin 64) (l : Fin 256) (j : Fin 3), j.val < 2 →
      0 ≤ (A (ix3 a l j)).toInt ∧ (A (ix3 a l j)).toInt ≤ 512)
    (jj : S32768x3.Idx) (hj : (jj 1).val < 2) :
    0 ≤ (FloatOps.fptosi (F := Ideal) (φ := .f32) 32 (flatGrid M I A jj)).toInt
      ∧ (FloatOps.fptosi (F := Ideal) (φ := .f32) 32 (flatGrid M I A jj)).toInt ≤ 512 := by
  unfold flatGrid
  rw [select_apply]
  by_cases hm : M jj = 1#1
  · -- the mask is set: the gathered entry, the float of the source's entry in the same column
    rw [hm, select_one]
    have e : Host.gather gather_S16384x3_S32768x1_S32768x3_1_0_n_n_0_1_13
          (sitofp (F := Ideal) .f32 (shapeCast S16384x3 A shapeCasts_S64x256x3_S16384x3)) I jj
        = FloatOps.sitofp (F := Ideal) .f32
            (A (ix3 ⟨((gather_S16384x3_S32768x1_S32768x3_1_0_n_n_0_1_13.operandIdx jj I) 0).val / 256,
                  by have := idx2_lt0 (gather_S16384x3_S32768x1_S32768x3_1_0_n_n_0_1_13.operandIdx jj I); omega⟩
                ⟨((gather_S16384x3_S32768x1_S32768x3_1_0_n_n_0_1_13.operandIdx jj I) 0).val % 256, Nat.mod_lt _ (by decide)⟩
                ((gather_S16384x3_S32768x1_S32768x3_1_0_n_n_0_1_13.operandIdx jj I) 1))) := by
      unfold Host.gather
      rw [sitofp_apply, src_flat_apply]
    rw [e]
    obtain ⟨h0, h1⟩ := hA _ _ ((gather_S16384x3_S32768x1_S32768x3_1_0_n_n_0_1_13.operandIdx jj I) 1)
      (by rw [gather_col I jj]; exact hj)
    rw [Cert.Embed.fptosi_sitofp _ h0 h1]
    exact ⟨h0, h1⟩
  · -- the mask is clear: the float zero
    rw [eq_zero_of_ne_one hm, select_zero,
      broadcastInDim_apply _ bcast_S_S32768x3 _ jj ix0 (fun a => a.elim0), constant_apply, Cert.Embed.fptosi_zero]
    exact ⟨by decide, by decide⟩

set_option maxHeartbeats 4000000 in
/-- Statement %43 as a term: the reshape of the flat grid for SOME mask and start indices (terms over the earlier
    statements, which nothing here looks into); the first six stretches write no argument, so the gathered source is the
    launch's `arg0`. -/
theorem v43_form (X : Valuation τ sig (Elt Ideal)) :
    ∃ (M : IVec S32768x3 1) (I : IVec S32768x1 32),
      (pref10 X (Proc.devRef .tc main_v43) : FVec Ideal S64x512x3 .f32)
        = (shapeCast S64x512x3 (flatGrid M I (X (Proc.devRef .tc main_arg0))) shapeCasts_S32768x3_S64x512x3
            : FVec Ideal S64x512x3 .f32) := by
  unfold pref10
  have hZ : after hostOps0_5 (after hostOps0_4 (after hostOps0_3 (after hostOps0_2 (after hostOps0_1 (after hostOps0 X)))))
      (Proc.devRef .tc main_arg0) = X (Proc.devRef .tc main_arg0) := by after_results_simp
  generalize (after hostOps0_5 (after hostOps0_4 (after hostOps0_3 (after hostOps0_2 (after hostOps0_1 (after hostOps0 X)))))) = Z at hZ ⊢
  refine ⟨?M, ?I, ?eq⟩
  case eq =>
    after_results_simp
    rw [hZ]
    rfl

/-- THE SCATTERED GRID'S x AND y COLUMNS STAY INSIDE THE TABLES' ROW RANGE: when the source points' x and y words are in
    `0 .. 512`, so is every x and y entry of statement %43 converted back to an integer. -/
theorem grid_col_range (X : Valuation τ sig (Elt Ideal))
    (hsrc : ∀ (a : Fin 64) (l : Fin 256) (j : Fin 3), j.val < 2 →
      0 ≤ ((X (Proc.devRef .tc main_arg0) : IVec S64x256x3 32) (ix3 a l j)).toInt
        ∧ ((X (Proc.devRef .tc main_arg0) : IVec S64x256x3 32) (ix3 a l j)).toInt ≤ 512)
    (b : Fin 64) (t : Fin 512) (j : Fin 3) (hj : j.val < 2) :
    0 ≤ (FloatOps.fptosi (F := Ideal) (φ := .f32) 32
          ((pref10 X (Proc.devRef .tc main_v43) : FVec Ideal S64x512x3 .f32) (ix3 b t j))).toInt
      ∧ (FloatOps.fptosi (F := Ideal) (φ := .f32) 32
          ((pref10 X (Proc.devRef .tc main_v43) : FVec Ideal S64x512x3 .f32) (ix3 b t j))).toInt ≤ 512 := by
  obtain ⟨M, I, h⟩ := v43_form X
  rw [h, grid_apply]
  exact flat_col_range M I _ hsrc _ hj

end Cert.KernelIdeal.SrcRange

end
-- ==== Proof.ValueK.lean ====
/-
  The kernel's four results, entry by entry.

  From a launch memory whose two tables are finite and whose x / y indices lie in the tables' row range, each of the
  three embedding results holds, at row (a, b) and column d, the target of the specification for that row's pair of
  index words: the lookup call's output array is the one-hot lookup over the padded tables' leading and residual parts
  at the clipped pair (the region's value), which is the table's own row (the arithmetic), read through the final
  reshape. The fourth result is the scattered positions of the shared first part, reshaped.
-/
import proofs.«401964_j4724464025663_2_alg».proof.Proof.HostK
import proofs.«401964_j4724464025663_2_alg».proof.Proof.PrefixK
import proofs.«401964_j4724464025663_2_alg».proof.Proof.RegionValue
import proofs.«401964_j4724464025663_2_alg».proof.Proof.BridgeK
import proofs.«401964_j4724464025663_2_alg».proof.Proof.SrcRange

set_option maxRecDepth 16384

noncomputable section

namespace Cert.KernelIdeal.ValueK

open Cert.KernelIdeal Cert.KernelIdeal.Gen Cert.KernelIdeal.Host Cert.Embed
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The first table as launched. -/
abbrev E1 : FVec Ideal S513x512 .f32 := m ((c : Thread nD τ).loc main_arg4)
/-- The second table as launched. -/
abbrev E2 : FVec Ideal S513x512 .f32 := m ((c : Thread nD τ).loc main_arg5)
/-- The second index input as launched. -/
abbrev A2 : IVec S512x64x3 32 := m ((c : Thread nD τ).loc main_arg2)
/-- The third index input as launched. -/
abbrev A3 : IVec S512x64x3 32 := m ((c : Thread nD τ).loc main_arg3)
/-- The scattered grid the shared first part leaves. -/
abbrev G43 : FVec Ideal S64x512x3 .f32 := pref10 (W0 m ρ c) (Proc.devRef .tc main_v43)

/-! ## What the lookup calls read -/

/-- Before the first call a buffer holds what the stretches from statement %63 on leave over the first part. -/
theorem W21_at (b : Ref sig .tc) : W21 m ρ c (Proc.devRef .tc b) = tail10 (pref10 (W0 m ρ c)) (Proc.devRef .tc b) := by
  rw [W21_eq, W10_eq]

theorem in_v94 : W21 m ρ c (Proc.devRef .tc main_v94) = hiT (E1 m c) := by
  rw [W21_at, tail10_v94, pref10_arg4]
theorem in_v97 : W21 m ρ c (Proc.devRef .tc main_v97) = loT (E1 m c) := by
  rw [W21_at, tail10_v97, pref10_arg4]
theorem in_v98 : W21 m ρ c (Proc.devRef .tc main_v98) = hiT (E2 m c) := by
  rw [W21_at, tail10_v98, pref10_arg5]
theorem in_v101 : W21 m ρ c (Proc.devRef .tc main_v101) = loT (E2 m c) := by
  rw [W21_at, tail10_v101, pref10_arg5]
theorem in_v87 : W21 m ρ c (Proc.devRef .tc main_v87) = clip512 (pairsOfGrid (G43 m ρ c)) := by
  rw [W21_at, tail10_v87]
theorem in_v89 : W21 m ρ c (Proc.devRef .tc main_v89) = clip512 (pairsOfInts (A2 m c)) := by
  rw [W21_at, tail10_v89, pref10_arg2]
theorem in_v91 : W21 m ρ c (Proc.devRef .tc main_v91) = clip512 (pairsOfInts (A3 m c)) := by
  rw [W21_at, tail10_v91, pref10_arg3]

/-! ## The three lookup results as whole arrays -/

/-- The first result: the lookup at the scattered grid's clipped (x, y) pairs, reshaped. -/
theorem res_v103 : W27 m ρ c (Proc.devRef .tc main_v103)
    = shapeCast S64x512x1024
        (lookup2 (hiT (E1 m c)) (loT (E1 m c)) (hiT (E2 m c)) (loT (E2 m c)) (clip512 (pairsOfGrid (G43 m ρ c))))
        shapeCasts_S32768x1024_S64x512x1024 := by
  rw [W27_v103, Cert.KernelIdeal.RegionValue.arrAt0 (V21 m ρ) c]
  show shapeCast S64x512x1024 (lookup2 (W21 m ρ c (Proc.devRef .tc main_v94)) (W21 m ρ c (Proc.devRef .tc main_v97))
    (W21 m ρ c (Proc.devRef .tc main_v98)) (W21 m ρ c (Proc.devRef .tc main_v101)) (W21 m ρ c (Proc.devRef .tc main_v87))) _ = _
  rw [in_v94, in_v97, in_v98, in_v101, in_v87]

/-- The second result: the lookup at the second index input's clipped pairs, reshaped. -/
theorem res_v105 : W27 m ρ c (Proc.devRef .tc main_v105)
    = shapeCast S512x64x1024
        (lookup2 (hiT (E1 m c)) (loT (E1 m c)) (hiT (E2 m c)) (loT (E2 m c)) (clip512 (pairsOfInts (A2 m c))))
        shapeCasts_S32768x1024_S512x64x1024 := by
  rw [W27_v105, Cert.KernelIdeal.RegionValue.arrAt1 (V23 m ρ) c]
  show shapeCast S512x64x1024 (lookup2 (W23 m ρ c (Proc.devRef .tc main_v94)) (W23 m ρ c (Proc.devRef .tc main_v97))
    (W23 m ρ c (Proc.devRef .tc main_v98)) (W23 m ρ c (Proc.devRef .tc main_v101)) (W23 m ρ c (Proc.devRef .tc main_v89))) _ = _
  rw [W23_early m ρ c main_v94 (by decide) (by decide), W23_early m ρ c main_v97 (by decide) (by decide),
    W23_early m ρ c main_v98 (by decide) (by decide), W23_early m ρ c main_v101 (by decide) (by decide),
    W23_early m ρ c main_v89 (by decide) (by decide), in_v94, in_v97, in_v98, in_v101, in_v89]

/-- The third result: the lookup at the third index input's clipped pairs, reshaped. -/
theorem res_v107 : W27 m ρ c (Proc.devRef .tc main_v107)
    = shapeCast S512x64x1024
        (lookup2 (hiT (E1 m c)) (loT (E1 m c)) (hiT (E2 m c)) (loT (E2 m c)) (clip512 (pairsOfInts (A3 m c))))
        shapeCasts_S32768x1024_S512x64x1024 := by
  rw [W27_v107, Cert.KernelIdeal.RegionValue.arrAt2 (V25 m ρ) c]
  show shapeCast S512x64x1024 (lookup2 (W25 m ρ c (Proc.devRef .tc main_v94)) (W25 m ρ c (Proc.devRef .tc main_v97))
    (W25 m ρ c (Proc.devRef .tc main_v98)) (W25 m ρ c (Proc.devRef .tc main_v101)) (W25 m ρ c (Proc.devRef .tc main_v91))) _ = _
  rw [W25_early m ρ c main_v94 (by decide) (by decide) (by decide) (by decide),
    W25_early m ρ c main_v97 (by decide) (by decide) (by decide) (by decide),
    W25_early m ρ c main_v98 (by decide) (by decide) (by decide) (by decide),
    W25_early m ρ c main_v101 (by decide) (by decide) (by decide) (by decide),
    W25_early m ρ c main_v91 (by decide) (by decide) (by decide) (by decide), in_v94, in_v97, in_v98, in_v101, in_v91]

/-- The fourth result: the scattered positions of the shared first part, reshaped. -/
theorem res_v63 : W27 m ρ c (Proc.devRef .tc main_v63)
    = shapeCast S64x512x3 (pref10 (W0 m ρ c) (Proc.devRef .tc main_v62)) shapeCasts_S32768x3_S64x512x3 := by
  rw [W27_early m ρ c main_v63 (by decide) (by decide) (by decide) (by decide) (by decide) (by decide), W21_at, tail10_v63]

/-! ## Entry by entry -/

/-- An entry of the second result is the target for the second index input's pair at that row. -/
theorem entry_v105
    (hE1 : ∀ i, ∃ x : ℝ, E1 m c i = (x : EReal)) (hE2 : ∀ i, ∃ x : ℝ, E2 m c i = (x : EReal))
    (hA : ∀ (a : Fin 512) (b : Fin 64) (j : Fin 3), j.val < 2 → 0 ≤ (A2 m c (ix3 a b j)).toInt ∧ (A2 m c (ix3 a b j)).toInt ≤ 512)
    (a : Fin 512) (b : Fin 64) (d : Fin 1024) :
    (W27 m ρ c (Proc.devRef .tc main_v105) : FVec Ideal S512x64x1024 .f32) (ix3 a b d)
      = tgt (E1 m c) (E2 m c) (A2 m c (ix3 a b 0)) (A2 m c (ix3 a b 1)) d := by
  rw [res_v105, Cert.KernelIdeal.BridgeK.reshape_pre]
  have p0 := Cert.KernelIdeal.BridgeK.pairsOfInts_apply (A2 m c) a b 0
  have p1 := Cert.KernelIdeal.BridgeK.pairsOfInts_apply (A2 m c) a b 1
  rw [Cert.KernelIdeal.BridgeK.lookup2_table (E1 m c) (E2 m c) hE1 hE2 _ _ d
    (by rw [p0]; exact hA a b _ (by decide)) (by rw [p1]; exact hA a b _ (by decide)), p0, p1]
  rfl

/-- An entry of the third result is the target for the third index input's pair at that row. -/
theorem entry_v107
    (hE1 : ∀ i, ∃ x : ℝ, E1 m c i = (x : EReal)) (hE2 : ∀ i, ∃ x : ℝ, E2 m c i = (x : EReal))
    (hA : ∀ (a : Fin 512) (b : Fin 64) (j : Fin 3), j.val < 2 → 0 ≤ (A3 m c (ix3 a b j)).toInt ∧ (A3 m c (ix3 a b j)).toInt ≤ 512)
    (a : Fin 512) (b : Fin 64) (d : Fin 1024) :
    (W27 m ρ c (Proc.devRef .tc main_v107) : FVec Ideal S512x64x1024 .f32) (ix3 a b d)
      = tgt (E1 m c) (E2 m c) (A3 m c (ix3 a b 0)) (A3 m c (ix3 a b 1)) d := by
  rw [res_v107, Cert.KernelIdeal.BridgeK.reshape_pre]
  have p0 := Cert.KernelIdeal.BridgeK.pairsOfInts_apply (A3 m c) a b 0
  have p1 := Cert.KernelIdeal.BridgeK.pairsOfInts_apply (A3 m c) a b 1
  rw [Cert.KernelIdeal.BridgeK.lookup2_table (E1 m c) (E2 m c) hE1 hE2 _ _ d
    (by rw [p0]; exact hA a b _ (by decide)) (by rw [p1]; exact hA a b _ (by decide)), p0, p1]
  rfl

/-- An entry of the first result is the target for the scattered grid's (x, y) pair at that row, each converted to an
    integer word. -/
theorem entry_v103
    (hE1 : ∀ i, ∃ x : ℝ, E1 m c i = (x : EReal)) (hE2 : ∀ i, ∃ x : ℝ, E2 m c i = (x : EReal))
    (hG : ∀ (b : Fin 64) (t : Fin 512) (j : Fin 3), j.val < 2 →
      0 ≤ (FloatOps.fptosi (F := Ideal) (φ := .f32) 32 (G43 m ρ c (ix3 b t j))).toInt
      ∧ (FloatOps.fptosi (F := Ideal) (φ := .f32) 32 (G43 m ρ c (ix3 b t j))).toInt ≤ 512)
    (b : Fin 64) (t : Fin 512) (d : Fin 1024) :
    (W27 m ρ c (Proc.devRef .tc main_v103) : FVec Ideal S64x512x1024 .f32) (ix3 b t d)
      = tgt (E1 m c) (E2 m c) (FloatOps.fptosi (F := Ideal) (φ := .f32) 32 (G43 m ρ c (ix3 b t 0)))
          (FloatOps.fptosi (F := Ideal) (φ := .f32) 32 (G43 m ρ c (ix3 b t 1))) d := by
  rw [res_v103, Cert.KernelIdeal.BridgeK.reshape_src]
  have p0 := Cert.KernelIdeal.BridgeK.pairsOfGrid_apply (G43 m ρ c) b t 0
  have p1 := Cert.KernelIdeal.BridgeK.pairsOfGrid_apply (G43 m ρ c) b t 1
  rw [Cert.KernelIdeal.BridgeK.lookup2_table (E1 m c) (E2 m c) hE1 hE2 _ _ d
    (by rw [p0]; exact hG b t _ (by decide)) (by rw [p1]; exact hG b t _ (by decide)), p0, p1]
  rfl

end Cert.KernelIdeal.ValueK

end
-- ==== Proof.RefOps.lean ====
/-
  The reference program's host operations, as two lists.

  The reference is a straight line on one TensorCore: 157 statements, 5 of them calls of module-local functions
  (a masked select, a floor division that itself ends in a select, a clamp from below, and a masked select of rows,
  twice). A call executes the callee's body on the call's own buffers, so with each call replaced by the callee's
  operations at those buffers the program is one list of 183 operations. It is cut where the preparation of the index
  rows ends: `opsP` is everything through the second masked select of rows (the value %62, 107 operations), `opsT`
  the rest (76 operations: the four table lookups by row, their concatenations and the three transpositions). Each
  operation touches TensorCore buffers only (`opsP_sub`, `opsT_sub`): one fact per operation, by its arity.
-/
import proofs.«401964_j4724464025663_2_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The operations through `main_v62` (statement %62, the second call of the masked select of rows), in order, the
    callees' operations inlined at their call sites: each callee line is the typed-reference builder of its arity
    over the call's operands and the call's own buffers. The masked select (@_where) is three operations into
    `main_call0_v0`, `main_call0_v1`, `main_v13`; the floor division seventeen, sixteen of its own into
    `main_call1_*` and the select it calls into `main_v26`; the clamp three, ending in `main_v29`; each masked select
    of rows four, ending in `main_v42` and in `main_v62`. -/
abbrev opsP : List (HloOp τ sig (Elt F)) :=
  [ StableHlo.unary main_arg0 main_v0 ((extractStridedSlice S64x256x1 ![0, 0, 2] · slices_S64x256x3_S64x256x1_0_0_2) : (⟨S64x256x3, .i32⟩ : BufTy).Contents (Elt F) → (⟨S64x256x1, .i32⟩ : BufTy).Contents (Elt F)),
    StableHlo.reshape main_v0 main_v1 rfl shapeCasts_S64x256x1_S64x256,
    StableHlo.nullary main_c (constantI S_ 32 0#32),
    StableHlo.unary main_c main_v2 (broadcastInDim S64x256 ![] bcast_S_S64x256 : (⟨S_, .i32⟩ : BufTy).Contents (Elt F) → (⟨S64x256, .i32⟩ : BufTy).Contents (Elt F)),
    StableHlo.binary main_v1 main_v2 main_v3 (cmpi .sge : (⟨S64x256, .i32⟩ : BufTy).Contents (Elt F) → (⟨S64x256, .i32⟩ : BufTy).Contents (Elt F) → (⟨S64x256, .i1⟩ : BufTy).Contents (Elt F)),
    StableHlo.nullary main_c_0 (constantI S_ 32 512#32),
    StableHlo.unary main_c_0 main_v4 (broadcastInDim S64x256 ![] bcast_S_S64x256 : (⟨S_, .i32⟩ : BufTy).Contents (Elt F) → (⟨S64x256, .i32⟩ : BufTy).Contents (Elt F)),
    StableHlo.binary main_v1 main_v4 main_v5 (cmpi .slt : (⟨S64x256, .i32⟩ : BufTy).Contents (Elt F) → (⟨S64x256, .i32⟩ : BufTy).Contents (Elt F) → (⟨S64x256, .i1⟩ : BufTy).Contents (Elt F)),
    StableHlo.binary main_v3 main_v5 main_v6 (andi : (⟨S64x256, .i1⟩ : BufTy).Contents (Elt F) → (⟨S64x256, .i1⟩ : BufTy).Contents (Elt F) → (⟨S64x256, .i1⟩ : BufTy).Contents (Elt F)),
    StableHlo.nullary main_v7 (iotaInDim S64 32 0),
    StableHlo.unary main_v7 main_v8 (broadcastInDim S64x1 ![0] bcast_S64_S64x1_0 : (⟨S64, .i32⟩ : BufTy).Contents (Elt F) → (⟨S64x1, .i32⟩ : BufTy).Contents (Elt F)),
    StableHlo.nullary main_c_1 (constantI S_ 32 512#32),
    StableHlo.unary main_c_1 main_v9 (broadcastInDim S64x1 ![] bcast_S_S64x1 : (⟨S_, .i32⟩ : BufTy).Contents (Elt F) → (⟨S64x1, .i32⟩ : BufTy).Contents (Elt F)),
    StableHlo.binary main_v8 main_v9 main_v10 (muli : (⟨S64x1, .i32⟩ : BufTy).Contents (Elt F) → (⟨S64x1, .i32⟩ : BufTy).Contents (Elt F) → (⟨S64x1, .i32⟩ : BufTy).Contents (Elt F)),
    StableHlo.unary main_v10 main_v11 (broadcastInDim S64x256 ![0, 1] bcast_S64x1_S64x256_0_1 : (⟨S64x1, .i32⟩ : BufTy).Contents (Elt F) → (⟨S64x256, .i32⟩ : BufTy).Contents (Elt F)),
    StableHlo.binary main_v11 main_v1 main_v12 (addi : (⟨S64x256, .i32⟩ : BufTy).Contents (Elt F) → (⟨S64x256, .i32⟩ : BufTy).Contents (Elt F) → (⟨S64x256, .i32⟩ : BufTy).Contents (Elt F)),
    StableHlo.nullary main_c_2 (constantI S_ 32 32768#32),
    StableHlo.TRef.unary (.of main_c_2 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S64x256, .i32⟩) (broadcastInDim S64x256 ![] bcast_S_S64x256),
    StableHlo.TRef.ternary (.of main_v6 : StableHlo.TRef sig ⟨S64x256, .i1⟩) (.of main_v12 : StableHlo.TRef sig ⟨S64x256, .i32⟩) (.of main_call0_v1 : StableHlo.TRef sig ⟨S64x256, .i32⟩) (.of main_v13 : StableHlo.TRef sig ⟨S64x256, .i32⟩) select,
    StableHlo.nullary main_v14 (iotaInDim S256 32 0),
    StableHlo.unary main_v14 main_v15 (broadcastInDim S1x256 ![1] bcast_S256_S1x256_1 : (⟨S256, .i32⟩ : BufTy).Contents (Elt F) → (⟨S1x256, .i32⟩ : BufTy).Contents (Elt F)),
    StableHlo.unary main_v15 main_v16 (broadcastInDim S64x256 ![0, 1] bcast_S1x256_S64x256_0_1 : (⟨S1x256, .i32⟩ : BufTy).Contents (Elt F) → (⟨S64x256, .i32⟩ : BufTy).Contents (Elt F)),
    StableHlo.reshape main_v16 main_v17 rfl shapeCasts_S64x256_S16384,
    StableHlo.reshape main_v13 main_v18 rfl shapeCasts_S64x256_S16384,
    StableHlo.nullary main_c_3 (constantI S_ 32 2147483648#32),
    StableHlo.unary main_c_3 main_v19 (broadcastInDim S32769 ![] bcast_S_S32769 : (⟨S_, .i32⟩ : BufTy).Contents (Elt F) → (⟨S32769, .i32⟩ : BufTy).Contents (Elt F)),
    StableHlo.unary main_v18 main_v20 (broadcastInDim S16384x1 ![0] bcast_S16384_S16384x1_0 : (⟨S16384, .i32⟩ : BufTy).Contents (Elt F) → (⟨S16384x1, .i32⟩ : BufTy).Contents (Elt F)),
    StableHlo.ternary main_v19 main_v20 main_v17 main_v21 ((fun x i u => Host.scatter scatter_S32769_S16384x1_S16384_n_0_0_1 IntOp.maxsi x i u) : (⟨S32769, .i32⟩ : BufTy).Contents (Elt F) → (⟨S16384x1, .i32⟩ : BufTy).Contents (Elt F) → (⟨S16384, .i32⟩ : BufTy).Contents (Elt F) → (⟨S32769, .i32⟩ : BufTy).Contents (Elt F)),
    StableHlo.unary main_v21 main_v22 ((extractStridedSlice S32768 ![0] · slices_S32769_S32768_0) : (⟨S32769, .i32⟩ : BufTy).Contents (Elt F) → (⟨S32768, .i32⟩ : BufTy).Contents (Elt F)),
    StableHlo.nullary main_c_4 (constantI S_ 32 0#32),
    StableHlo.unary main_c_4 main_v23 (broadcastInDim S32768 ![] bcast_S_S32768 : (⟨S_, .i32⟩ : BufTy).Contents (Elt F) → (⟨S32768, .i32⟩ : BufTy).Contents (Elt F)),
    StableHlo.binary main_v22 main_v23 main_v24 (cmpi .sge : (⟨S32768, .i32⟩ : BufTy).Contents (Elt F) → (⟨S32768, .i32⟩ : BufTy).Contents (Elt F) → (⟨S32768, .i1⟩ : BufTy).Contents (Elt F)),
    StableHlo.nullary main_v25 (iotaInDim S32768 32 0),
    StableHlo.nullary main_c_5 (constantI S_ 32 512#32),
    StableHlo.TRef.unary (.of main_c_5 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S32768, .i32⟩) (broadcastInDim S32768 ![] bcast_S_S32768),
    StableHlo.TRef.binary (.of main_v25 : StableHlo.TRef sig ⟨S32768, .i32⟩) (.of main_call1_v1 : StableHlo.TRef sig ⟨S32768, .i32⟩) (.of main_call1_v2 : StableHlo.TRef sig ⟨S32768, .i32⟩) Host.divsi,
    StableHlo.TRef.unary (.of main_v25 : StableHlo.TRef sig ⟨S32768, .i32⟩) (.of main_call1_v3 : StableHlo.TRef sig ⟨S32768, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S32768, .i32⟩) (broadcastInDim S32768 ![] bcast_S_S32768),
    StableHlo.TRef.binary (.of main_call1_v3 : StableHlo.TRef sig ⟨S32768, .i32⟩) (.of main_call1_v5 : StableHlo.TRef sig ⟨S32768, .i32⟩) (.of main_call1_v6 : StableHlo.TRef sig ⟨S32768, .i1⟩) (cmpi .ne),
    StableHlo.TRef.unary (.of main_call1_v0 : StableHlo.TRef sig ⟨S_, .i32⟩) (.of main_call1_v7 : StableHlo.TRef sig ⟨S32768, .i32⟩) (broadcastInDim S32768 ![] bcast_S_S32768),
    StableHlo.TRef.binary (.of main_v25 : StableHlo.TRef sig ⟨S32768, .i32⟩) (.of main_call1_v7 : StableHlo.TRef sig ⟨S32768, .i32⟩) (.of main_call1_v8 : StableHlo.TRef sig ⟨S32768, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S32768, .i32⟩) (broadcastInDim S32768 ![] bcast_S_S32768),
    StableHlo.TRef.binary (.of main_call1_v8 : StableHlo.TRef sig ⟨S32768, .i32⟩) (.of main_call1_v9 : StableHlo.TRef sig ⟨S32768, .i32⟩) (.of main_call1_v10 : StableHlo.TRef sig ⟨S32768, .i1⟩) (cmpi .ne),
    StableHlo.TRef.binary (.of main_call1_v6 : StableHlo.TRef sig ⟨S32768, .i1⟩) (.of main_call1_v10 : StableHlo.TRef sig ⟨S32768, .i1⟩) (.of main_call1_v11 : StableHlo.TRef sig ⟨S32768, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S32768, .i32⟩) (broadcastInDim S32768 ![] bcast_S_S32768),
    StableHlo.TRef.binary (.of main_call1_v2 : StableHlo.TRef sig ⟨S32768, .i32⟩) (.of main_call1_v12 : StableHlo.TRef sig ⟨S32768, .i32⟩) (.of main_call1_v13 : StableHlo.TRef sig ⟨S32768, .i32⟩) subi,
    StableHlo.TRef.ternary (.of main_call1_v11 : StableHlo.TRef sig ⟨S32768, .i1⟩) (.of main_call1_v13 : StableHlo.TRef sig ⟨S32768, .i32⟩) (.of main_call1_v2 : StableHlo.TRef sig ⟨S32768, .i32⟩) (.of main_v26 : StableHlo.TRef sig ⟨S32768, .i32⟩) select,
    StableHlo.nullary main_c_6 (constantI S_ 32 256#32),
    StableHlo.unary main_c_6 main_v27 (broadcastInDim S32768 ![] bcast_S_S32768 : (⟨S_, .i32⟩ : BufTy).Contents (Elt F) → (⟨S32768, .i32⟩ : BufTy).Contents (Elt F)),
    StableHlo.binary main_v26 main_v27 main_v28 (muli : (⟨S32768, .i32⟩ : BufTy).Contents (Elt F) → (⟨S32768, .i32⟩ : BufTy).Contents (Elt F) → (⟨S32768, .i32⟩ : BufTy).Contents (Elt F)),
    StableHlo.nullary main_c_7 (constantI S_ 32 0#32),
    StableHlo.TRef.unary (.of main_c_7 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S32768, .i32⟩) (broadcastInDim S32768 ![] bcast_S_S32768),
    StableHlo.TRef.binary (.of main_call2_v1 : StableHlo.TRef sig ⟨S32768, .i32⟩) (.of main_v22 : StableHlo.TRef sig ⟨S32768, .i32⟩) (.of main_v29 : StableHlo.TRef sig ⟨S32768, .i32⟩) maxsi,
    StableHlo.binary main_v28 main_v29 main_v30 (addi : (⟨S32768, .i32⟩ : BufTy).Contents (Elt F) → (⟨S32768, .i32⟩ : BufTy).Contents (Elt F) → (⟨S32768, .i32⟩ : BufTy).Contents (Elt F)),
    StableHlo.reshape main_arg0 main_v31 rfl shapeCasts_S64x256x3_S16384x3,
    StableHlo.unary main_v31 main_v32 (sitofp .f32 : (⟨S16384x3, .i32⟩ : BufTy).Contents (Elt F) → (⟨S16384x3, .f32⟩ : BufTy).Contents (Elt F)),
    StableHlo.reshape main_arg1 main_v33 rfl shapeCasts_S64x256x2_S16384x2,
    StableHlo.unary main_v24 main_v34 (broadcastInDim S32768x1 ![0] bcast_S32768_S32768x1_0 : (⟨S32768, .i1⟩ : BufTy).Contents (Elt F) → (⟨S32768x1, .i1⟩ : BufTy).Contents (Elt F)),
    StableHlo.nullary main_c_8 (constantI S_ 32 0#32),
    StableHlo.unary main_c_8 main_v35 (broadcastInDim S32768 ![] bcast_S_S32768 : (⟨S_, .i32⟩ : BufTy).Contents (Elt F) → (⟨S32768, .i32⟩ : BufTy).Contents (Elt F)),
    StableHlo.binary main_v30 main_v35 main_v36 (cmpi .slt : (⟨S32768, .i32⟩ : BufTy).Contents (Elt F) → (⟨S32768, .i32⟩ : BufTy).Contents (Elt F) → (⟨S32768, .i1⟩ : BufTy).Contents (Elt F)),
    StableHlo.nullary main_c_9 (constantI S_ 32 16384#32),
    StableHlo.unary main_c_9 main_v37 (broadcastInDim S32768 ![] bcast_S_S32768 : (⟨S_, .i32⟩ : BufTy).Contents (Elt F) → (⟨S32768, .i32⟩ : BufTy).Contents (Elt F)),
    StableHlo.binary main_v30 main_v37 main_v38 (addi : (⟨S32768, .i32⟩ : BufTy).Contents (Elt F) → (⟨S32768, .i32⟩ : BufTy).Contents (Elt F) → (⟨S32768, .i32⟩ : BufTy).Contents (Elt F)),
    StableHlo.ternary main_v36 main_v38 main_v30 main_v39 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v39 main_v40 (broadcastInDim S32768x1 ![0] bcast_S32768_S32768x1_0 : (⟨S32768, .i32⟩ : BufTy).Contents (Elt F) → (⟨S32768x1, .i32⟩ : BufTy).Contents (Elt F)),
    StableHlo.binary main_v32 main_v40 main_v41 ((fun x i => Host.gather gather_S16384x3_S32768x1_S32768x3_1_0_n_n_0_1_13 x i) : (⟨S16384x3, .f32⟩ : BufTy).Contents (Elt F) → (⟨S32768x1, .i32⟩ : BufTy).Contents (Elt F) → (⟨S32768x3, .f32⟩ : BufTy).Contents (Elt F)),
    StableHlo.nullary main_cst (constant S_ .f32 0x00000000#32),
    StableHlo.TRef.unary (.of main_cst : StableHlo.TRef sig ⟨S_, .f32⟩) (.of main_call3_v0 : StableHlo.TRef sig ⟨S_, .f32⟩) id,
    StableHlo.TRef.unary (.of main_v34 : StableHlo.TRef sig ⟨S32768x1, .i1⟩) (.of main_call3_v1 : StableHlo.TRef sig ⟨S32768x3, .i1⟩) (broadcastInDim S32768x3 ![0, 1] bcast_S32768x1_S32768x3_0_1),
    StableHlo.TRef.unary (.of main_call3_v0 : StableHlo.TRef sig ⟨S_, .f32⟩) (.of main_call3_v2 : StableHlo.TRef sig ⟨S32768x3, .f32⟩) (broadcastInDim S32768x3 ![] bcast_S_S32768x3),
    StableHlo.TRef.ternary (.of main_call3_v1 : StableHlo.TRef sig ⟨S32768x3, .i1⟩) (.of main_v41 : StableHlo.TRef sig ⟨S32768x3, .f32⟩) (.of main_call3_v2 : StableHlo.TRef sig ⟨S32768x3, .f32⟩) (.of main_v42 : StableHlo.TRef sig ⟨S32768x3, .f32⟩) select,
    StableHlo.reshape main_v42 main_v43 rfl shapeCasts_S32768x3_S64x512x3,
    StableHlo.nullary main_c_10 (constantI S_ 32 0#32),
    StableHlo.unary main_c_10 main_v44 (broadcastInDim S32768 ![] bcast_S_S32768 : (⟨S_, .i32⟩ : BufTy).Contents (Elt F) → (⟨S32768, .i32⟩ : BufTy).Contents (Elt F)),
    StableHlo.binary main_v30 main_v44 main_v45 (cmpi .slt : (⟨S32768, .i32⟩ : BufTy).Contents (Elt F) → (⟨S32768, .i32⟩ : BufTy).Contents (Elt F) → (⟨S32768, .i1⟩ : BufTy).Contents (Elt F)),
    StableHlo.nullary main_c_11 (constantI S_ 32 16384#32),
    StableHlo.unary main_c_11 main_v46 (broadcastInDim S32768 ![] bcast_S_S32768 : (⟨S_, .i32⟩ : BufTy).Contents (Elt F) → (⟨S32768, .i32⟩ : BufTy).Contents (Elt F)),
    StableHlo.binary main_v30 main_v46 main_v47 (addi : (⟨S32768, .i32⟩ : BufTy).Contents (Elt F) → (⟨S32768, .i32⟩ : BufTy).Contents (Elt F) → (⟨S32768, .i32⟩ : BufTy).Contents (Elt F)),
    StableHlo.ternary main_v45 main_v47 main_v30 main_v48 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v48 main_v49 (broadcastInDim S32768x1 ![0] bcast_S32768_S32768x1_0 : (⟨S32768, .i32⟩ : BufTy).Contents (Elt F) → (⟨S32768x1, .i32⟩ : BufTy).Contents (Elt F)),
    StableHlo.binary main_v33 main_v49 main_v50 ((fun x i => Host.gather gather_S16384x2_S32768x1_S32768x2_1_0_n_n_0_1_12 x i) : (⟨S16384x2, .f32⟩ : BufTy).Contents (Elt F) → (⟨S32768x1, .i32⟩ : BufTy).Contents (Elt F) → (⟨S32768x2, .f32⟩ : BufTy).Contents (Elt F)),
    StableHlo.nullary main_c_12 (constantI S_ 32 0#32),
    StableHlo.unary main_c_12 main_v51 (broadcastInDim S32768 ![] bcast_S_S32768 : (⟨S_, .i32⟩ : BufTy).Contents (Elt F) → (⟨S32768, .i32⟩ : BufTy).Contents (Elt F)),
    StableHlo.binary main_v30 main_v51 main_v52 (cmpi .slt : (⟨S32768, .i32⟩ : BufTy).Contents (Elt F) → (⟨S32768, .i32⟩ : BufTy).Contents (Elt F) → (⟨S32768, .i1⟩ : BufTy).Contents (Elt F)),
    StableHlo.nullary main_c_13 (constantI S_ 32 16384#32),
    StableHlo.unary main_c_13 main_v53 (broadcastInDim S32768 ![] bcast_S_S32768 : (⟨S_, .i32⟩ : BufTy).Contents (Elt F) → (⟨S32768, .i32⟩ : BufTy).Contents (Elt F)),
    StableHlo.binary main_v30 main_v53 main_v54 (addi : (⟨S32768, .i32⟩ : BufTy).Contents (Elt F) → (⟨S32768, .i32⟩ : BufTy).Contents (Elt F) → (⟨S32768, .i32⟩ : BufTy).Contents (Elt F)),
    StableHlo.ternary main_v52 main_v54 main_v30 main_v55 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v55 main_v56 (broadcastInDim S32768x1 ![0] bcast_S32768_S32768x1_0 : (⟨S32768, .i32⟩ : BufTy).Contents (Elt F) → (⟨S32768x1, .i32⟩ : BufTy).Contents (Elt F)),
    StableHlo.nullary main_c_14 (constantI S_ 32 2#32),
    StableHlo.unary main_c_14 main_v57 (broadcastInDim S32768x1 ![] bcast_S_S32768x1 : (⟨S_, .i32⟩ : BufTy).Contents (Elt F) → (⟨S32768x1, .i32⟩ : BufTy).Contents (Elt F)),
    StableHlo.binary main_v56 main_v57 main_v58 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v32 main_v58 main_v59 ((fun x i => Host.gather gather_S16384x3_S32768x2_S32768x1_1_0_n_n_01_1_11 x i) : (⟨S16384x3, .f32⟩ : BufTy).Contents (Elt F) → (⟨S32768x2, .i32⟩ : BufTy).Contents (Elt F) → (⟨S32768x1, .f32⟩ : BufTy).Contents (Elt F)),
    StableHlo.binary main_v50 main_v59 main_v60 ((fun a b => concatenate S32768x3 1 [⟨S32768x2, a⟩, ⟨S32768x1, b⟩] concatenates_S32768x2_S32768x1_S32768x3_d1) : (⟨S32768x2, .f32⟩ : BufTy).Contents (Elt F) → (⟨S32768x1, .f32⟩ : BufTy).Contents (Elt F) → (⟨S32768x3, .f32⟩ : BufTy).Contents (Elt F)),
    StableHlo.unary main_v24 main_v61 (broadcastInDim S32768x1 ![0] bcast_S32768_S32768x1_0 : (⟨S32768, .i1⟩ : BufTy).Contents (Elt F) → (⟨S32768x1, .i1⟩ : BufTy).Contents (Elt F)),
    StableHlo.nullary main_cst_15 (constant S_ .f32 0x00000000#32),
    StableHlo.TRef.unary (.of main_cst_15 : StableHlo.TRef sig ⟨S_, .f32⟩) (.of main_call4_v0 : StableHlo.TRef sig ⟨S_, .f32⟩) id,
    StableHlo.TRef.unary (.of main_v61 : StableHlo.TRef sig ⟨S32768x1, .i1⟩) (.of main_call4_v1 : StableHlo.TRef sig ⟨S32768x3, .i1⟩) (broadcastInDim S32768x3 ![0, 1] bcast_S32768x1_S32768x3_0_1),
    StableHlo.TRef.unary (.of main_call4_v0 : StableHlo.TRef sig ⟨S_, .f32⟩) (.of main_call4_v2 : StableHlo.TRef sig ⟨S32768x3, .f32⟩) (broadcastInDim S32768x3 ![] bcast_S_S32768x3),
    StableHlo.TRef.ternary (.of main_call4_v1 : StableHlo.TRef sig ⟨S32768x3, .i1⟩) (.of main_v60 : StableHlo.TRef sig ⟨S32768x3, .f32⟩) (.of main_call4_v2 : StableHlo.TRef sig ⟨S32768x3, .f32⟩) (.of main_v62 : StableHlo.TRef sig ⟨S32768x3, .f32⟩) select ]

/-- The rest, from `reshape main_v62 main_v63` (statement %63) to the last transposition into `main_v126`, in order:
    no call among them. -/
abbrev opsT : List (HloOp τ sig (Elt F)) :=
  [ StableHlo.reshape main_v62 main_v63 rfl shapeCasts_S32768x3_S64x512x3,
    StableHlo.unary main_v43 main_v64 ((extractStridedSlice S64x512x1 ![0, 0, 0] · slices_S64x512x3_S64x512x1_0_0_0) : (⟨S64x512x3, .f32⟩ : BufTy).Contents (Elt F) → (⟨S64x512x1, .f32⟩ : BufTy).Contents (Elt F)),
    StableHlo.reshape main_v64 main_v65 rfl shapeCasts_S64x512x1_S64x512,
    StableHlo.unary main_v65 main_v66 (fptosi 32 : (⟨S64x512, .f32⟩ : BufTy).Contents (Elt F) → (⟨S64x512, .i32⟩ : BufTy).Contents (Elt F)),
    StableHlo.nullary main_c_16 (constantI S_ 32 0#32),
    StableHlo.unary main_c_16 main_v67 (broadcastInDim S64x512 ![] bcast_S_S64x512 : (⟨S_, .i32⟩ : BufTy).Contents (Elt F) → (⟨S64x512, .i32⟩ : BufTy).Contents (Elt F)),
    StableHlo.binary main_v66 main_v67 main_v68 (cmpi .slt : (⟨S64x512, .i32⟩ : BufTy).Contents (Elt F) → (⟨S64x512, .i32⟩ : BufTy).Contents (Elt F) → (⟨S64x512, .i1⟩ : BufTy).Contents (Elt F)),
    StableHlo.nullary main_c_17 (constantI S_ 32 513#32),
    StableHlo.unary main_c_17 main_v69 (broadcastInDim S64x512 ![] bcast_S_S64x512 : (⟨S_, .i32⟩ : BufTy).Contents (Elt F) → (⟨S64x512, .i32⟩ : BufTy).Contents (Elt F)),
    StableHlo.binary main_v66 main_v69 main_v70 (addi : (⟨S64x512, .i32⟩ : BufTy).Contents (Elt F) → (⟨S64x512, .i32⟩ : BufTy).Contents (Elt F) → (⟨S64x512, .i32⟩ : BufTy).Contents (Elt F)),
    StableHlo.ternary main_v68 main_v70 main_v66 main_v71 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    StableHlo.unary main_v71 main_v72 (broadcastInDim S64x512x1 ![0, 1] bcast_S64x512_S64x512x1_0_1 : (⟨S64x512, .i32⟩ : BufTy).Contents (Elt F) → (⟨S64x512x1, .i32⟩ : BufTy).Contents (Elt F)),
    StableHlo.binary main_arg4 main_v72 main_v73 ((fun x i => Host.gather gather_S513x512_S64x512x1_S64x512x512_2_0_n_n_0_2_1512 x i) : (⟨S513x512, .f32⟩ : BufTy).Contents (Elt F) → (⟨S64x512x1, .i32⟩ : BufTy).Contents (Elt F) → (⟨S64x512x512, .f32⟩ : BufTy).Contents (Elt F)),
    StableHlo.unary main_v43 main_v74 ((extractStridedSlice S64x512x1 ![0, 0, 1] · slices_S64x512x3_S64x512x1_0_0_1) : (⟨S64x512x3, .f32⟩ : BufTy).Contents (Elt F) → (⟨S64x512x1, .f32⟩ : BufTy).Contents (Elt F)),
    StableHlo.reshape main_v74 main_v75 rfl shapeCasts_S64x512x1_S64x512,
    StableHlo.unary main_v75 main_v76 (fptosi 32 : (⟨S64x512, .f32⟩ : BufTy).Contents (Elt F) → (⟨S64x512, .i32⟩ : BufTy).Contents (Elt F)),
    StableHlo.nullary main_c_18 (constantI S_ 32 0#32),
    StableHlo.unary main_c_18 main_v77 (broadcastInDim S64x512 ![] bcast_S_S64x512 : (⟨S_, .i32⟩ : BufTy).Contents (Elt F) → (⟨S64x512, .i32⟩ : BufTy).Contents (Elt F)),
    StableHlo.binary main_v76 main_v77 main_v78 (cmpi .slt : (⟨S64x512, .i32⟩ : BufTy).Contents (Elt F) → (⟨S64x512, .i32⟩ : BufTy).Contents (Elt F) → (⟨S64x512, .i1⟩ : BufTy).Contents (Elt F)),
    StableHlo.nullary main_c_19 (constantI S_ 32 513#32),
    StableHlo.unary main_c_19 main_v79 (broadcastInDim S64x512 ![] bcast_S_S64x512 : (⟨S_, .i32⟩ : BufTy).Contents (Elt F) → (⟨S64x512, .i32⟩ : BufTy).Contents (Elt F)),
    StableHlo.binary main_v76 main_v79 main_v80 (addi : (⟨S64x512, .i32⟩ : BufTy).Contents (Elt F) → (⟨S64x512, .i32⟩ : BufTy).Contents (Elt F) → (⟨S64x512, .i32⟩ : BufTy).Contents (Elt F)),
    StableHlo.ternary main_v78 main_v80 main_v76 main_v81 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    StableHlo.unary main_v81 main_v82 (broadcastInDim S64x512x1 ![0, 1] bcast_S64x512_S64x512x1_0_1 : (⟨S64x512, .i32⟩ : BufTy).Contents (Elt F) → (⟨S64x512x1, .i32⟩ : BufTy).Contents (Elt F)),
    StableHlo.binary main_arg5 main_v82 main_v83 ((fun x i => Host.gather gather_S513x512_S64x512x1_S64x512x512_2_0_n_n_0_2_1512 x i) : (⟨S513x512, .f32⟩ : BufTy).Contents (Elt F) → (⟨S64x512x1, .i32⟩ : BufTy).Contents (Elt F) → (⟨S64x512x512, .f32⟩ : BufTy).Contents (Elt F)),
    StableHlo.binary main_v73 main_v83 main_v84 ((fun a b => concatenate S64x512x1024 2 [⟨S64x512x512, a⟩, ⟨S64x512x512, b⟩] concatenates_S64x512x512_S64x512x512_S64x512x1024_d2) : (⟨S64x512x512, .f32⟩ : BufTy).Contents (Elt F) → (⟨S64x512x512, .f32⟩ : BufTy).Contents (Elt F) → (⟨S64x512x1024, .f32⟩ : BufTy).Contents (Elt F)),
    StableHlo.unary main_arg2 main_v85 ((transpose S64x512x3 [1, 0, 2] · transposes_S512x64x3_S64x512x3_1_0_2) : (⟨S512x64x3, .i32⟩ : BufTy).Contents (Elt F) → (⟨S64x512x3, .i32⟩ : BufTy).Contents (Elt F)),
    StableHlo.unary main_v85 main_v86 ((extractStridedSlice S64x512x1 ![0, 0, 0] · slices_S64x512x3_S64x512x1_0_0_0) : (⟨S64x512x3, .i32⟩ : BufTy).Contents (Elt F) → (⟨S64x512x1, .i32⟩ : BufTy).Contents (Elt F)),
    StableHlo.reshape main_v86 main_v87 rfl shapeCasts_S64x512x1_S64x512,
    StableHlo.nullary main_c_20 (constantI S_ 32 0#32),
    StableHlo.unary main_c_20 main_v88 (broadcastInDim S64x512 ![] bcast_S_S64x512 : (⟨S_, .i32⟩ : BufTy).Contents (Elt F) → (⟨S64x512, .i32⟩ : BufTy).Contents (Elt F)),
    StableHlo.binary main_v87 main_v88 main_v89 (cmpi .slt : (⟨S64x512, .i32⟩ : BufTy).Contents (Elt F) → (⟨S64x512, .i32⟩ : BufTy).Contents (Elt F) → (⟨S64x512, .i1⟩ : BufTy).Contents (Elt F)),
    StableHlo.nullary main_c_21 (constantI S_ 32 513#32),
    StableHlo.unary main_c_21 main_v90 (broadcastInDim S64x512 ![] bcast_S_S64x512 : (⟨S_, .i32⟩ : BufTy).Contents (Elt F) → (⟨S64x512, .i32⟩ : BufTy).Contents (Elt F)),
    StableHlo.binary main_v87 main_v90 main_v91 (addi : (⟨S64x512, .i32⟩ : BufTy).Contents (Elt F) → (⟨S64x512, .i32⟩ : BufTy).Contents (Elt F) → (⟨S64x512, .i32⟩ : BufTy).Contents (Elt F)),
    StableHlo.ternary main_v89 main_v91 main_v87 main_v92 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    StableHlo.unary main_v92 main_v93 (broadcastInDim S64x512x1 ![0, 1] bcast_S64x512_S64x512x1_0_1 : (⟨S64x512, .i32⟩ : BufTy).Contents (Elt F) → (⟨S64x512x1, .i32⟩ : BufTy).Contents (Elt F)),
    StableHlo.binary main_arg4 main_v93 main_v94 ((fun x i => Host.gather gather_S513x512_S64x512x1_S64x512x512_2_0_n_n_0_2_1512 x i) : (⟨S513x512, .f32⟩ : BufTy).Contents (Elt F) → (⟨S64x512x1, .i32⟩ : BufTy).Contents (Elt F) → (⟨S64x512x512, .f32⟩ : BufTy).Contents (Elt F)),
    StableHlo.unary main_v85 main_v95 ((extractStridedSlice S64x512x1 ![0, 0, 1] · slices_S64x512x3_S64x512x1_0_0_1) : (⟨S64x512x3, .i32⟩ : BufTy).Contents (Elt F) → (⟨S64x512x1, .i32⟩ : BufTy).Contents (Elt F)),
    StableHlo.reshape main_v95 main_v96 rfl shapeCasts_S64x512x1_S64x512,
    StableHlo.nullary main_c_22 (constantI S_ 32 0#32),
    StableHlo.unary main_c_22 main_v97 (broadcastInDim S64x512 ![] bcast_S_S64x512 : (⟨S_, .i32⟩ : BufTy).Contents (Elt F) → (⟨S64x512, .i32⟩ : BufTy).Contents (Elt F)),
    StableHlo.binary main_v96 main_v97 main_v98 (cmpi .slt : (⟨S64x512, .i32⟩ : BufTy).Contents (Elt F) → (⟨S64x512, .i32⟩ : BufTy).Contents (Elt F) → (⟨S64x512, .i1⟩ : BufTy).Contents (Elt F)),
    StableHlo.nullary main_c_23 (constantI S_ 32 513#32),
    StableHlo.unary main_c_23 main_v99 (broadcastInDim S64x512 ![] bcast_S_S64x512 : (⟨S_, .i32⟩ : BufTy).Contents (Elt F) → (⟨S64x512, .i32⟩ : BufTy).Contents (Elt F)),
    StableHlo.binary main_v96 main_v99 main_v100 (addi : (⟨S64x512, .i32⟩ : BufTy).Contents (Elt F) → (⟨S64x512, .i32⟩ : BufTy).Contents (Elt F) → (⟨S64x512, .i32⟩ : BufTy).Contents (Elt F)),
    StableHlo.ternary main_v98 main_v100 main_v96 main_v101 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    StableHlo.unary main_v101 main_v102 (broadcastInDim S64x512x1 ![0, 1] bcast_S64x512_S64x512x1_0_1 : (⟨S64x512, .i32⟩ : BufTy).Contents (Elt F) → (⟨S64x512x1, .i32⟩ : BufTy).Contents (Elt F)),
    StableHlo.binary main_arg5 main_v102 main_v103 ((fun x i => Host.gather gather_S513x512_S64x512x1_S64x512x512_2_0_n_n_0_2_1512 x i) : (⟨S513x512, .f32⟩ : BufTy).Contents (Elt F) → (⟨S64x512x1, .i32⟩ : BufTy).Contents (Elt F) → (⟨S64x512x512, .f32⟩ : BufTy).Contents (Elt F)),
    StableHlo.binary main_v94 main_v103 main_v104 ((fun a b => concatenate S64x512x1024 2 [⟨S64x512x512, a⟩, ⟨S64x512x512, b⟩] concatenates_S64x512x512_S64x512x512_S64x512x1024_d2) : (⟨S64x512x512, .f32⟩ : BufTy).Contents (Elt F) → (⟨S64x512x512, .f32⟩ : BufTy).Contents (Elt F) → (⟨S64x512x1024, .f32⟩ : BufTy).Contents (Elt F)),
    StableHlo.unary main_v104 main_v105 ((transpose S512x64x1024 [1, 0, 2] · transposes_S64x512x1024_S512x64x1024_1_0_2) : (⟨S64x512x1024, .f32⟩ : BufTy).Contents (Elt F) → (⟨S512x64x1024, .f32⟩ : BufTy).Contents (Elt F)),
    StableHlo.unary main_arg3 main_v106 ((transpose S64x512x3 [1, 0, 2] · transposes_S512x64x3_S64x512x3_1_0_2) : (⟨S512x64x3, .i32⟩ : BufTy).Contents (Elt F) → (⟨S64x512x3, .i32⟩ : BufTy).Contents (Elt F)),
    StableHlo.unary main_v106 main_v107 ((extractStridedSlice S64x512x1 ![0, 0, 0] · slices_S64x512x3_S64x512x1_0_0_0) : (⟨S64x512x3, .i32⟩ : BufTy).Contents (Elt F) → (⟨S64x512x1, .i32⟩ : BufTy).Contents (Elt F)),
    StableHlo.reshape main_v107 main_v108 rfl shapeCasts_S64x512x1_S64x512,
    StableHlo.nullary main_c_24 (constantI S_ 32 0#32),
    StableHlo.unary main_c_24 main_v109 (broadcastInDim S64x512 ![] bcast_S_S64x512 : (⟨S_, .i32⟩ : BufTy).Contents (Elt F) → (⟨S64x512, .i32⟩ : BufTy).Contents (Elt F)),
    StableHlo.binary main_v108 main_v109 main_v110 (cmpi .slt : (⟨S64x512, .i32⟩ : BufTy).Contents (Elt F) → (⟨S64x512, .i32⟩ : BufTy).Contents (Elt F) → (⟨S64x512, .i1⟩ : BufTy).Contents (Elt F)),
    StableHlo.nullary main_c_25 (constantI S_ 32 513#32),
    StableHlo.unary main_c_25 main_v111 (broadcastInDim S64x512 ![] bcast_S_S64x512 : (⟨S_, .i32⟩ : BufTy).Contents (Elt F) → (⟨S64x512, .i32⟩ : BufTy).Contents (Elt F)),
    StableHlo.binary main_v108 main_v111 main_v112 (addi : (⟨S64x512, .i32⟩ : BufTy).Contents (Elt F) → (⟨S64x512, .i32⟩ : BufTy).Contents (Elt F) → (⟨S64x512, .i32⟩ : BufTy).Contents (Elt F)),
    StableHlo.ternary main_v110 main_v112 main_v108 main_v113 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    StableHlo.unary main_v113 main_v114 (broadcastInDim S64x512x1 ![0, 1] bcast_S64x512_S64x512x1_0_1 : (⟨S64x512, .i32⟩ : BufTy).Contents (Elt F) → (⟨S64x512x1, .i32⟩ : BufTy).Contents (Elt F)),
    StableHlo.binary main_arg4 main_v114 main_v115 ((fun x i => Host.gather gather_S513x512_S64x512x1_S64x512x512_2_0_n_n_0_2_1512 x i) : (⟨S513x512, .f32⟩ : BufTy).Contents (Elt F) → (⟨S64x512x1, .i32⟩ : BufTy).Contents (Elt F) → (⟨S64x512x512, .f32⟩ : BufTy).Contents (Elt F)),
    StableHlo.unary main_v106 main_v116 ((extractStridedSlice S64x512x1 ![0, 0, 1] · slices_S64x512x3_S64x512x1_0_0_1) : (⟨S64x512x3, .i32⟩ : BufTy).Contents (Elt F) → (⟨S64x512x1, .i32⟩ : BufTy).Contents (Elt F)),
    StableHlo.reshape main_v116 main_v117 rfl shapeCasts_S64x512x1_S64x512,
    StableHlo.nullary main_c_26 (constantI S_ 32 0#32),
    StableHlo.unary main_c_26 main_v118 (broadcastInDim S64x512 ![] bcast_S_S64x512 : (⟨S_, .i32⟩ : BufTy).Contents (Elt F) → (⟨S64x512, .i32⟩ : BufTy).Contents (Elt F)),
    StableHlo.binary main_v117 main_v118 main_v119 (cmpi .slt : (⟨S64x512, .i32⟩ : BufTy).Contents (Elt F) → (⟨S64x512, .i32⟩ : BufTy).Contents (Elt F) → (⟨S64x512, .i1⟩ : BufTy).Contents (Elt F)),
    StableHlo.nullary main_c_27 (constantI S_ 32 513#32),
    StableHlo.unary main_c_27 main_v120 (broadcastInDim S64x512 ![] bcast_S_S64x512 : (⟨S_, .i32⟩ : BufTy).Contents (Elt F) → (⟨S64x512, .i32⟩ : BufTy).Contents (Elt F)),
    StableHlo.binary main_v117 main_v120 main_v121 (addi : (⟨S64x512, .i32⟩ : BufTy).Contents (Elt F) → (⟨S64x512, .i32⟩ : BufTy).Contents (Elt F) → (⟨S64x512, .i32⟩ : BufTy).Contents (Elt F)),
    StableHlo.ternary main_v119 main_v121 main_v117 main_v122 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    StableHlo.unary main_v122 main_v123 (broadcastInDim S64x512x1 ![0, 1] bcast_S64x512_S64x512x1_0_1 : (⟨S64x512, .i32⟩ : BufTy).Contents (Elt F) → (⟨S64x512x1, .i32⟩ : BufTy).Contents (Elt F)),
    StableHlo.binary main_arg5 main_v123 main_v124 ((fun x i => Host.gather gather_S513x512_S64x512x1_S64x512x512_2_0_n_n_0_2_1512 x i) : (⟨S513x512, .f32⟩ : BufTy).Contents (Elt F) → (⟨S64x512x1, .i32⟩ : BufTy).Contents (Elt F) → (⟨S64x512x512, .f32⟩ : BufTy).Contents (Elt F)),
    StableHlo.binary main_v115 main_v124 main_v125 ((fun a b => concatenate S64x512x1024 2 [⟨S64x512x512, a⟩, ⟨S64x512x512, b⟩] concatenates_S64x512x512_S64x512x512_S64x512x1024_d2) : (⟨S64x512x512, .f32⟩ : BufTy).Contents (Elt F) → (⟨S64x512x512, .f32⟩ : BufTy).Contents (Elt F) → (⟨S64x512x1024, .f32⟩ : BufTy).Contents (Elt F)),
    StableHlo.unary main_v125 main_v126 ((transpose S512x64x1024 [1, 0, 2] · transposes_S64x512x1024_S512x64x1024_1_0_2) : (⟨S64x512x1024, .f32⟩ : BufTy).Contents (Elt F) → (⟨S512x64x1024, .f32⟩ : BufTy).Contents (Elt F)) ]

/-- Each operation of the first part touches TensorCore references only: one fact per operation, by its arity. -/
theorem opsP_sub : (opsP : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., binary_bufs_sub .., nullary_bufs_sub .., unary_bufs_sub .., nullary_bufs_sub ..,
    unary_bufs_sub .., binary_bufs_sub .., unary_bufs_sub .., binary_bufs_sub .., nullary_bufs_sub .., unary_bufs_sub ..,
    unary_bufs_sub .., ternary_bufs_sub .., nullary_bufs_sub .., unary_bufs_sub .., unary_bufs_sub .., reshape_bufs_sub ..,
    reshape_bufs_sub .., nullary_bufs_sub .., unary_bufs_sub .., unary_bufs_sub .., ternary_bufs_sub .., unary_bufs_sub ..,
    nullary_bufs_sub .., unary_bufs_sub .., binary_bufs_sub .., nullary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., unary_bufs_sub .., binary_bufs_sub .., binary_bufs_sub ..,
    reshape_bufs_sub .., unary_bufs_sub .., reshape_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., unary_bufs_sub .., ternary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., binary_bufs_sub .., binary_bufs_sub .., binary_bufs_sub .., unary_bufs_sub ..,
    nullary_bufs_sub .., unary_bufs_sub .., unary_bufs_sub .., unary_bufs_sub .., ternary_bufs_sub ..⟩

/-- Each operation of the second part touches TensorCore references only. -/
theorem opsT_sub : (opsT : List (HloOp τ sig (Elt F))).Forall fun op => op.bufs ⊆ tcRefs τ sig :=
  ⟨reshape_bufs_sub .., unary_bufs_sub .., reshape_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., reshape_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub ..⟩

end Cert.ReferenceIdeal.Run

end
-- ==== Proof.RefRun.lean ====
/-
  The reference program's run, read back as a fold of its host operations.

  The reference is a straight line on one TensorCore: 157 statements, five of them calls of module-local
  functions. With each call replaced by the callee's operations at the call's own buffers the program is one list of
  183 operations, given in two parts: `opsP` (everything through the second masked select of rows, the value %62)
  and `opsT` (the table lookups by row, their concatenations and the transpositions).

  `main_eq` says the program IS that list run in order; `ops_sub` that every operation touches TensorCore buffers
  only; `run_main` that every weakly fair execution from any memory with zero counters terminates with each
  TensorCore buffer at the fold of `opsT` over the fold of `opsP` over the launch contents.
-/
import proofs.«401964_j4724464025663_2_alg».proof.Proof.RefOps
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main is that straight line. Its three windows run in order; a call is its callee's body at the call's record,
    whose fields are the literal buffers; sequencing is associative and a finished callee (`pure ⟨⟩`) continues with
    the caller's next line: all of it by unfolding, so both sides are the same chain of `hlo` steps. -/
theorem main_eq (c : Dev nD) : main (F := F) c = seq (opsP ++ opsT) := rfl

/-- The signature scopes no TensorCore buffer: every buffer is a tensor value's, live for the whole run. -/
theorem scopedRefs_eq : (Finset.univ.filter fun b : Ref sig .tc => b.isScoped) = ∅ := by decide
/-- Nor a semaphore cell. -/
theorem scopedSems_eq : (Finset.univ.filter fun sm : SemLoc sig => sm.isScoped .tc) = ∅ := by decide

/-- Each operation of the whole line touches TensorCore references only: a property of every element of a
    concatenation is the property of every element of each part. -/
theorem ops_sub : (opsP ++ opsT : List (HloOp τ sig (Elt F))).Forall fun op => op.bufs ⊆ tcRefs τ sig :=
  List.forall_append.2 ⟨opsP_sub, opsT_sub⟩

/-- The fold of a concatenation is the second part's fold over the first part's: the fold threads the contents
    through the operations left to right, so by induction on the first list. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- At the compiled mesh, for any float values, from any memory with zero counters: every weakly fair execution of
    @main on the TensorCores terminates, and every final state has each TensorCore buffer at the second part's fold
    over the first part's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsT (after opsP (launchContents m c)) (b : DevRef τ sig) :=
  (θ_run defs _ _).mono
    (fun _ h c b => (h c b).trans (congrFun (after_append opsP opsT (launchContents m c)) (b : DevRef τ sig)))
    (run_seq scopedRefs_eq scopedSems_eq defs main (fun _ => opsP ++ opsT) main_eq (fun _ => ops_sub) m ρ)

end Cert.ReferenceIdeal.Run

end
-- ==== Proof.HostR.lean ====
/-
  The reference program after its shared first part, as named terms.

  From the scattered grid triples (statement %43) the reference takes column 0 and column 1, converts them to integers,
  and for each looks rows up in a 513-row table: a negative index is first moved up by 513 (the wrap-around reading of
  a negative position), and the lookup itself keeps the start row inside the table. The two lookups are laid side by
  side, 512 + 512 columns. For the other two index inputs, given as [512, 64, 3] integers, the same is done on the
  array with its first two axes exchanged, and the result is exchanged back.
-/
import proofs.«401964_j4724464025663_2_alg».proof.Proof.Gen.ReferenceIdeal
import Idealize.ShloMosaic.Lib.StableHlo.Run

set_option maxRecDepth 16384

noncomputable section

namespace Cert.ReferenceIdeal.Host

open Cert.ReferenceIdeal Cert.ReferenceIdeal.Gen
open Idealize.ShloMosaic Idealize.ShloMosaic.TcCoe Idealize.SL.Sem Idealize.ShloMosaic.StableHlo

variable {F : FTy → Type} [FloatOps F]

/-! ## The terms -/

/-- A negative index word moved up by the table's 513 rows; any other word kept. -/
def wrap513 (x : IVec S64x512 32) : IVec S64x512 32 :=
  select (cmpi .slt x (broadcastInDim S64x512 ![] bcast_S_S64x512 (constantI S_ 32 0#32)))
    (addi x (broadcastInDim S64x512 ![] bcast_S_S64x512 (constantI S_ 32 513#32))) x

/-- The table's rows at the wrapped indices: entry (b, t, d) is the table at the row index (b, t) names, column d. -/
def rows (E : FVec F S513x512 .f32) (x : IVec S64x512 32) : FVec F S64x512x512 .f32 :=
  Host.gather gather_S513x512_S64x512x1_S64x512x512_2_0_n_n_0_2_1512 E
    (broadcastInDim S64x512x1 ![0, 1] bcast_S64x512_S64x512x1_0_1 (wrap513 x))

/-- The first table's rows at `x` beside the second table's rows at `y`. -/
def embPair (E1 E2 : FVec F S513x512 .f32) (x y : IVec S64x512 32) : FVec F S64x512x1024 .f32 :=
  concatenate S64x512x1024 2 [⟨S64x512x512, rows E1 x⟩, ⟨S64x512x512, rows E2 y⟩]
    concatenates_S64x512x512_S64x512x512_S64x512x1024_d2

/-- Column 0 of a [64, 512, 3] array of floats, converted to integers. -/
def colOfGrid0 (g : FVec F S64x512x3 .f32) : IVec S64x512 32 :=
  fptosi 32 (shapeCast S64x512 (extractStridedSlice S64x512x1 ![0, 0, 0] g slices_S64x512x3_S64x512x1_0_0_0) shapeCasts_S64x512x1_S64x512)

/-- Column 1 of a [64, 512, 3] array of floats, converted to integers. -/
def colOfGrid1 (g : FVec F S64x512x3 .f32) : IVec S64x512 32 :=
  fptosi 32 (shapeCast S64x512 (extractStridedSlice S64x512x1 ![0, 0, 1] g slices_S64x512x3_S64x512x1_0_0_1) shapeCasts_S64x512x1_S64x512)

/-- Column 0 of a [512, 64, 3] array of integers, its first two axes exchanged. -/
def colOfInts0 (g : IVec S512x64x3 32) : IVec S64x512 32 :=
  shapeCast S64x512
    (extractStridedSlice S64x512x1 ![0, 0, 0] (transpose S64x512x3 [1, 0, 2] g transposes_S512x64x3_S64x512x3_1_0_2)
      slices_S64x512x3_S64x512x1_0_0_0)
    shapeCasts_S64x512x1_S64x512

/-- Column 1 of a [512, 64, 3] array of integers, its first two axes exchanged. -/
def colOfInts1 (g : IVec S512x64x3 32) : IVec S64x512 32 :=
  shapeCast S64x512
    (extractStridedSlice S64x512x1 ![0, 0, 1] (transpose S64x512x3 [1, 0, 2] g transposes_S512x64x3_S64x512x3_1_0_2)
      slices_S64x512x3_S64x512x1_0_0_1)
    shapeCasts_S64x512x1_S64x512

/-- The lookup result of a [512, 64, 3] index input: computed on the exchanged array and exchanged back. -/
def embPairT (E1 E2 : FVec F S513x512 .f32) (g : IVec S512x64x3 32) : FVec F S512x64x1024 .f32 :=
  transpose S512x64x1024 [1, 0, 2] (embPair E1 E2 (colOfInts0 g) (colOfInts1 g)) transposes_S64x512x1024_S512x64x1024_1_0_2

end Cert.ReferenceIdeal.Host

end
-- ==== Proof.FoldTac.lean ====
/-
  Evaluating a fold of host operations in one simplifier pass, also through a two-piece concatenation.

  The library's one-pass evaluation rewrites each operation's result at its own buffer and passes over it at any other,
  but it does not reach the pieces of a concatenation, which sit inside a list of (shape, array) pairs. Stating the
  two-piece concatenation through a function that takes the pieces as plain arguments lets the same pass rewrite them.
-/
import Idealize.ShloMosaic.Lib.StableHlo.Run

noncomputable section

namespace Cert.Fold

open Idealize.ShloMosaic

/-- Two pieces laid side by side along an axis, the pieces as plain arguments. -/
def cat2 {α : Type} (S : Shape) (a : Fin S.rank) (S1 S2 : Shape) (h : Shape.Concatenates [S1, S2] S a)
    (x : S1.Idx → α) (y : S2.Idx → α) : S.Idx → α :=
  concatenate S a [⟨S1, x⟩, ⟨S2, y⟩] h

/-- A two-piece concatenation is `cat2` of its pieces. -/
theorem concatenate_pair_eq {α : Type} (S : Shape) (a : Fin S.rank) (S1 S2 : Shape) (h : Shape.Concatenates [S1, S2] S a)
    (x : S1.Idx → α) (y : S2.Idx → α) : concatenate S a [⟨S1, x⟩, ⟨S2, y⟩] h = cat2 S a S1 S2 h x y := rfl

end Cert.Fold

/-- The fold of a literal list of host operations at one buffer, evaluated in one simplifier pass, two-piece
    concatenations included (they are left as `Cert.Fold.cat2` of their evaluated pieces). -/
macro "fold_results" : tactic =>
  `(tactic| (simp (disch := decide) only [Idealize.ShloMosaic.StableHlo.after_cons, Idealize.ShloMosaic.StableHlo.after_nil,
      Cert.Fold.concatenate_pair_eq,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne']))

end
-- ==== Proof.EvalR.lean ====
/-
  The fold of the reference's operations after its shared first part holds the named terms of the lookups: the three
  embedding results and the scattered positions, over the contents at the end of the first part.
-/
import proofs.«401964_j4724464025663_2_alg».proof.Proof.HostR
import proofs.«401964_j4724464025663_2_alg».proof.Proof.RefOps
import proofs.«401964_j4724464025663_2_alg».proof.Proof.FoldTac

set_option maxRecDepth 16384

noncomputable section

namespace Cert.ReferenceIdeal.Host

open Cert.ReferenceIdeal Cert.ReferenceIdeal.Gen Cert.ReferenceIdeal.Run
open Idealize.ShloMosaic Idealize.ShloMosaic.TcCoe Idealize.SL.Sem Idealize.ShloMosaic.StableHlo

variable {F : FTy → Type} [FloatOps F]

set_option maxHeartbeats 8000000 in
/-- The first result: both columns of the scattered grid looked up. -/
theorem tail_v84 (Y : Valuation τ sig (Elt F)) :
    after opsT Y (Proc.devRef .tc main_v84)
      = embPair (Y (Proc.devRef .tc main_arg4)) (Y (Proc.devRef .tc main_arg5))
          (colOfGrid0 (Y (Proc.devRef .tc main_v43))) (colOfGrid1 (Y (Proc.devRef .tc main_v43))) := by
  unfold embPair rows wrap513 colOfGrid0 colOfGrid1
  fold_results
  rfl

set_option maxHeartbeats 8000000 in
/-- The second result: the second index input looked up. -/
theorem tail_v105 (Y : Valuation τ sig (Elt F)) :
    after opsT Y (Proc.devRef .tc main_v105)
      = embPairT (Y (Proc.devRef .tc main_arg4)) (Y (Proc.devRef .tc main_arg5)) (Y (Proc.devRef .tc main_arg2)) := by
  unfold embPairT embPair rows wrap513 colOfInts0 colOfInts1
  fold_results
  rfl

set_option maxHeartbeats 8000000 in
/-- The third result: the third index input looked up. -/
theorem tail_v126 (Y : Valuation τ sig (Elt F)) :
    after opsT Y (Proc.devRef .tc main_v126)
      = embPairT (Y (Proc.devRef .tc main_arg4)) (Y (Proc.devRef .tc main_arg5)) (Y (Proc.devRef .tc main_arg3)) := by
  unfold embPairT embPair rows wrap513 colOfInts0 colOfInts1
  fold_results
  rfl

set_option maxHeartbeats 8000000 in
/-- The fourth result: the scattered positions, reshaped. -/
theorem tail_v63 (Y : Valuation τ sig (Elt F)) :
    after opsT Y (Proc.devRef .tc main_v63)
      = shapeCast S64x512x3 (Y (Proc.devRef .tc main_v62)) shapeCasts_S32768x3_S64x512x3 := by
  after_results_simp
  rfl

/-! ## Neither part writes an argument -/

set_option maxHeartbeats 8000000 in
theorem tail_arg0 (Y : Valuation τ sig (Elt F)) : after opsT Y (Proc.devRef .tc main_arg0) = Y (Proc.devRef .tc main_arg0) := by after_results_simp
set_option maxHeartbeats 8000000 in
theorem tail_arg1 (Y : Valuation τ sig (Elt F)) : after opsT Y (Proc.devRef .tc main_arg1) = Y (Proc.devRef .tc main_arg1) := by after_results_simp
set_option maxHeartbeats 8000000 in
theorem tail_arg2 (Y : Valuation τ sig (Elt F)) : after opsT Y (Proc.devRef .tc main_arg2) = Y (Proc.devRef .tc main_arg2) := by after_results_simp
set_option maxHeartbeats 8000000 in
theorem tail_arg3 (Y : Valuation τ sig (Elt F)) : after opsT Y (Proc.devRef .tc main_arg3) = Y (Proc.devRef .tc main_arg3) := by after_results_simp
set_option maxHeartbeats 8000000 in
theorem tail_arg4 (Y : Valuation τ sig (Elt F)) : after opsT Y (Proc.devRef .tc main_arg4) = Y (Proc.devRef .tc main_arg4) := by after_results_simp
set_option maxHeartbeats 8000000 in
theorem tail_arg5 (Y : Valuation τ sig (Elt F)) : after opsT Y (Proc.devRef .tc main_arg5) = Y (Proc.devRef .tc main_arg5) := by after_results_simp

set_option maxHeartbeats 8000000 in
theorem pref_arg0 (Y : Valuation τ sig (Elt F)) : after opsP Y (Proc.devRef .tc main_arg0) = Y (Proc.devRef .tc main_arg0) := by after_results_simp
set_option maxHeartbeats 8000000 in
theorem pref_arg1 (Y : Valuation τ sig (Elt F)) : after opsP Y (Proc.devRef .tc main_arg1) = Y (Proc.devRef .tc main_arg1) := by after_results_simp
set_option maxHeartbeats 8000000 in
theorem pref_arg2 (Y : Valuation τ sig (Elt F)) : after opsP Y (Proc.devRef .tc main_arg2) = Y (Proc.devRef .tc main_arg2) := by after_results_simp
set_option maxHeartbeats 8000000 in
theorem pref_arg3 (Y : Valuation τ sig (Elt F)) : after opsP Y (Proc.devRef .tc main_arg3) = Y (Proc.devRef .tc main_arg3) := by after_results_simp
set_option maxHeartbeats 8000000 in
theorem pref_arg4 (Y : Valuation τ sig (Elt F)) : after opsP Y (Proc.devRef .tc main_arg4) = Y (Proc.devRef .tc main_arg4) := by after_results_simp
set_option maxHeartbeats 8000000 in
theorem pref_arg5 (Y : Valuation τ sig (Elt F)) : after opsP Y (Proc.devRef .tc main_arg5) = Y (Proc.devRef .tc main_arg5) := by after_results_simp

end Cert.ReferenceIdeal.Host

end
-- ==== Proof.BridgeR.lean ====
/-
  The reference side, entry by entry.

  The reference looks a row of a 513-row table up by a gather whose start row is the index word, moved up by 513 when
  it is negative and then kept inside the table. On an index word in the range 0 .. 512 neither correction does
  anything, so entry (b, t, q) of the gathered array is the table at the row the word names, column q. Two such
  gathers laid side by side along the last axis are the target entry of the specification. The remaining lemmas are
  the index maps of the column extractions (a slice of the last axis followed by dropping the unit axis, for the integer
  inputs after exchanging the first two axes) and of the final exchange of axes.
-/
import proofs.«401964_j4724464025663_2_alg».proof.Proof.HostR
import proofs.«401964_j4724464025663_2_alg».proof.Proof.Spec
import proofs.«401964_j4724464025663_2_alg».proof.Proof.TableMath
import Idealize.ShloMosaic.Lib.ValueIdx
import Idealize.ShloMosaic.Lib.Pipeline.Value
import Idealize.ShloMosaic.Lib.ValueLayout

set_option maxRecDepth 16384

noncomputable section

namespace Cert.ReferenceIdeal.BridgeR

open Cert.ReferenceIdeal Cert.ReferenceIdeal.Gen Cert.ReferenceIdeal.Host Cert.Embed
open Idealize.ShloMosaic Idealize.ShloMosaic.ValueIdx

/-! ## The gather -/

/-- The start indices of the gather at (b, t, 0): the index word at (b, t), which the wrap of negative indices keeps
    because it is not negative. -/
theorem startIdx_apply (x : IVec S64x512 32) (b : Fin 64) (t : Fin 512) (h0 : 0 ≤ (x (ix2 b t)).toInt) :
    broadcastInDim S64x512x1 ![0, 1] bcast_S64x512_S64x512x1_0_1 (wrap513 x) (ix3 b t (0 : Fin 1)) = x (ix2 b t) := by
  rw [broadcastInDim_apply _ bcast_S64x512_S64x512x1_0_1 (wrap513 x) (ix3 b t (0 : Fin 1)) (ix2 b t) fun a =>
    match a with
    | ⟨0, _⟩ => by show b.val = if (64 : ℕ) = 1 then 0 else b.val; rw [if_neg (by decide)]
    | ⟨1, _⟩ => by show t.val = if (512 : ℕ) = 1 then 0 else t.val; rw [if_neg (by decide)]]
  unfold wrap513
  exact select_wrap_apply _ _ x (ix2 b t) rfl rfl h0

/-- THE GATHER READ AT AN ENTRY: with the index word at (b, t) inside [0, 512], entry (b, t, q) of `rows E x` is the
    table at that row, column q -/
theorem rows_apply (E : FVec Ideal S513x512 .f32) (x : IVec S64x512 32) (b : Fin 64) (t : Fin 512) (q : Fin 512)
    (hx : 0 ≤ (x (ix2 b t)).toInt ∧ (x (ix2 b t)).toInt ≤ 512) :
    rows E x (ix3 b t q) = E (ix2 (rowOf (x (ix2 b t))) q) := by
  unfold rows Host.gather
  refine congrArg E (funext fun a => Fin.ext ?_)
  match a with
  | ⟨0, _⟩ =>
    show GatherDims.start _ _ _ 0 + GatherDims.batchCoord _ _ 0 + GatherDims.offCoord _ _ 0 = min (x (ix2 b t)).toNat 512
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S513x512_S64x512x1_S64x512x512_2_0_n_n_0_2_1512.startIndexMap from
      List.mem_singleton.mpr rfl)]
    have hsi : gather_S513x512_S64x512x1_S64x512x512_2_0_n_n_0_2_1512.siIdx (ix3 b t q)
        ⟨List.idxOf (0 : Fin 2) gather_S513x512_S64x512x1_S64x512x512_2_0_n_n_0_2_1512.startIndexMap,
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi, startIdx_apply x b t hx.1]
    have hr := toNat_of_range (x (ix2 b t)) hx.1 hx.2
    show min (x (ix2 b t)).toInt.toNat (513 - 1) = min (x (ix2 b t)).toNat 512
    omega
  | ⟨1, _⟩ =>
    show GatherDims.start _ _ _ 1 + GatherDims.batchCoord _ _ 1 + GatherDims.offCoord _ _ 1 = q.val
    rw [GatherDims.batchCoord_eq_zero _ _ _ List.not_mem_nil]
    unfold GatherDims.start
    rw [dif_neg (by decide)]
    unfold GatherDims.offCoord
    rw [dif_pos (by decide)]
    show 0 + 0 + q.val = q.val
    omega

/-! ## The two gathers side by side -/

/-- the two gathers side by side are the target entry -/
theorem embPair_table (E1 E2 : FVec Ideal S513x512 .f32) (x y : IVec S64x512 32) (b : Fin 64) (t : Fin 512) (d : Fin 1024)
    (hx : 0 ≤ (x (ix2 b t)).toInt ∧ (x (ix2 b t)).toInt ≤ 512) (hy : 0 ≤ (y (ix2 b t)).toInt ∧ (y (ix2 b t)).toInt ≤ 512) :
    embPair E1 E2 x y (ix3 b t d) = tgt E1 E2 (x (ix2 b t)) (y (ix2 b t)) d := by
  unfold embPair tgt
  by_cases h : d.val < 512
  · -- a column of the first piece
    rw [dif_pos h]
    refine (concatenate_pair_apply_left _ (rows E1 x) (rows E2 y) concatenates_S64x512x512_S64x512x512_S64x512x1024_d2
      (ix3 b t d) rfl (ix3 b t (⟨d.val, h⟩ : Fin 512)) fun c => ?_).trans (rows_apply E1 x b t ⟨d.val, h⟩ hx)
    match c with
    | ⟨0, _⟩ => rfl
    | ⟨1, _⟩ => rfl
    | ⟨2, _⟩ => rfl
  · -- a column of the second piece, 512 further along
    rw [dif_neg h]
    have hd : d.val - 512 < 512 := by have := d.isLt; omega
    refine (concatenate_pair_apply_right _ (rows E1 x) (rows E2 y) concatenates_S64x512x512_S64x512x512_S64x512x1024_d2
      (ix3 b t d) rfl rfl (ix3 b t (⟨d.val - 512, hd⟩ : Fin 512)) (fun c hc => ?_) ?_).trans
      (rows_apply E2 y b t ⟨d.val - 512, hd⟩ hy)
    · match c, hc with
      | ⟨0, _⟩, _ => rfl
      | ⟨1, _⟩, _ => rfl
      | ⟨2, _⟩, hc => exact absurd rfl hc
    · show d.val - 512 + 512 = d.val
      omega

/-! ## The column extractions and the exchange of axes -/

/-- Column `c` of a [64, 512, 3] array, as a [64, 512] array: the slice of the last axis at offset `c` with its unit
    axis dropped reads the array at (b, t, c). -/
theorem col_apply {α : Type} (c : Fin 3) (g : S64x512x3.Idx → α) (hs : S64x512x3.Slices ![0, 0, c.val] S64x512x1)
    (b : Fin 64) (t : Fin 512) :
    shapeCast S64x512 (extractStridedSlice S64x512x1 ![0, 0, c.val] g hs) shapeCasts_S64x512x1_S64x512 (ix2 b t)
      = g (ix3 b t c) := by
  -- dropping the unit axis keeps the row-major position: (b * 512 + t) * 1 + 0 = b * 512 + t
  rw [shapeCast_apply _ shapeCasts_S64x512x1_S64x512 (ix2 b t) (ix3 b t (0 : Fin 1))
    (by rw [Shape.rowMajor_val_three, Shape.rowMajor_val_two]; show (b.val * 512 + t.val) * 1 + 0 = b.val * 512 + t.val; omega)]
  -- the slice shifts the last coordinate by `c` and the other two by nothing
  exact extractStridedSlice_apply _ g hs (ix3 b t (0 : Fin 1)) (ix3 b t c) fun a =>
    match a with
    | ⟨0, _⟩ => by show b.val = 0 + b.val; omega
    | ⟨1, _⟩ => by show t.val = 0 + t.val; omega
    | ⟨2, _⟩ => by show c.val = c.val + 0; omega

/-- Column 0 of the float triples, converted: the conversion of the entry (b, t, 0). -/
theorem colOfGrid0_apply (g : FVec Ideal S64x512x3 .f32) (b : Fin 64) (t : Fin 512) :
    colOfGrid0 g (ix2 b t) = FloatOps.fptosi (F := Ideal) 32 (g (ix3 b t 0)) := by
  show FloatOps.fptosi (F := Ideal) 32 _ = _
  exact congrArg _ (col_apply 0 g slices_S64x512x3_S64x512x1_0_0_0 b t)

/-- Column 1 of the float triples, converted: the conversion of the entry (b, t, 1). -/
theorem colOfGrid1_apply (g : FVec Ideal S64x512x3 .f32) (b : Fin 64) (t : Fin 512) :
    colOfGrid1 g (ix2 b t) = FloatOps.fptosi (F := Ideal) 32 (g (ix3 b t 1)) := by
  show FloatOps.fptosi (F := Ideal) 32 _ = _
  exact congrArg _ (col_apply 1 g slices_S64x512x3_S64x512x1_0_0_1 b t)

/-- The exchange of the first two axes of a [512, 64, 3] array read at (b, a, c) is the array at (a, b, c). -/
theorem swap3_apply {α : Type} (g : S512x64x3.Idx → α) (b : Fin 64) (a : Fin 512) (c : Fin 3) :
    transpose S64x512x3 [1, 0, 2] g transposes_S512x64x3_S64x512x3_1_0_2 (ix3 b a c) = g (ix3 a b c) :=
  transpose_apply _ g _ (ix3 b a c) (ix3 a b c) fun k => match k with | ⟨0, _⟩ => rfl | ⟨1, _⟩ => rfl | ⟨2, _⟩ => rfl

/-- Column 0 of the integer triples with the first two axes exchanged: entry (b, a) is the input at (a, b, 0). -/
theorem colOfInts0_apply (g : IVec S512x64x3 32) (b : Fin 64) (a : Fin 512) : colOfInts0 g (ix2 b a) = g (ix3 a b 0) := by
  unfold colOfInts0
  exact (col_apply 0 _ slices_S64x512x3_S64x512x1_0_0_0 b a).trans (swap3_apply g b a 0)

/-- Column 1 of the integer triples with the first two axes exchanged: entry (b, a) is the input at (a, b, 1). -/
theorem colOfInts1_apply (g : IVec S512x64x3 32) (b : Fin 64) (a : Fin 512) : colOfInts1 g (ix2 b a) = g (ix3 a b 1) := by
  unfold colOfInts1
  exact (col_apply 1 _ slices_S64x512x3_S64x512x1_0_0_1 b a).trans (swap3_apply g b a 1)

/-- the exchanged-axes form: entry (a, b, d) of embPairT is entry (b, a, d) of the pair -/
theorem embPairT_apply (E1 E2 : FVec Ideal S513x512 .f32) (g : IVec S512x64x3 32) (a : Fin 512) (b : Fin 64) (d : Fin 1024) :
    embPairT E1 E2 g (ix3 a b d) = embPair E1 E2 (colOfInts0 g) (colOfInts1 g) (ix3 b a d) := by
  unfold embPairT
  exact transpose_apply _ _ _ (ix3 a b d) (ix3 b a d) fun k => match k with | ⟨0, _⟩ => rfl | ⟨1, _⟩ => rfl | ⟨2, _⟩ => rfl

end Cert.ReferenceIdeal.BridgeR

end
-- ==== Proof.ValueR.lean ====
/-
  The reference's four results, entry by entry, over the contents at the end of its shared first part.

  With the x / y index words inside the tables' row range, each embedding result holds, at row (a, b) and column d, the
  target of the specification for that row's pair of index words: the gathered rows laid side by side (for the two
  [512, 64, 3] index inputs on the exchanged array, exchanged back). The fourth result is the scattered positions,
  reshaped.
-/
import proofs.«401964_j4724464025663_2_alg».proof.Proof.EvalR
import proofs.«401964_j4724464025663_2_alg».proof.Proof.BridgeR

set_option maxRecDepth 16384

noncomputable section

namespace Cert.ReferenceIdeal.ValueR

open Cert.ReferenceIdeal Cert.ReferenceIdeal.Gen Cert.ReferenceIdeal.Host Cert.ReferenceIdeal.Run Cert.Embed
open Idealize.ShloMosaic Idealize.ShloMosaic.TcCoe Idealize.SL.Sem Idealize.ShloMosaic.StableHlo Idealize.ShloMosaic.ValueIdx

variable (Y : Valuation τ sig (Elt Ideal))

/-- The first table at the end of the first part. -/
abbrev E1 : FVec Ideal S513x512 .f32 := Y (Proc.devRef .tc main_arg4)
/-- The second table at the end of the first part. -/
abbrev E2 : FVec Ideal S513x512 .f32 := Y (Proc.devRef .tc main_arg5)
/-- The second index input at the end of the first part. -/
abbrev A2 : IVec S512x64x3 32 := Y (Proc.devRef .tc main_arg2)
/-- The third index input at the end of the first part. -/
abbrev A3 : IVec S512x64x3 32 := Y (Proc.devRef .tc main_arg3)
/-- The scattered grid the first part leaves. -/
abbrev G43 : FVec Ideal S64x512x3 .f32 := Y (Proc.devRef .tc main_v43)

/-- An entry of the second result is the target for the second index input's pair at that row. -/
theorem entry_v105
    (hA : ∀ (a : Fin 512) (b : Fin 64) (j : Fin 3), j.val < 2 → 0 ≤ (A2 Y (ix3 a b j)).toInt ∧ (A2 Y (ix3 a b j)).toInt ≤ 512)
    (a : Fin 512) (b : Fin 64) (d : Fin 1024) :
    (after opsT Y (Proc.devRef .tc main_v105) : FVec Ideal S512x64x1024 .f32) (ix3 a b d)
      = tgt (E1 Y) (E2 Y) (A2 Y (ix3 a b 0)) (A2 Y (ix3 a b 1)) d := by
  rw [tail_v105, Cert.ReferenceIdeal.BridgeR.embPairT_apply]
  have p0 := Cert.ReferenceIdeal.BridgeR.colOfInts0_apply (A2 Y) b a
  have p1 := Cert.ReferenceIdeal.BridgeR.colOfInts1_apply (A2 Y) b a
  rw [Cert.ReferenceIdeal.BridgeR.embPair_table (E1 Y) (E2 Y) _ _ b a d
    (by rw [p0]; exact hA a b _ (by decide)) (by rw [p1]; exact hA a b _ (by decide)), p0, p1]

/-- An entry of the third result is the target for the third index input's pair at that row. -/
theorem entry_v126
    (hA : ∀ (a : Fin 512) (b : Fin 64) (j : Fin 3), j.val < 2 → 0 ≤ (A3 Y (ix3 a b j)).toInt ∧ (A3 Y (ix3 a b j)).toInt ≤ 512)
    (a : Fin 512) (b : Fin 64) (d : Fin 1024) :
    (after opsT Y (Proc.devRef .tc main_v126) : FVec Ideal S512x64x1024 .f32) (ix3 a b d)
      = tgt (E1 Y) (E2 Y) (A3 Y (ix3 a b 0)) (A3 Y (ix3 a b 1)) d := by
  rw [tail_v126, Cert.ReferenceIdeal.BridgeR.embPairT_apply]
  have p0 := Cert.ReferenceIdeal.BridgeR.colOfInts0_apply (A3 Y) b a
  have p1 := Cert.ReferenceIdeal.BridgeR.colOfInts1_apply (A3 Y) b a
  rw [Cert.ReferenceIdeal.BridgeR.embPair_table (E1 Y) (E2 Y) _ _ b a d
    (by rw [p0]; exact hA a b _ (by decide)) (by rw [p1]; exact hA a b _ (by decide)), p0, p1]

/-- An entry of the first result is the target for the scattered grid's (x, y) pair at that row, each converted to an
    integer word. -/
theorem entry_v84
    (hG : ∀ (b : Fin 64) (t : Fin 512) (j : Fin 3), j.val < 2 →
      0 ≤ (FloatOps.fptosi (F := Ideal) (φ := .f32) 32 (G43 Y (ix3 b t j))).toInt
      ∧ (FloatOps.fptosi (F := Ideal) (φ := .f32) 32 (G43 Y (ix3 b t j))).toInt ≤ 512)
    (b : Fin 64) (t : Fin 512) (d : Fin 1024) :
    (after opsT Y (Proc.devRef .tc main_v84) : FVec Ideal S64x512x1024 .f32) (ix3 b t d)
      = tgt (E1 Y) (E2 Y) (FloatOps.fptosi (F := Ideal) (φ := .f32) 32 (G43 Y (ix3 b t 0)))
          (FloatOps.fptosi (F := Ideal) (φ := .f32) 32 (G43 Y (ix3 b t 1))) d := by
  rw [tail_v84]
  have p0 := Cert.ReferenceIdeal.BridgeR.colOfGrid0_apply (G43 Y) b t
  have p1 := Cert.ReferenceIdeal.BridgeR.colOfGrid1_apply (G43 Y) b t
  rw [Cert.ReferenceIdeal.BridgeR.embPair_table (E1 Y) (E2 Y) _ _ b t d
    (by rw [p0]; exact hG b t _ (by decide)) (by rw [p1]; exact hG b t _ (by decide)), p0, p1]

end Cert.ReferenceIdeal.ValueR

end
-- ==== Proof.Agree.lean ====
/-
  The two programs share their first part: the same host operations, in the same order, over the same buffer names.
  From launch contents that agree on the two arguments the first part reads (the grid triples and the positions), the
  two folds leave the same scattered grid (statement %43) and the same scattered positions (statement %62).
-/
import proofs.«401964_j4724464025663_2_alg».proof.Proof.PrefixK
import proofs.«401964_j4724464025663_2_alg».proof.Proof.RefOps
import proofs.«401964_j4724464025663_2_alg».proof.Proof.FoldTac

set_option maxRecDepth 16384

noncomputable section

namespace Cert.Agree

open Idealize.ShloMosaic Idealize.ShloMosaic.TcCoe Idealize.SL.Sem Idealize.ShloMosaic.StableHlo

variable {F : FTy → Type} [FloatOps F]

set_option maxHeartbeats 16000000 in
/-- The scattered grid is the same in both programs. -/
theorem prefix_v43 (XK : Valuation Cert.KernelIdeal.τ Cert.KernelIdeal.sig (Elt F))
    (XR : Valuation Cert.ReferenceIdeal.τ Cert.ReferenceIdeal.sig (Elt F))
    (h0 : XR (Proc.devRef .tc Cert.ReferenceIdeal.main_arg0) = XK (Proc.devRef .tc Cert.KernelIdeal.main_arg0))
    (h1 : XR (Proc.devRef .tc Cert.ReferenceIdeal.main_arg1) = XK (Proc.devRef .tc Cert.KernelIdeal.main_arg1)) :
    after Cert.ReferenceIdeal.Run.opsP XR (Proc.devRef .tc Cert.ReferenceIdeal.main_v43)
      = Cert.KernelIdeal.Host.pref10 XK (Proc.devRef .tc Cert.KernelIdeal.main_v43) := by
  unfold Cert.KernelIdeal.Host.pref10
  fold_results
  rw [h0]
  rfl

set_option maxHeartbeats 16000000 in
/-- The scattered positions are the same in both programs. -/
theorem prefix_v62 (XK : Valuation Cert.KernelIdeal.τ Cert.KernelIdeal.sig (Elt F))
    (XR : Valuation Cert.ReferenceIdeal.τ Cert.ReferenceIdeal.sig (Elt F))
    (h0 : XR (Proc.devRef .tc Cert.ReferenceIdeal.main_arg0) = XK (Proc.devRef .tc Cert.KernelIdeal.main_arg0))
    (h1 : XR (Proc.devRef .tc Cert.ReferenceIdeal.main_arg1) = XK (Proc.devRef .tc Cert.KernelIdeal.main_arg1)) :
    after Cert.ReferenceIdeal.Run.opsP XR (Proc.devRef .tc Cert.ReferenceIdeal.main_v62)
      = Cert.KernelIdeal.Host.pref10 XK (Proc.devRef .tc Cert.KernelIdeal.main_v62) := by
  unfold Cert.KernelIdeal.Host.pref10
  fold_results
  rw [h0, h1]
  rfl

end Cert.Agree

end
-- ==== Proof.PreDecode.lean ====
/-
  What the precondition says, element by element.

  The precondition is a conjunction of nine "all entries satisfy" tests: three say that every entry x of a float array
  has |x| < +∞, and six say that the first two planes (last coordinate 0 or 1) of an integer array are, read signed,
  at least 0 and at most 512. Each test is an and-reduction of a mask over all axes, and the nine results are and-ed
  together. When the whole word is 1, every mask is 1 at every index. A float x with max x (-x) < ⊤ is neither ⊤
  nor ⊥, so it is a real number; a mask of a signed comparison against a constant that is 1 at an index gives the
  inequality between the signed readings there; and the slice that keeps the first two planes reads the array itself at
  the same coordinates.
-/
import proofs.«401964_j4724464025663_2_alg».proof.Pre_finite_inputs
import proofs.«401964_j4724464025663_2_alg».proof.Proof.Gen.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

/-- The scalar shape has one index. -/
instance subsingleton_scalar_idx : Subsingleton S_.Idx := ⟨fun a b => funext fun d => d.elim0⟩

/-! ## Elements -/

/-- An extended real whose absolute value max x (-x) is below ⊤ is a real number. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- The mask "|x| < +∞" being 1 at an entry makes the entry a real number. -/
theorem real_of_mask {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) :
    ∃ r : ℝ, x i = (r : EReal) := by
  apply real_of_abs_lt_top
  have e' : Ideal.cmp .olt (max (x i) (-(x i))) (Ideal.ofBits .f32 0x7F800000#32) = 1#1 := e
  have ht : Ideal.ofBits .f32 0x7F800000#32 = (⊤ : EReal) := by simp [Ideal.ofBits, Ideal.ieee]
  rw [ht] at e'
  simpa [Ideal.cmp, StableHlo.Predicate.ofBool_eq_one_iff] using e'

/-- The slice that keeps the first m2 planes of the last axis reads the array at the same coordinates. -/
theorem slice_ix3 {α : Type} {n0 n1 n2 m2 : Nat}
    (hs : (⟨3, ![n0, n1, n2]⟩ : Shape).Slices ![0, 0, 0] ⟨3, ![n0, n1, m2]⟩) (x : (⟨3, ![n0, n1, n2]⟩ : Shape).Idx → α)
    (a : Fin n0) (b : Fin n1) (j : Fin n2) (hj : j.val < m2) :
    extractStridedSlice ⟨3, ![n0, n1, m2]⟩ ![0, 0, 0] x hs (ix3 a b ⟨j.val, hj⟩) = x (ix3 a b j) := by
  unfold extractStridedSlice
  congr 1
  funext d
  match d with
  | ⟨0, _⟩ => apply Fin.ext; simp
  | ⟨1, _⟩ => apply Fin.ext; simp
  | ⟨2, _⟩ => apply Fin.ext; simp

/-- Both range masks being 1 at an entry of the sliced array: the entry of the array, read signed, lies in 0 .. 512. -/
theorem range_of_masks {n0 n1 n2 m2 : Nat}
    (hs : (⟨3, ![n0, n1, n2]⟩ : Shape).Slices ![0, 0, 0] ⟨3, ![n0, n1, m2]⟩)
    (hb : S_.BroadcastsInDim ⟨3, ![n0, n1, m2]⟩ (![] : Fin 0 → Fin 3))
    (x : IVec ⟨3, ![n0, n1, n2]⟩ 32) (a : Fin n0) (b : Fin n1) (j : Fin n2) (hj : j.val < m2)
    (hge : cmpi .sge (extractStridedSlice ⟨3, ![n0, n1, m2]⟩ ![0, 0, 0] x hs)
        (broadcastInDim ⟨3, ![n0, n1, m2]⟩ ![] hb (constantI S_ 32 0#32)) (ix3 a b ⟨j.val, hj⟩) = 1#1)
    (hle : cmpi .sle (extractStridedSlice ⟨3, ![n0, n1, m2]⟩ ![0, 0, 0] x hs)
        (broadcastInDim ⟨3, ![n0, n1, m2]⟩ ![] hb (constantI S_ 32 512#32)) (ix3 a b ⟨j.val, hj⟩) = 1#1) :
    0 ≤ (x (ix3 a b j)).toInt ∧ (x (ix3 a b j)).toInt ≤ 512 := by
  have hge' : IntOp.cmpi .sge (extractStridedSlice ⟨3, ![n0, n1, m2]⟩ ![0, 0, 0] x hs (ix3 a b ⟨j.val, hj⟩)) 0#32 = 1#1 := hge
  have hle' : IntOp.cmpi .sle (extractStridedSlice ⟨3, ![n0, n1, m2]⟩ ![0, 0, 0] x hs (ix3 a b ⟨j.val, hj⟩)) 512#32 = 1#1 := hle
  rw [slice_ix3 hs x a b j hj] at hge' hle'
  rw [IntOp.cmpi_sge] at hge'
  rw [IntOp.cmpi_sle] at hle'
  exact ⟨by simpa using hge', by simpa using hle'⟩

/-! ## The conjunction -/

section Decode

variable [hP : Cert.Pre_finite_inputs.Facts]
  (a0 : IVec Cert.Pre_finite_inputs.S64x256x3 32) (a1 : FVec Ideal Cert.Pre_finite_inputs.S64x256x2 .f32)
  (a2 a3 : IVec Cert.Pre_finite_inputs.S512x64x3 32) (a4 a5 : FVec Ideal Cert.Pre_finite_inputs.S513x512 .f32)
  (h : Cert.Pre_finite_inputs.fn (F := Ideal) a0 a1 a2 a3 a4 a5 = fun _ => 1#1)

include h

/-- Eight of the nine tests, each as "its mask is 1 at every index" (the test on the second argument, a float array
    neither table depends on, is dropped). -/
theorem masks :
    (∀ i, cmpf .olt (Host.absf a4) (broadcastInDim S513x512 ![] hP.bcast_S_S513x512 (constant (F := Ideal) S_ .f32 0x7F800000#32)) i = 1#1)
    ∧ (∀ i, cmpf .olt (Host.absf a5) (broadcastInDim S513x512 ![] hP.bcast_S_S513x512 (constant (F := Ideal) S_ .f32 0x7F800000#32)) i = 1#1)
    ∧ (∀ i, cmpi .sge (extractStridedSlice S64x256x2 ![0, 0, 0] a0 hP.slices_S64x256x3_S64x256x2_0_0_0)
        (broadcastInDim S64x256x2 ![] hP.bcast_S_S64x256x2 (constantI S_ 32 0#32)) i = 1#1)
    ∧ (∀ i, cmpi .sle (extractStridedSlice S64x256x2 ![0, 0, 0] a0 hP.slices_S64x256x3_S64x256x2_0_0_0)
        (broadcastInDim S64x256x2 ![] hP.bcast_S_S64x256x2 (constantI S_ 32 512#32)) i = 1#1)
    ∧ (∀ i, cmpi .sge (extractStridedSlice S512x64x2 ![0, 0, 0] a2 hP.slices_S512x64x3_S512x64x2_0_0_0)
        (broadcastInDim S512x64x2 ![] hP.bcast_S_S512x64x2 (constantI S_ 32 0#32)) i = 1#1)
    ∧ (∀ i, cmpi .sle (extractStridedSlice S512x64x2 ![0, 0, 0] a2 hP.slices_S512x64x3_S512x64x2_0_0_0)
        (broadcastInDim S512x64x2 ![] hP.bcast_S_S512x64x2 (constantI S_ 32 512#32)) i = 1#1)
    ∧ (∀ i, cmpi .sge (extractStridedSlice S512x64x2 ![0, 0, 0] a3 hP.slices_S512x64x3_S512x64x2_0_0_0)
        (broadcastInDim S512x64x2 ![] hP.bcast_S_S512x64x2 (constantI S_ 32 0#32)) i = 1#1)
    ∧ (∀ i, cmpi .sle (extractStridedSlice S512x64x2 ![0, 0, 0] a3 hP.slices_S512x64x3_S512x64x2_0_0_0)
        (broadcastInDim S512x64x2 ![] hP.bcast_S_S512x64x2 (constantI S_ 32 512#32)) i = 1#1) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨-, h7⟩, h12⟩, h17, h20⟩, h26, h29⟩, h35, h38⟩ := e
  exact ⟨fun i => Host.reduce_andi_all _ _ _ _ _ h7 i, fun i => Host.reduce_andi_all _ _ _ _ _ h12 i,
    fun i => Host.reduce_andi_all _ _ _ _ _ h17 i, fun i => Host.reduce_andi_all _ _ _ _ _ h20 i,
    fun i => Host.reduce_andi_all _ _ _ _ _ h26 i, fun i => Host.reduce_andi_all _ _ _ _ _ h29 i,
    fun i => Host.reduce_andi_all _ _ _ _ _ h35 i, fun i => Host.reduce_andi_all _ _ _ _ _ h38 i⟩

/-! ## What it says -/

/-- Every entry of the first table is a real number. -/
theorem E1_finite : ∀ i, ∃ r : ℝ, a4 i = (r : EReal) := fun i =>
  real_of_mask a4 hP.bcast_S_S513x512 i ((masks a0 a1 a2 a3 a4 a5 h).1 i)

/-- Every entry of the second table is a real number. -/
theorem E2_finite : ∀ i, ∃ r : ℝ, a5 i = (r : EReal) := fun i =>
  real_of_mask a5 hP.bcast_S_S513x512 i ((masks a0 a1 a2 a3 a4 a5 h).2.1 i)

/-- The first two planes of the source grid indices lie in 0 .. 512. -/
theorem src_range (a : Fin 64) (b : Fin 256) (j : Fin 3) (hj : j.val < 2) :
    0 ≤ (a0 (ix3 a b j)).toInt ∧ (a0 (ix3 a b j)).toInt ≤ 512 :=
  range_of_masks hP.slices_S64x256x3_S64x256x2_0_0_0 hP.bcast_S_S64x256x2 a0 a b j hj
    ((masks a0 a1 a2 a3 a4 a5 h).2.2.1 _) ((masks a0 a1 a2 a3 a4 a5 h).2.2.2.1 _)

/-- The first two planes of the previous grid indices lie in 0 .. 512. -/
theorem pre_range (a : Fin 512) (b : Fin 64) (j : Fin 3) (hj : j.val < 2) :
    0 ≤ (a2 (ix3 a b j)).toInt ∧ (a2 (ix3 a b j)).toInt ≤ 512 :=
  range_of_masks hP.slices_S512x64x3_S512x64x2_0_0_0 hP.bcast_S_S512x64x2 a2 a b j hj
    ((masks a0 a1 a2 a3 a4 a5 h).2.2.2.2.1 _) ((masks a0 a1 a2 a3 a4 a5 h).2.2.2.2.2.1 _)

/-- The first two planes of the next grid indices lie in 0 .. 512. -/
theorem next_range (a : Fin 512) (b : Fin 64) (j : Fin 3) (hj : j.val < 2) :
    0 ≤ (a3 (ix3 a b j)).toInt ∧ (a3 (ix3 a b j)).toInt ≤ 512 :=
  range_of_masks hP.slices_S512x64x3_S512x64x2_0_0_0 hP.bcast_S_S512x64x2 a3 a b j hj
    ((masks a0 a1 a2 a3 a4 a5 h).2.2.2.2.2.2.1 _) ((masks a0 a1 a2 a3 a4 a5 h).2.2.2.2.2.2.2 _)

end Decode

end Cert.PreDecode

end
-- ==== Proof.Final.lean ====
/-
  The two idealized programs end with equal results.

  The kernel's results are its three lookup calls' output arrays, reshaped, and the scattered positions; the
  reference's are the gathered rows laid side by side (for the two [512, 64, 3] index inputs computed on the exchanged
  array and exchanged back) and the same scattered positions. Entry by entry both are the target of the specification:
  the first table's row at the entry's x index for the first 512 columns, the second table's row at its y index for the
  last 512. The kernel reaches it through the one-hot sums over the padded tables' leading and residual parts, which at
  exact arithmetic, for finite tables and an index inside the tables' range, pick that very row; the reference through
  a gather whose wrap-around and clamp leave such an index alone. The scattered grid and positions come from the
  shared first part, the same operations in both programs, and the precondition gives the tables' finiteness and the
  index ranges.
-/
import proofs.«401964_j4724464025663_2_alg».proof.Defs
import proofs.«401964_j4724464025663_2_alg».proof.Proof.KernelRun
import proofs.«401964_j4724464025663_2_alg».proof.Proof.ValueK
import proofs.«401964_j4724464025663_2_alg».proof.Proof.RefRun
import proofs.«401964_j4724464025663_2_alg».proof.Proof.ValueR
import proofs.«401964_j4724464025663_2_alg».proof.Proof.Agree
import proofs.«401964_j4724464025663_2_alg».proof.Proof.PreDecode
import proofs.«401964_j4724464025663_2_alg».proof.Proof.SrcRange
import proofs.«401964_j4724464025663_2_alg».proof.Proof.Gen.Pre_finite_inputs

set_option maxRecDepth 16384

noncomputable section

namespace Cert.Final

open Idealize.ShloMosaic Idealize.ShloMosaic.TcCoe Idealize.SL.Sem Idealize.ShloMosaic.StableHlo Idealize.ShloMosaic.ValueIdx
open Cert.Embed

/-! ## The setting: a kernel memory satisfying the precondition, a reference memory agreeing with it on the arguments -/

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The contents of the reference's buffers at the end of its first part. -/
abbrev Y : Valuation Cert.ReferenceIdeal.τ Cert.ReferenceIdeal.sig (Elt Ideal) := after Cert.ReferenceIdeal.Run.opsP (launchContents m' c)

variable (hpre : Cert.Pre_KernelIdeal m)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

/-! ## The reference's first part leaves the arguments, and the same scattered grid and positions as the kernel's -/

include h2 in
theorem Y_arg2 : Cert.ReferenceIdeal.ValueR.A2 (Y m' c) = Cert.KernelIdeal.ValueK.A2 m c :=
  (Cert.ReferenceIdeal.Host.pref_arg2 (launchContents m' c)).trans h2
include h3 in
theorem Y_arg3 : Cert.ReferenceIdeal.ValueR.A3 (Y m' c) = Cert.KernelIdeal.ValueK.A3 m c :=
  (Cert.ReferenceIdeal.Host.pref_arg3 (launchContents m' c)).trans h3
include h4 in
theorem Y_arg4 : Cert.ReferenceIdeal.ValueR.E1 (Y m' c) = Cert.KernelIdeal.ValueK.E1 m c :=
  (Cert.ReferenceIdeal.Host.pref_arg4 (launchContents m' c)).trans h4
include h5 in
theorem Y_arg5 : Cert.ReferenceIdeal.ValueR.E2 (Y m' c) = Cert.KernelIdeal.ValueK.E2 m c :=
  (Cert.ReferenceIdeal.Host.pref_arg5 (launchContents m' c)).trans h5
include h0 h1 in
theorem Y_v43 : Cert.ReferenceIdeal.ValueR.G43 (Y m' c) = Cert.KernelIdeal.ValueK.G43 m ρ c :=
  Cert.Agree.prefix_v43 (Cert.KernelIdeal.Gen.W0 m ρ c) (launchContents m' c) h0 h1
include h0 h1 in
theorem Y_v62 : Y m' c (Proc.devRef .tc Cert.ReferenceIdeal.main_v62)
    = Cert.KernelIdeal.Host.pref10 (Cert.KernelIdeal.Gen.W0 m ρ c) (Proc.devRef .tc Cert.KernelIdeal.main_v62) :=
  Cert.Agree.prefix_v62 (Cert.KernelIdeal.Gen.W0 m ρ c) (launchContents m' c) h0 h1

/-! ## What the precondition gives -/

include hpre in
theorem fin1 : ∀ i, ∃ x : ℝ, Cert.KernelIdeal.ValueK.E1 m c i = (x : EReal) :=
  Cert.PreDecode.E1_finite _ _ _ _ _ _ (hpre c)
include hpre in
theorem fin2 : ∀ i, ∃ x : ℝ, Cert.KernelIdeal.ValueK.E2 m c i = (x : EReal) :=
  Cert.PreDecode.E2_finite _ _ _ _ _ _ (hpre c)
include hpre in
theorem rng2 (a : Fin 512) (b : Fin 64) (j : Fin 3) (hj : j.val < 2) :
    0 ≤ (Cert.KernelIdeal.ValueK.A2 m c (ix3 a b j)).toInt ∧ (Cert.KernelIdeal.ValueK.A2 m c (ix3 a b j)).toInt ≤ 512 :=
  Cert.PreDecode.pre_range _ _ _ _ _ _ (hpre c) a b j hj
include hpre in
theorem rng3 (a : Fin 512) (b : Fin 64) (j : Fin 3) (hj : j.val < 2) :
    0 ≤ (Cert.KernelIdeal.ValueK.A3 m c (ix3 a b j)).toInt ∧ (Cert.KernelIdeal.ValueK.A3 m c (ix3 a b j)).toInt ≤ 512 :=
  Cert.PreDecode.next_range _ _ _ _ _ _ (hpre c) a b j hj
include hpre in
theorem rngG (b : Fin 64) (t : Fin 512) (j : Fin 3) (hj : j.val < 2) :
    0 ≤ (FloatOps.fptosi (F := Ideal) (φ := .f32) 32 (Cert.KernelIdeal.ValueK.G43 m ρ c (ix3 b t j))).toInt
    ∧ (FloatOps.fptosi (F := Ideal) (φ := .f32) 32 (Cert.KernelIdeal.ValueK.G43 m ρ c (ix3 b t j))).toInt ≤ 512 :=
  Cert.KernelIdeal.SrcRange.grid_col_range (Cert.KernelIdeal.Gen.W0 m ρ c)
    (fun a l j hj => Cert.PreDecode.src_range _ _ _ _ _ _ (hpre c) a l j hj) b t j hj

/-! ## The four results agree -/

set_option maxHeartbeats 1000000 in
include hpre h0 h1 h4 h5 in
/-- The first result, entry by entry: the scattered grid's lookups. -/
theorem key_v84 (b : Fin 64) (t : Fin 512) (d : Fin 1024) :
    (after Cert.ReferenceIdeal.Run.opsT (Y m' c) (Proc.devRef .tc Cert.ReferenceIdeal.main_v84) : FVec Ideal Cert.ReferenceIdeal.S64x512x1024 .f32) (ix3 b t d)
      = (Cert.KernelIdeal.Gen.W27 m ρ c (Proc.devRef .tc Cert.KernelIdeal.main_v103) : FVec Ideal Cert.KernelIdeal.S64x512x1024 .f32) (ix3 b t d) := by
  have eG := Y_v43 m ρ m' c h0 h1
  have e1 := Y_arg4 m m' c h4
  have e2 := Y_arg5 m m' c h5
  have hG' : ∀ (b : Fin 64) (t : Fin 512) (j : Fin 3), j.val < 2 →
      0 ≤ (FloatOps.fptosi (F := Ideal) (φ := .f32) 32 (Cert.ReferenceIdeal.ValueR.G43 (Y m' c) (ix3 b t j))).toInt
      ∧ (FloatOps.fptosi (F := Ideal) (φ := .f32) 32 (Cert.ReferenceIdeal.ValueR.G43 (Y m' c) (ix3 b t j))).toInt ≤ 512 := by
    intro b t j hj; rw [eG]; exact rngG m ρ c hpre b t j hj
  refine (Cert.ReferenceIdeal.ValueR.entry_v84 (Y m' c) hG' b t d).trans ?_
  refine Eq.trans ?_ (Cert.KernelIdeal.ValueK.entry_v103 m ρ c (fin1 m c hpre) (fin2 m c hpre) (rngG m ρ c hpre) b t d).symm
  rw [eG, e1, e2]

set_option maxHeartbeats 1000000 in
include hpre h2 h4 h5 in
/-- The second result, entry by entry: the second index input's lookups. -/
theorem key_v105 (a : Fin 512) (b : Fin 64) (d : Fin 1024) :
    (after Cert.ReferenceIdeal.Run.opsT (Y m' c) (Proc.devRef .tc Cert.ReferenceIdeal.main_v105) : FVec Ideal Cert.ReferenceIdeal.S512x64x1024 .f32) (ix3 a b d)
      = (Cert.KernelIdeal.Gen.W27 m ρ c (Proc.devRef .tc Cert.KernelIdeal.main_v105) : FVec Ideal Cert.KernelIdeal.S512x64x1024 .f32) (ix3 a b d) := by
  have eA := Y_arg2 m m' c h2
  have e1 := Y_arg4 m m' c h4
  have e2 := Y_arg5 m m' c h5
  have hA' : ∀ (a : Fin 512) (b : Fin 64) (j : Fin 3), j.val < 2 →
      0 ≤ (Cert.ReferenceIdeal.ValueR.A2 (Y m' c) (ix3 a b j)).toInt ∧ (Cert.ReferenceIdeal.ValueR.A2 (Y m' c) (ix3 a b j)).toInt ≤ 512 := by
    intro a b j hj; rw [eA]; exact rng2 m c hpre a b j hj
  refine (Cert.ReferenceIdeal.ValueR.entry_v105 (Y m' c) hA' a b d).trans ?_
  refine Eq.trans ?_ (Cert.KernelIdeal.ValueK.entry_v105 m ρ c (fin1 m c hpre) (fin2 m c hpre) (rng2 m c hpre) a b d).symm
  rw [eA, e1, e2]

set_option maxHeartbeats 1000000 in
include hpre h3 h4 h5 in
/-- The third result, entry by entry: the third index input's lookups. -/
theorem key_v126 (a : Fin 512) (b : Fin 64) (d : Fin 1024) :
    (after Cert.ReferenceIdeal.Run.opsT (Y m' c) (Proc.devRef .tc Cert.ReferenceIdeal.main_v126) : FVec Ideal Cert.ReferenceIdeal.S512x64x1024 .f32) (ix3 a b d)
      = (Cert.KernelIdeal.Gen.W27 m ρ c (Proc.devRef .tc Cert.KernelIdeal.main_v107) : FVec Ideal Cert.KernelIdeal.S512x64x1024 .f32) (ix3 a b d) := by
  have eA := Y_arg3 m m' c h3
  have e1 := Y_arg4 m m' c h4
  have e2 := Y_arg5 m m' c h5
  have hA' : ∀ (a : Fin 512) (b : Fin 64) (j : Fin 3), j.val < 2 →
      0 ≤ (Cert.ReferenceIdeal.ValueR.A3 (Y m' c) (ix3 a b j)).toInt ∧ (Cert.ReferenceIdeal.ValueR.A3 (Y m' c) (ix3 a b j)).toInt ≤ 512 := by
    intro a b j hj; rw [eA]; exact rng3 m c hpre a b j hj
  refine (Cert.ReferenceIdeal.ValueR.entry_v126 (Y m' c) hA' a b d).trans ?_
  refine Eq.trans ?_ (Cert.KernelIdeal.ValueK.entry_v107 m ρ c (fin1 m c hpre) (fin2 m c hpre) (rng3 m c hpre) a b d).symm
  rw [eA, e1, e2]

set_option maxHeartbeats 1000000 in
include h0 h1 in
/-- The fourth result: the scattered positions. -/
theorem key_v63 : after Cert.ReferenceIdeal.Run.opsT (Y m' c) (Proc.devRef .tc Cert.ReferenceIdeal.main_v63)
    = Cert.KernelIdeal.Gen.W27 m ρ c (Proc.devRef .tc Cert.KernelIdeal.main_v63) := by
  rw [Cert.ReferenceIdeal.Host.tail_v63, Cert.KernelIdeal.ValueK.res_v63, Y_v62 m ρ m' c h0 h1]

/-! ## As whole arrays -/

set_option maxHeartbeats 1000000 in
include hpre h0 h1 h4 h5 in
theorem all_v84 : after Cert.ReferenceIdeal.Run.opsT (Y m' c) (Proc.devRef .tc Cert.ReferenceIdeal.main_v84)
    = Cert.KernelIdeal.Gen.W27 m ρ c (Proc.devRef .tc Cert.KernelIdeal.main_v103) := by
  refine funext fun (i : Cert.ReferenceIdeal.S64x512x1024.Idx) => ?_
  obtain ⟨b, t, d, rfl⟩ : ∃ (b : Fin 64) (t : Fin 512) (d : Fin 1024), i = ix3 b t d := ⟨i 0, i 1, i 2, eq_ix3 i⟩
  exact key_v84 m ρ m' c hpre h0 h1 h4 h5 b t d

set_option maxHeartbeats 1000000 in
include hpre h2 h4 h5 in
theorem all_v105 : after Cert.ReferenceIdeal.Run.opsT (Y m' c) (Proc.devRef .tc Cert.ReferenceIdeal.main_v105)
    = Cert.KernelIdeal.Gen.W27 m ρ c (Proc.devRef .tc Cert.KernelIdeal.main_v105) := by
  refine funext fun (i : Cert.ReferenceIdeal.S512x64x1024.Idx) => ?_
  obtain ⟨a, b, d, rfl⟩ : ∃ (a : Fin 512) (b : Fin 64) (d : Fin 1024), i = ix3 a b d := ⟨i 0, i 1, i 2, eq_ix3 i⟩
  exact key_v105 m ρ m' c hpre h2 h4 h5 a b d

set_option maxHeartbeats 1000000 in
include hpre h3 h4 h5 in
theorem all_v126 : after Cert.ReferenceIdeal.Run.opsT (Y m' c) (Proc.devRef .tc Cert.ReferenceIdeal.main_v126)
    = Cert.KernelIdeal.Gen.W27 m ρ c (Proc.devRef .tc Cert.KernelIdeal.main_v107) := by
  refine funext fun (i : Cert.ReferenceIdeal.S512x64x1024.Idx) => ?_
  obtain ⟨a, b, d, rfl⟩ : ∃ (a : Fin 512) (b : Fin 64) (d : Fin 1024), i = ix3 a b d := ⟨i 0, i 1, i 2, eq_ix3 i⟩
  exact key_v126 m ρ m' c hpre h3 h4 h5 a b d

end Cert.Final

end
-- ==== Proof.lean ====
/-
  The certificate's five claims.

  Both kernel programs run to the end with their arguments unchanged: the launch over the host stretches and the three
  lookup calls. The reference runs as the fold of its host operations, none of which writes an argument. The idealized
  kernel is the kernel's own text read at exact arithmetic (no rewrite was applied). And the two idealized programs,
  from memories agreeing on the arguments and satisfying the precondition — finite tables, x / y indices inside the
  tables' row range —, end with equal results: the kernel's final contents at its four result buffers serve as the
  common values, the kernel's run reaching them by definition and the reference's by the four equations of the
  previous module.
-/
import proofs.«401964_j4724464025663_2_alg».proof.Defs
import proofs.«401964_j4724464025663_2_alg».proof.Proof.Gen.Kernel
import proofs.«401964_j4724464025663_2_alg».proof.Proof.Gen.Kernel.Frame
import proofs.«401964_j4724464025663_2_alg».proof.Proof.Gen.KernelIdeal
import proofs.«401964_j4724464025663_2_alg».proof.Proof.Gen.KernelIdeal.Frame
import proofs.«401964_j4724464025663_2_alg».proof.Proof.Gen.ReferenceIdeal
import proofs.«401964_j4724464025663_2_alg».proof.Proof.Gen.Pre_finite_inputs
import proofs.«401964_j4724464025663_2_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The kernel as printed runs and leaves its arguments alone. -/
theorem frame_kernel : Cert.frame_Kernel := fun m ρ _ => Cert.Kernel.Gen.frame m ρ

/-- The idealized kernel runs and leaves its arguments alone. -/
theorem frame_kernelIdeal : Cert.frame_KernelIdeal := fun m ρ _ => Cert.KernelIdeal.Gen.frame m ρ

/-- The idealized reference runs; neither its first part nor the rest writes an argument. -/
theorem frame_referenceIdeal : Cert.frame_ReferenceIdeal := fun m ρ _ =>
  (θ_run Cert.ReferenceIdeal.defs _ _).mono (fun _ h c =>
    ⟨(h c Cert.ReferenceIdeal.main_arg0).trans (by rw [Cert.ReferenceIdeal.Host.tail_arg0, Cert.ReferenceIdeal.Host.pref_arg0]),
     (h c Cert.ReferenceIdeal.main_arg1).trans (by rw [Cert.ReferenceIdeal.Host.tail_arg1, Cert.ReferenceIdeal.Host.pref_arg1]),
     (h c Cert.ReferenceIdeal.main_arg2).trans (by rw [Cert.ReferenceIdeal.Host.tail_arg2, Cert.ReferenceIdeal.Host.pref_arg2]),
     (h c Cert.ReferenceIdeal.main_arg3).trans (by rw [Cert.ReferenceIdeal.Host.tail_arg3, Cert.ReferenceIdeal.Host.pref_arg3]),
     (h c Cert.ReferenceIdeal.main_arg4).trans (by rw [Cert.ReferenceIdeal.Host.tail_arg4, Cert.ReferenceIdeal.Host.pref_arg4]),
     (h c Cert.ReferenceIdeal.main_arg5).trans (by rw [Cert.ReferenceIdeal.Host.tail_arg5, Cert.ReferenceIdeal.Host.pref_arg5])⟩)
    (Cert.ReferenceIdeal.Run.run_main (F := Ideal) m ρ)

/-- No operation was rewritten: the idealized kernel is the kernel's text at exact arithmetic. -/
theorem preserves : Cert.preserves_Kernel_KernelIdeal := trivial

/-- Equal results at exact arithmetic. -/
theorem algebraic : Cert.algebraic_KernelIdeal_ReferenceIdeal := by
  intro m ρ m' ρ' hpre hagree
  refine ⟨fun c => Cert.KernelIdeal.Gen.W27 m ρ c (Proc.devRef .tc Cert.KernelIdeal.main_v103),
    fun c => Cert.KernelIdeal.Gen.W27 m ρ c (Proc.devRef .tc Cert.KernelIdeal.main_v105),
    fun c => Cert.KernelIdeal.Gen.W27 m ρ c (Proc.devRef .tc Cert.KernelIdeal.main_v107),
    fun c => Cert.KernelIdeal.Gen.W27 m ρ c (Proc.devRef .tc Cert.KernelIdeal.main_v63), ?_, ?_⟩
  · refine (θ_run Cert.KernelIdeal.defs _ _).mono (fun r h c => ?_) (Cert.KernelIdeal.Run.run_all (F := Ideal) m ρ)
    exact ⟨h c _ (Cert.KernelIdeal.Gen.mem_uc Cert.KernelIdeal.main_v103 (by decide)),
      h c _ (Cert.KernelIdeal.Gen.mem_uc Cert.KernelIdeal.main_v105 (by decide)),
      h c _ (Cert.KernelIdeal.Gen.mem_uc Cert.KernelIdeal.main_v107 (by decide)),
      h c _ (Cert.KernelIdeal.Gen.mem_uc Cert.KernelIdeal.main_v63 (by decide)),
      (h c _ (Cert.KernelIdeal.Gen.mem_uc Cert.KernelIdeal.main_arg0 (by decide))).trans (Cert.KernelIdeal.Gen.W27_main_arg0 m ρ c),
      (h c _ (Cert.KernelIdeal.Gen.mem_uc Cert.KernelIdeal.main_arg1 (by decide))).trans (Cert.KernelIdeal.Gen.W27_main_arg1 m ρ c),
      (h c _ (Cert.KernelIdeal.Gen.mem_uc Cert.KernelIdeal.main_arg2 (by decide))).trans (Cert.KernelIdeal.Gen.W27_main_arg2 m ρ c),
      (h c _ (Cert.KernelIdeal.Gen.mem_uc Cert.KernelIdeal.main_arg3 (by decide))).trans (Cert.KernelIdeal.Gen.W27_main_arg3 m ρ c),
      (h c _ (Cert.KernelIdeal.Gen.mem_uc Cert.KernelIdeal.main_arg4 (by decide))).trans (Cert.KernelIdeal.Gen.W27_main_arg4 m ρ c),
      (h c _ (Cert.KernelIdeal.Gen.mem_uc Cert.KernelIdeal.main_arg5 (by decide))).trans (Cert.KernelIdeal.Gen.W27_main_arg5 m ρ c)⟩
  · refine (θ_run Cert.ReferenceIdeal.defs _ _).mono (fun r h c => ?_) (Cert.ReferenceIdeal.Run.run_main (F := Ideal) m' ρ')
    obtain ⟨h0, h1, h2, h3, h4, h5⟩ := hagree c
    exact ⟨(h c Cert.ReferenceIdeal.main_v84).trans (Cert.Final.all_v84 m ρ m' c hpre h0 h1 h4 h5),
      (h c Cert.ReferenceIdeal.main_v105).trans (Cert.Final.all_v105 m ρ m' c hpre h2 h4 h5),
      (h c Cert.ReferenceIdeal.main_v126).trans (Cert.Final.all_v126 m ρ m' c hpre h3 h4 h5),
      (h c Cert.ReferenceIdeal.main_v63).trans (Cert.Final.key_v63 m ρ m' c h0 h1),
      (h c Cert.ReferenceIdeal.main_arg0).trans (by rw [Cert.ReferenceIdeal.Host.tail_arg0, Cert.ReferenceIdeal.Host.pref_arg0]),
      (h c Cert.ReferenceIdeal.main_arg1).trans (by rw [Cert.ReferenceIdeal.Host.tail_arg1, Cert.ReferenceIdeal.Host.pref_arg1]),
      (h c Cert.ReferenceIdeal.main_arg2).trans (by rw [Cert.ReferenceIdeal.Host.tail_arg2, Cert.ReferenceIdeal.Host.pref_arg2]),
      (h c Cert.ReferenceIdeal.main_arg3).trans (by rw [Cert.ReferenceIdeal.Host.tail_arg3, Cert.ReferenceIdeal.Host.pref_arg3]),
      (h c Cert.ReferenceIdeal.main_arg4).trans (by rw [Cert.ReferenceIdeal.Host.tail_arg4, Cert.ReferenceIdeal.Host.pref_arg4]),
      (h c Cert.ReferenceIdeal.main_arg5).trans (by rw [Cert.ReferenceIdeal.Host.tail_arg5, Cert.ReferenceIdeal.Host.pref_arg5])⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
